-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128x1 : Shape := ⟨2, ![128, 1]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : IVec S8192x8192 32) (main_arg2 : FVec F S128x128 .f32) (main_arg3 : FVec F S128x1 .f32) (main_arg4 : FVec F S128x1 .f32) (main_arg5 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S128x4096 : Shape := ⟨2, ![128, 4096]⟩
abbrev S8192x256 : Shape := ⟨2, ![8192, 256]⟩
abbrev S8192x1 : Shape := ⟨2, ![8192, 1]⟩
abbrev S1x8192 : Shape := ⟨2, ![1, 8192]⟩
abbrev S1x4096 : Shape := ⟨2, ![1, 4096]⟩
abbrev S4096x256 : Shape := ⟨2, ![4096, 256]⟩
abbrev S128x256 : Shape := ⟨2, ![128, 256]⟩

abbrev nBuf : Space → Nat
  | .hbm => 9
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128x1, .f32⟩
  | .hbm, ⟨4, _⟩ => ⟨S128x1, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S8192x128, .f32⟩
  | .local _ .vmem, ⟨0, _⟩ => ⟨S128x4096, .i32⟩
  | .local _ .vmem, ⟨1, _⟩ => ⟨S128x4096, .i32⟩
  | .local _ .vmem, ⟨2, _⟩ => ⟨S128x4096, .i32⟩
  | .local _ .vmem, ⟨3, _⟩ => ⟨S128x4096, .i32⟩
  | .local _ .vmem, ⟨4, _⟩ => ⟨S8192x128, .f32⟩
  | .local _ .vmem, ⟨5, _⟩ => ⟨S128x128, .f32⟩
  | .local _ .vmem, ⟨6, _⟩ => ⟨S128x1, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S128x128, .f32⟩
  | .local _ .vmem, ⟨11, _⟩ => ⟨S8192x256, .bf16⟩
  | .local _ .vmem, ⟨12, _⟩ => ⟨S8192x1, .bf16⟩
  | .local _ .vmem, ⟨13, _⟩ => ⟨S8192x1, .bf16⟩
  | .local _ .vmem, ⟨14, _⟩ => ⟨S1x8192, .bf16⟩
  | .local _ .vmem, ⟨15, _⟩ => ⟨S1x8192, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg0 : BitVec 32 := BitVec.ofNat 32 (i 0).val
  let c1_i32 : BitVec 32 := 1#32
  let v6 : BitVec 32 := Scalar.subi arg0 c1_i32
  let c128_i32 : BitVec 32 := 128#32
  let v7 : BitVec 32 := Scalar.muli v6 c128_i32
  let v8 : Index := Scalar.indexCast v7
  let c0 : Index := 0#32
  ![v8.toNat, 0]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x1_S1x128_1_0 : S128x1.Transposes [1, 0] S1x128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S8192x256_S8192x128_0_0 : ∀ a, (![0, 0] : Fin 2 → Nat) a + S8192x128.size a ≤ S8192x256.size a
  shapeCasts_S8192x128_S8192x128 : S8192x128.ShapeCasts S8192x128
  packedbf16_S8192x256_S8192x128_0_0 : (Rect.unit (s := S8192x256) ![0, 0] S8192x128.size inb_S8192x256_S8192x128_0_0).PackedRows (EltTy.packing .bf16)
  iota_S8192x128_d1_w32 : S8192x128.Iotas .tc 32 [1]
  inb_S8192x256_S8192x128_0_128 : ∀ a, (![0, 128] : Fin 2 → Nat) a + S8192x128.size a ≤ S8192x256.size a
  packedbf16_S8192x256_S8192x128_0_128 : (Rect.unit (s := S8192x256) ![0, 128] S8192x128.size inb_S8192x256_S8192x128_0_128).PackedRows (EltTy.packing .bf16)
  inb_S128x1_S128x1_0_0 : ∀ a, (![0, 0] : Fin 2 → Nat) a + S128x1.size a ≤ S128x1.size a
  h_S128x1 : 0 < S128x1.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  packedbf16_S8192x1_S8192x1_0_0 : (Rect.unit (s := S8192x1) ![0, 0] S8192x1.size inb_S8192x1_S8192x1_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  packedbf16_S1x8192_S1x8192_0_0 : (Rect.unit (s := S1x8192) ![0, 0] S1x8192.size inb_S1x8192_S1x8192_0_0).PackedRows (EltTy.packing .bf16)
  slices_S1x8192_o0_0_S1x4096 : S1x8192.Slices ![0, 0] S1x4096
  broadcasts_S128x1_S128x4096 : S128x1.Broadcasts S128x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  inb_S8192x256_S4096x256_0_0 : ∀ a, (![0, 0] : Fin 2 → Nat) a + S4096x256.size a ≤ S8192x256.size a
  h_S4096x256 : 0 < S4096x256.numel
  slices_S1x8192_o0_4096_S1x4096 : S1x8192.Slices ![0, 4096] S1x4096
  inb_S8192x256_S4096x256_4096_0 : ∀ a, (![4096, 0] : Fin 2 → Nat) a + S4096x256.size a ≤ S8192x256.size a
  slices_S128x256_o0_0_S128x128 : S128x256.Slices ![0, 0] S128x128
  slices_S128x256_o0_128_S128x1 : S128x256.Slices ![0, 128] S128x1
  broadcasts_S128x1_S128x128 : S128x1.Broadcasts S128x128
  broadcasts_S1x128_S128x128 : S1x128.Broadcasts S128x128
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S1x128_S8192x128_S1x8192_1_1_0_0_n_n_wf : DotDims.WF S1x128 S8192x128 S1x8192 [1] [1] [0] [0] [] []
  dot_S128x4096_S4096x256_S128x256_1_0_0_1_n_n_wf : DotDims.WF S128x4096 S4096x256 S128x256 [1] [0] [0] [1] [] []
  hrank0 : 0 < grid0.rank
  k0_off1_inb : ∀ i : grid0.Coords, ∀ (k0_h2 : k0_cond2 i = 1#1), ∀ a, (k0_off1 i) a + S128x1.size a ≤ S8192x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x8192.size a
  hwx0_0 : ∀ i : grid0.Coords, EltTy.bits .i32 = 32 ∨ (Rect.block (s := S8192x8192) S128x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x8192.size a
  hwx0_1 : ∀ i : grid0.Coords, EltTy.bits .i32 = 32 ∨ (Rect.block (s := S8192x8192) S128x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S8192x128.size a
  hwx0_7 : ∀ i : grid0.Coords, EltTy.bits .f32 = 32 ∨ (Rect.block (s := S8192x128) S128x128.size (cc0_transform_7 i) (hinb0_7 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1x128_S8192x128_S1x8192_1_1_0_0_n_n : DotDims S1x128 S8192x128 S1x8192 where
  lhsContracting := [1]
  rhsContracting := [1]
  lhsNonContracting := [0]
  rhsNonContracting := [0]
  lhsBatch := []
  rhsBatch := []
  wf := dot_S1x128_S8192x128_S1x8192_1_1_0_0_n_n_wf
def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128x1 : Shape := ⟨2, ![128, 1]⟩
abbrev S128 : Shape := ⟨1, ![128]⟩
abbrev S_ : Shape := ⟨0, ![]⟩
abbrev S8192x1 : Shape := ⟨2, ![8192, 1]⟩
abbrev S8192 : Shape := ⟨1, ![8192]⟩
abbrev S1x8192 : Shape := ⟨2, ![1, 8192]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x128, .f32⟩
  | .hbm, ⟨3, _⟩ => ⟨S128x1, .f32⟩
  | .hbm, ⟨4, _⟩ => ⟨S128x1, .f32⟩
  | .hbm, ⟨5, _⟩ => ⟨S128, .f32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x128, .f32⟩
  | .hbm, ⟨10, _⟩ => ⟨S8192x1, .f32⟩
  | .hbm, ⟨11, _⟩ => ⟨S8192, .f32⟩
  | .hbm, ⟨12, _⟩ => ⟨S8192x1, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S_, .f32⟩
  | .hbm, ⟨21, _⟩ => ⟨S8192x8192, .f32⟩
  | .hbm, ⟨22, _⟩ => ⟨S8192x8192, .i1⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x128, .f32⟩
  | .hbm, ⟨44, _⟩ => ⟨S1x128, .f32⟩
  | .hbm, ⟨45, _⟩ => ⟨S8192x128, .f32⟩
  | .hbm, ⟨46, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_call1_v0 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192x1 : S_.BroadcastsInDim S8192x1 (![] : Fin 0 → Fin S8192x1.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Kit.lean ====
/- What the kernel region of the attention layer finds and is run on: the buffers' contents when the region is
   entered (the launch contents after the transpose of the right attention vector and the reshape of the bias),
   @main up to the region, each window's block, the two control cases of the body (the projection step at grid
   point 0, one row block of the adjacency at every later point) decided over the 65 grid points, where the
   output window is idle, and the memrefs and views the body's triples are stated over. At any float instance. -/
import proofs.«130185_g11553462026822_cont_9to1c4b_334_25_alg».proof.Proof.Gen.Kernel.Launch
import proofs.«130185_g11553462026822_cont_9to1c4b_334_25_alg».proof.Proof.Gen.Kernel.Skeleton
import proofs.«130185_g11553462026822_cont_9to1c4b_334_25_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the launch contents after the two host operations
    (the transpose of the right attention vector and the reshape of the bias). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh fun c => main_chain c

/-- The host operations write only their own results: the six arguments are as launched. -/
theorem V_main_arg0 (c : Dev nD) : V m c main_arg0 = m ((c : Thread nD τ).loc main_arg0) := by
  dsimp only [V, V0, hostOps0]; after_results
theorem V_main_arg1 (c : Dev nD) : V m c main_arg1 = m ((c : Thread nD τ).loc main_arg1) := by
  dsimp only [V, V0, hostOps0]; after_results
theorem V_main_arg2 (c : Dev nD) : V m c main_arg2 = m ((c : Thread nD τ).loc main_arg2) := by
  dsimp only [V, V0, hostOps0]; after_results
theorem V_main_arg3 (c : Dev nD) : V m c main_arg3 = m ((c : Thread nD τ).loc main_arg3) := by
  dsimp only [V, V0, hostOps0]; after_results
theorem V_main_arg4 (c : Dev nD) : V m c main_arg4 = m ((c : Thread nD τ).loc main_arg4) := by
  dsimp only [V, V0, hostOps0]; after_results
theorem V_main_arg5 (c : Dev nD) : V m c main_arg5 = m ((c : Thread nD τ).loc main_arg5) := by
  dsimp only [V, V0, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two control cases -/

/-- The first conditional's condition (the projection step): the grid coordinate is zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional's condition (a row block of the adjacency): the grid coordinate is positive. -/
abbrev cond0_1 (i : grid0.Coords) : Prop := k0_cond2 i = 1#1
theorem hcond0_1 : ∀ t : Fin cfg0.N, cond0_1 (grid0.coords t) ↔ t.val ≠ 0 :=
  (by decide +kernel : ∀ t : Fin grid0.N, cond0_1 (grid0.coords t) ↔ t.val ≠ 0)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- At the first point the body stores nothing into the output window, -/
theorem idleAt0_7_A : ∀ t : Fin cfg0.N, t.val = 0 → cfg0.idle 7 (grid0.coords t) = true := by decide +kernel
/-- and the pipeline does not write its block back there (the next point has the same block index). -/
theorem noFlush0_7_A : ∀ t : Fin cfg0.N, t.val = 0 → (cfg0.win 7).flush t = false := by decide +kernel
/-- At every later point the body stores the whole block. -/
theorem liveAt0_7_B : ∀ t : Fin cfg0.N, t.val ≠ 0 → cfg0.idle 7 (grid0.coords t) = false := by decide +kernel

/-! ## The memrefs and views the body's triples are stated over -/

abbrev ms0_0 (t : Fin cfg0.N) : Memref sig .tc .vmem S128x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)

/-- The five scratch operands: the projected features beside a ones column, and the four exponential vectors. -/
abbrev scM0_0 : Memref sig .tc .vmem S8192x256 .bf16 := Memref.whole cc0_scratch0
abbrev scM0_1 : Memref sig .tc .vmem S8192x1 .bf16 := Memref.whole cc0_scratch1
abbrev scM0_2 : Memref sig .tc .vmem S8192x1 .bf16 := Memref.whole cc0_scratch2
abbrev scM0_3 : Memref sig .tc .vmem S1x8192 .bf16 := Memref.whole cc0_scratch3
abbrev scM0_4 : Memref sig .tc .vmem S1x8192 .bf16 := Memref.whole cc0_scratch4
abbrev VS0_0 : View sig .tc .vmem S8192x256 .bf16 := scM0_0.view
abbrev VS0_1 : View sig .tc .vmem S8192x1 .bf16 := scM0_1.view
abbrev VS0_2 : View sig .tc .vmem S8192x1 .bf16 := scM0_2.view
abbrev VS0_3 : View sig .tc .vmem S1x8192 .bf16 := scM0_3.view
abbrev VS0_4 : View sig .tc .vmem S1x8192 .bf16 := scM0_4.view
/-- One staging buffer of the output window, through which its contents are stated. -/
abbrev VO0_7 : View sig .tc .vmem S128x128 .f32 := (Memref.whole cc0_stg7_0 : Memref sig .tc .vmem S128x128 .f32).view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.K.RunA.lean ====
/- The attention layer's kernel body at the first grid point (the projection step): the first conditional is
   taken, the second is not. The body reads the features h, the weight W and the two attention vectors, and
   stores the five scratch buffers: the projected features h·W (rounded to bf16) in the left column half of the
   first, a ones column followed by zeros in its right half, and the four exponential vectors
   exp((h·W)·Wl), exp(0.2·(h·W)·Wl), exp(Wr^T·(h·W)^T), exp(0.2·Wr^T·(h·W)^T). Every other buffer, the output
   block included, is handed back as it was found. The pieces each scratch buffer ends with (last first) are
   the witness. At any float instance. -/
import proofs.«130185_g11553462026822_cont_9to1c4b_334_25_alg».proof.Proof.K.Kit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- What the projection step's stores leave in the five scratch buffers, as pieces (last first), with the proof that on
    whole memrefs — the seven inputs' at their contents, the output block's at `xi7`, the scratch buffers' at anything —
    the body runs to a continuation that holds the inputs' and the output block's as they were and each scratch buffer
    with its pieces written. The pieces depend only on h (`x2`), W (`x3`), Wl (`x4`) and Wr^T (`x5`). -/
noncomputable def kernelRun0_A (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) :
    Σ' (LS0 : List (View.Piece (Elt F) S8192x256 .bf16)) (LS1 : List (View.Piece (Elt F) S8192x1 .bf16)) (LS2 : List (View.Piece (Elt F) S8192x1 .bf16)) (LS3 : List (View.Piece (Elt F) S1x8192 .bf16)),
      { LS4 : List (View.Piece (Elt F) S1x8192 .bf16) //
        ∀ (x0 x1 : Vec F S128x4096 .i32) (x6 : Vec F S1x128 .f32) (xi7 : Vec F S128x128 .f32) (E : Set ℕ) (K : PUnit → sProp 𝕄),
          iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
              ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
              ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                  ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
            ⊢ wp frame (wpE (defs₀ (F := F)) Variants.none c none) E (cc0__gat_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x0 x1 x6 xi7 E K => ?run⟩
  case run =>
    simp only [cc0__gat_kernel_eq_skeleton]; unfold cc0__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    isplitl [HS1]
    · iexists _; iexact HS1
    isplitl [HS2]
    · iexists _; iexact HS2
    isplitl [HS3]
    · iexists _; iexact HS3
    iexists _; iexact HS4

/-- The zero offsets of a rank-two rectangle, as the constant function. -/
private theorem zero_off2 : (![0, 0] : Fin 2 → Nat) = fun _ => 0 := funext fun a => by fin_cases a <;> rfl

/-! ## What the witness is

Each input is loaded whole, through the rectangle at zero offsets of its own sizes, so a load reads the contents:
the pieces are the skeleton's payloads at h, W, Wl and Wr^T themselves. -/

set_option maxRecDepth 65536 in
/-- The projected features' buffer ends with two pieces: the ones-then-zeros block in its right column half
    (stored last) over the rounded projection h·W in its left column half. -/
theorem kernelRun0_A_LS0 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).1 = [⟨Rect.unit (s := S8192x256) ![0, 128] S8192x128.size inb_S8192x256_S8192x128_0_128, k0_pay7⟩,
      ⟨Rect.unit (s := S8192x256) ![0, 0] S8192x128.size inb_S8192x256_S8192x128_0_0, k0_pay6 x2 x3⟩] := by
  unfold kernelRun0_A; dsimp only
  simp only [View.readAt_eq_ld, harg3.read_unread, harg4.read_unread, View.ld_unit_zero (S := S8192x128) zero_off2, View.ld_unit_zero (S := S128x128) zero_off2]

set_option maxRecDepth 65536 in
/-- The first column vector is one whole piece: exp((h·W)·Wl), rounded. -/
theorem kernelRun0_A_LS1 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.1 = [⟨Rect.unit (s := S8192x1) ![0, 0] S8192x1.size inb_S8192x1_S8192x1_0_0, k0_pay9 x2 x3 x4⟩] := by
  unfold kernelRun0_A; dsimp only
  simp only [View.readAt_eq_ld, harg3.read_unread, harg4.read_unread, harg5.read_unread, View.ld_unit_zero (S := S8192x128) zero_off2, View.ld_unit_zero (S := S128x128) zero_off2, View.ld_unit_zero (S := S128x1) zero_off2]

set_option maxRecDepth 65536 in
/-- The second column vector is one whole piece: exp(0.2·(h·W)·Wl), rounded. -/
theorem kernelRun0_A_LS2 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.1 = [⟨Rect.unit (s := S8192x1) ![0, 0] S8192x1.size inb_S8192x1_S8192x1_0_0, k0_pay10 x2 x3 x4⟩] := by
  unfold kernelRun0_A; dsimp only
  simp only [View.readAt_eq_ld, harg3.read_unread, harg4.read_unread, harg5.read_unread, View.ld_unit_zero (S := S8192x128) zero_off2, View.ld_unit_zero (S := S128x128) zero_off2, View.ld_unit_zero (S := S128x1) zero_off2]

set_option maxRecDepth 65536 in
/-- The first row vector is one whole piece: exp(Wr^T·(h·W)^T), rounded (the product accumulated over zero). -/
theorem kernelRun0_A_LS3 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.1 = [⟨Rect.unit (s := S1x8192) ![0, 0] S1x8192.size inb_S1x8192_S1x8192_0_0,
      k0_pay2 (k0_pay5 x2 x3) (k0_pay11 x5) (constant S1x8192 .f32 0x00000000#32)⟩] := by
  unfold kernelRun0_A; dsimp only; sl_unfold_run_names
  simp only [View.readAt_eq_ld, harg3.read_unread, harg4.read_unread, harg6.read_unread, View.ld_unit_zero (S := S8192x128) zero_off2, View.ld_unit_zero (S := S128x128) zero_off2, View.ld_unit_zero (S := S1x128) zero_off2]

set_option maxRecDepth 65536 in
/-- The second row vector is one whole piece: exp(0.2·Wr^T·(h·W)^T), rounded. -/
theorem kernelRun0_A_LS4 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.2.1 = [⟨Rect.unit (s := S1x8192) ![0, 0] S1x8192.size inb_S1x8192_S1x8192_0_0,
      k0_pay3 (k0_pay5 x2 x3) (k0_pay11 x5) (constant S1x8192 .f32 0x00000000#32)⟩] := by
  unfold kernelRun0_A; dsimp only; sl_unfold_run_names
  simp only [View.readAt_eq_ld, harg3.read_unread, harg4.read_unread, harg6.read_unread, View.ld_unit_zero (S := S8192x128) zero_off2, View.ld_unit_zero (S := S128x128) zero_off2, View.ld_unit_zero (S := S1x128) zero_off2]

end Cert.Kernel.Hand

end
-- ==== Proof.K.RunB.lean ====
/- The body of the attention layer's kernel at a grid point past the first: the projection step is skipped, one row
   block of the adjacency is aggregated. The buffers are handed in whole — the two adjacency blocks, the bias and the
   five scratch buffers at named contents, the output block at any contents —, the body only reads the inputs and the
   scratch, and the output block ends with ONE piece written over all of it: the two half-block products against the
   projected features (beside their ones column), normalised by the row sums and shifted by the bias. -/
import proofs.«130185_g11553462026822_cont_9to1c4b_334_25_alg».proof.Proof.K.Kit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- What the body's one store leaves in the output block's buffer, as pieces, at a grid point past the first (the
    first conditional not taken, the second taken), WITH the triple: on whole buffers — the inputs' and the scratch's
    at their contents, the output's at anything — the body runs to the continuation holding the inputs and the
    scratch as they were and the output's buffer with the piece written. -/
noncomputable def kernelRun0_B (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) :
    { L7 : List (View.Piece (Elt F) S128x128 .f32) //
      ∀ (x2 : Vec F S8192x128 .f32) (x3 : Vec F S128x128 .f32) (x4 : Vec F S128x1 .f32) (x5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4) -∗ K ⟨⟩))
          ⊢ wp frame (wpE (defs₀ (F := F)) Variants.none c none) E (cc0__gat_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun x2 x3 x4 x5 E K => ?run⟩
  case run =>
    simp only [cc0__gat_kernel_eq_skeleton]; unfold cc0__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    isplitl [HS3]
    · iexists _; isplitr; · ipureintro; exact harg12.read_unread _
      iexact HS3
    iexists _; isplitr; · ipureintro; exact harg13.read_unread _
    iexact HS4

/-- The piece the run finds: the whole output block, holding the normalised aggregate of the two half blocks — each
    half's masked scores (from the two exponential columns read at the block's rows, the two exponential rows, and
    that half of the adjacency block) against its half of the projected features beside the ones column —, plus the
    bias. Each value is the load the body made, read off the buffer's contents. -/
theorem kernelRun0_B_L7 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1
      = [⟨Rect.unit (s := S128x128) ![0, 0] S128x128.size inb_S128x128_S128x128_0_0,
          k0_pay4
            (k0_pay12 (View.readAt (Elt F) arg10.view (Rect.unit (s := S8192x1) (k0_off1 i) S128x1.size (k0_off1_inb i hc1)).toLoadRect (harg10.unread xs1))
              (View.readAt (Elt F) arg11.view (Rect.unit (s := S8192x1) (k0_off1 i) S128x1.size (k0_off1_inb i hc1)).toLoadRect (harg11.unread xs2))
              (View.readAt (Elt F) arg12.view (Rect.unit (s := S1x8192) ![0, 0] S1x8192.size inb_S1x8192_S1x8192_0_0).toLoadRect (harg12.unread xs3))
              (View.readAt (Elt F) arg13.view (Rect.unit (s := S1x8192) ![0, 0] S1x8192.size inb_S1x8192_S1x8192_0_0).toLoadRect (harg13.unread xs4))
              (View.readAt (Elt F) arg1.view (Rect.unit (s := S128x4096) ![0, 0] S128x4096.size inb_S128x4096_S128x4096_0_0).toLoadRect (harg1.unread x0))
              (View.readAt (Elt F) arg9.view (Rect.unit (s := S8192x256) ![0, 0] S4096x256.size inb_S8192x256_S4096x256_0_0).toLoadRect (harg9.unread xs0)))
            (k0_pay13 (View.readAt (Elt F) arg10.view (Rect.unit (s := S8192x1) (k0_off1 i) S128x1.size (k0_off1_inb i hc1)).toLoadRect (harg10.unread xs1))
              (View.readAt (Elt F) arg11.view (Rect.unit (s := S8192x1) (k0_off1 i) S128x1.size (k0_off1_inb i hc1)).toLoadRect (harg11.unread xs2))
              (View.readAt (Elt F) arg12.view (Rect.unit (s := S1x8192) ![0, 0] S1x8192.size inb_S1x8192_S1x8192_0_0).toLoadRect (harg12.unread xs3))
              (View.readAt (Elt F) arg13.view (Rect.unit (s := S1x8192) ![0, 0] S1x8192.size inb_S1x8192_S1x8192_0_0).toLoadRect (harg13.unread xs4))
              (View.readAt (Elt F) arg2.view (Rect.unit (s := S128x4096) ![0, 0] S128x4096.size inb_S128x4096_S128x4096_0_0).toLoadRect (harg2.unread x1)))
            (View.readAt (Elt F) arg9.view (Rect.unit (s := S8192x256) ![4096, 0] S4096x256.size inb_S8192x256_S4096x256_4096_0).toLoadRect (harg9.unread xs0))
            (View.readAt (Elt F) arg7.view (Rect.unit (s := S1x128) ![0, 0] S1x128.size inb_S1x128_S1x128_0_0).toLoadRect (harg7.unread x6))⟩] := by
  unfold kernelRun0_B; dsimp only; sl_unfold_run_names; rfl

/-- The same piece over the contents themselves: a load of a whole buffer is its contents; the two exponential
    columns are read at the block's 128 rows, the projected features (beside the ones column) at rows 0 … 4095 for the
    first half of the adjacency block and at rows 4096 … 8191 for the second. -/
theorem kernelRun0_B_L7_ld (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1
      = [⟨Rect.unit (s := S128x128) ![0, 0] S128x128.size inb_S128x128_S128x128_0_0,
          k0_pay4
            (k0_pay12 (View.ld xs1 (Rect.unit (s := S8192x1) (k0_off1 i) S128x1.size (k0_off1_inb i hc1))) (View.ld xs2 (Rect.unit (s := S8192x1) (k0_off1 i) S128x1.size (k0_off1_inb i hc1))) xs3 xs4 x0
              (View.ld xs0 (Rect.unit (s := S8192x256) ![0, 0] S4096x256.size inb_S8192x256_S4096x256_0_0)))
            (k0_pay13 (View.ld xs1 (Rect.unit (s := S8192x1) (k0_off1 i) S128x1.size (k0_off1_inb i hc1))) (View.ld xs2 (Rect.unit (s := S8192x1) (k0_off1 i) S128x1.size (k0_off1_inb i hc1))) xs3 xs4 x1)
            (View.ld xs0 (Rect.unit (s := S8192x256) ![4096, 0] S4096x256.size inb_S8192x256_S4096x256_4096_0))
            x6⟩] := by
  have hz : (![0, 0] : Fin 2 → Nat) = fun _ => 0 := by funext a; fin_cases a <;> rfl
  rw [kernelRun0_B_L7]
  simp only [View.readAt_eq_ld, harg1.read_unread, harg2.read_unread, harg7.read_unread, harg9.read_unread, harg10.read_unread,
    harg11.read_unread, harg12.read_unread, harg13.read_unread, View.ld_unit_zero (S := S1x8192) hz,
    View.ld_unit_zero (S := S128x4096) hz, View.ld_unit_zero (S := S1x128) hz]

end Cert.Kernel.Hand

end
-- ==== Proof.K.Data.lean ====
/- What the kernel region's body leaves, point by point, and the proof data of the pipeline.

   Grid point 0 (the projection step) stores the five scratch buffers — the projected features beside a ones
   column, exp el, exp (c·el), exp er, exp (c·er) — from the blocks of h, W, wl and wrᵀ, which are whole
   arrays; it stores nothing into the output window. Every later point t stores the output window's block
   (rows 128·(t−1) … 128·t − 1) from the two adjacency blocks at t, the bias and the five scratch buffers,
   which it only reads: the scratch contents after point 0 are the contents at every later point. -/
import proofs.«130185_g11553462026822_cont_9to1c4b_334_25_alg».proof.Proof.K.RunA
import proofs.«130185_g11553462026822_cont_9to1c4b_334_25_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The projection step's stores into scratch 0 cover it. -/
theorem scover0_A_0 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S8192x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).1 S8192x128.size (by sl_kernel_rfl) y

/-- What the projection step leaves in scratch 0: its stores read back. -/
def sout0_A_0 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S8192x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).1)

/-- The projection step's stores into scratch 1 cover it. -/
theorem scover0_A_1 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S8192x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.1 S8192x1.size (by sl_kernel_rfl) y

/-- What the projection step leaves in scratch 1: its stores read back. -/
def sout0_A_1 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S8192x1 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.1)

/-- The projection step's stores into scratch 2 cover it. -/
theorem scover0_A_2 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S8192x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.1 S8192x1.size (by sl_kernel_rfl) y

/-- What the projection step leaves in scratch 2: its stores read back. -/
def sout0_A_2 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S8192x1 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.1)

/-- The projection step's stores into scratch 3 cover it. -/
theorem scover0_A_3 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S1x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.1 S1x8192.size (by sl_kernel_rfl) y

/-- What the projection step leaves in scratch 3: its stores read back. -/
def sout0_A_3 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S1x8192 .bf16 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.1)

/-- The projection step's stores into scratch 4 cover it. -/
theorem scover0_A_4 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S1x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.2.1 S1x8192.size (by sl_kernel_rfl) y

/-- What the projection step leaves in scratch 4: its stores read back. -/
def sout0_A_4 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S1x8192 .bf16 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.2.1)

/-- A row-block step's one store covers the output window's block. -/
theorem cover0_B_7 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1 S128x128.size (by sl_kernel_rfl) y

/-- What a row-block step leaves in the output window's buffer: its store read back. -/
def out0_B_7 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) : Vec F S128x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1)

/-! ## The scratch contents after the projection step -/

/-- Grid point 0. -/
def t₀ : Fin cfg0.N := ⟨0, by rw [show cfg0.N = 65 from N_0]; omega⟩
theorem hc0_t₀ : cond0_0 (grid0.coords t₀) := (hcond0_0 t₀).mpr rfl
theorem hc1_t₀ : ¬cond0_1 (grid0.coords t₀) := fun h => (hcond0_1 t₀).mp h rfl

/-- Scratch 0 as the projection step leaves it on core `c`: a function of the arrays h, W, wl, wrᵀ as the region finds them. -/
def scr0 (c : Dev nD) : Vec F S8192x256 .bf16 :=
  sout0_A_0 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-- Scratch 1 as the projection step leaves it on core `c`: a function of the arrays h, W, wl, wrᵀ as the region finds them. -/
def scr1 (c : Dev nD) : Vec F S8192x1 .bf16 :=
  sout0_A_1 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-- Scratch 2 as the projection step leaves it on core `c`: a function of the arrays h, W, wl, wrᵀ as the region finds them. -/
def scr2 (c : Dev nD) : Vec F S8192x1 .bf16 :=
  sout0_A_2 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-- Scratch 3 as the projection step leaves it on core `c`: a function of the arrays h, W, wl, wrᵀ as the region finds them. -/
def scr3 (c : Dev nD) : Vec F S1x8192 .bf16 :=
  sout0_A_3 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-- Scratch 4 as the projection step leaves it on core `c`: a function of the arrays h, W, wl, wrᵀ as the region finds them. -/
def scr4 (c : Dev nD) : Vec F S1x8192 .bf16 :=
  sout0_A_4 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-! ## What the output window's buffer holds after each point -/

/-- After point 0 nothing is named (the window is idle there and not written back); after a later point the row-block
    step's store over that point's adjacency blocks, the bias and the scratch contents. -/
def outsAt0 (c : Dev nD) (t : Fin cfg0.N) : Vec F S128x128 .f32 :=
  if h : t.val = 0 then VO0_7.read (Elt F) VO0_7.junk
  else out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h0 => h ((hcond0_0 t).mp h0)) ((hcond0_1 t).mpr h)
    (iblk m c 0 t) (iblk m c 1 t) (iblk m c 6 t) (scr0 m c) (scr1 m c) (scr2 m c) (scr3 m c) (scr4 m c)

theorem outsAt0_pos (c : Dev nD) (t : Fin cfg0.N) (h : t.val ≠ 0) :
    outsAt0 m c t = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h0 => h ((hcond0_0 t).mp h0)) ((hcond0_1 t).mpr h)
      (iblk m c 0 t) (iblk m c 1 t) (iblk m c 6 t) (scr0 m c) (scr1 m c) (scr2 m c) (scr3 m c) (scr4 m c) := dif_neg h

/-! ## The region invariant -/

/-- Before point 0 the scratch buffers hold anything; before every later point they hold what the projection step left. -/
def PhiS (c : Dev nD) : ℕ → sProp 𝕄
  | 0 => Pipeline.ΦA spec0 c
  | _ + 1 => iprop(iprop(owns (c : Thread nD τ) scM0_0 fullShare (scr0 m c) ∗ owns (c : Thread nD τ) scM0_1 fullShare (scr1 m c) ∗ owns (c : Thread nD τ) scM0_2 fullShare (scr2 m c) ∗ owns (c : Thread nD τ) scM0_3 fullShare (scr3 m c) ∗ owns (c : Thread nD τ) scM0_4 fullShare (scr4 m c)) ∗ (∃ r, prngReg c r))

theorem PhiS_zero (c : Dev nD) : PhiS m c 0 = Pipeline.ΦA spec0 c := rfl
theorem PhiS_pos (c : Dev nD) (n : ℕ) (hn : n ≠ 0) :
    PhiS m c n = iprop(iprop(owns (c : Thread nD τ) scM0_0 fullShare (scr0 m c) ∗ owns (c : Thread nD τ) scM0_1 fullShare (scr1 m c) ∗ owns (c : Thread nD τ) scM0_2 fullShare (scr2 m c) ∗ owns (c : Thread nD τ) scM0_3 fullShare (scr3 m c) ∗ owns (c : Thread nD τ) scM0_4 fullShare (scr4 m c)) ∗ (∃ r, prngReg c r)) := by
  cases n with
  | zero => exact absurd rfl hn
  | succ n => rfl

/-! ## The pipeline's proof data -/

/-- The share each window holds of its array: the two adjacency windows the two halves of one array, the others theirs whole. -/
def shareOf : Fin cfg0.W → PosShare TreeShare := fun | 0 => fullShare.left | 1 => fullShare.right | 2 => fullShare | 3 => fullShare | 4 => fullShare | 5 => fullShare | 6 => fullShare | 7 => fullShare | ⟨_ + 8, h⟩ => absurd h (Nat.not_lt.2 (Nat.le_add_left _ _))

/-- The proof data on core `c`: the arrays as the region finds them; after the body each input window's buffer at its
    block and the output window's at `outsAt0`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt0 m c t
  Φ t := PhiS m c t.val
  q := shareOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt0 m c t := by dsimp only [dats]

/-- Input window 0's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- Input window 4's current buffer holds its block at every point, fetched there or not. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- Input window 5's current buffer holds its block at every point, fetched there or not. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- Input window 6's current buffer holds its block at every point, fetched there or not. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

end Cert.Kernel.Hand

end
-- ==== Proof.K.Launch.lean ====
/- The launch of the attention layer's kernel region, whose two adjacency windows are blocks of one array: from the
   body obligation of any proof data that deals that array's share between the two windows, to the run of @main
   from the launch memory; and the frame's reading of that run at the arguments and the result. At any float
   instance. -/
import proofs.«130185_g11553462026822_cont_9to1c4b_334_25_alg».proof.Proof.K.Kit
import Idealize.ShloMosaic.Lib.Pipeline.Launch
import Idealize.ShloMosaic.Lib.Pipeline.Kit
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each window holds of its array: the two adjacency windows the two halves of one array, the others theirs whole. -/
def qShare : Fin cfg0.W → PosShare TreeShare := fun | 0 => fullShare.left | 1 => fullShare.right | 2 => fullShare | 3 => fullShare | 4 => fullShare | 5 => fullShare | 6 => fullShare | 7 => fullShare | ⟨_ + 8, h⟩ => absurd h (Nat.not_lt.2 (Nat.le_add_left _ _))

/-- Window `w`'s conjunct of the proof data's arrays at entry: its array a whole buffer, at the entry contents. -/
theorem arr_entry (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin cfg0.W) (q : PosShare TreeShare)
    (hs : (dats 0 c).share w = q) :
    ((cfg0.win w).arr.view.loc (c.tc : Thread nD τ) ↦[(cfg0.win w).arr.view.set]{(dats 0 c).share w} (dats 0 c).arrAt w 0 : sProp 𝕄)
      = (((c.tc : Thread nD τ).loc (Pipeline.arrRef spec0 w)) ↦{q} V m c (Pipeline.arrRef spec0 w)) := by
  rw [(arr_whole0 w).set_eq_univ, hs, show (dats 0 c).arrAt w 0 = (dats 0 c).A w from rfl, hA]

/-- An input window holds its array at the share the proof data names, -/
theorem share_in (dats : (p : Fin 1) → (c : Dev nD) → Dat τ (Elt F) Unit ℕ (UR sig nD τ) ℕ (cfgs p) c)
    (hq : ∀ c w, (dats 0 c).q w = qShare w) (c : Dev nD) (w : Fin cfg0.W) (hw : (cfg0.win w).isOut = false) :
    (dats 0 c).share w = qShare w := by
  unfold Dat.share; rw [hw, hq]; rfl

/-- and the output window its array whole. -/
theorem share_out (dats : (p : Fin 1) → (c : Dev nD) → Dat τ (Elt F) Unit ℕ (UR sig nD τ) ℕ (cfgs p) c) (c : Dev nD) :
    (dats 0 c).share 7 = fullShare := by
  unfold Dat.share; rfl

/-- The seven buffers behind the eight windows' arrays, each whole at the entry contents, make the proof data's
    arrays at entry: the adjacency's buffer is halved along the share, the left half to window 0 and the right half
    to window 1; every other buffer is one window's. -/
theorem arrays_of_bufs (dats : (p : Fin 1) → (c : Dev nD) → Dat τ (Elt F) Unit ℕ (UR sig nD τ) ℕ (cfgs p) c)
    (hq : ∀ c w, (dats 0 c).q w = qShare w)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have hL : (Pipeline.arrBufs spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_arg3) ↦{fullShare} V m c main_arg3)
          ∗ (((c.tc : Thread nD τ).loc main_call0_v0) ↦{fullShare} V m c main_call0_v0) ∗ (((c.tc : Thread nD τ).loc main_call0_v1) ↦{fullShare} V m c main_call0_v1)
          ∗ (((c.tc : Thread nD τ).loc main_v0) ↦{fullShare} V m c main_v0)) := by
    unfold Pipeline.arrBufs
    exact bigSep_eq_bigSepL_of_eq [main_arg1, main_arg0, main_arg2, main_arg3, main_call0_v0, main_call0_v1, main_v0] (by decide) (by decide) _
  unfold Dat.arrays
  rw [hL, bigSep_W0,
    arr_entry m dats hA c 0 _ (share_in dats hq c 0 rfl), arr_entry m dats hA c 1 _ (share_in dats hq c 1 rfl),
    arr_entry m dats hA c 2 _ (share_in dats hq c 2 rfl), arr_entry m dats hA c 3 _ (share_in dats hq c 3 rfl),
    arr_entry m dats hA c 4 _ (share_in dats hq c 4 rfl), arr_entry m dats hA c 5 _ (share_in dats hq c 5 rfl),
    arr_entry m dats hA c 6 _ (share_in dats hq c 6 rfl), arr_entry m dats hA c 7 _ (share_out dats c)]
  iintro ⟨H1, H0, H2, H3, H5, H6, H7⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H2]; · iexact H2
  isplitl [H3]; · iexact H3
  isplitl [H5]; · iexact H5
  isplitl [H6]; · iexact H6
  iexact H7

set_option backward.isDefEq.respectTransparency.types false in
/-- The run of @main from the launch memory, from the body obligation: for any proof data that hold the adjacency's
    array by halves at windows 0 and 1 and every other input's array whole (`hq`), owe nothing (`howed`), start from
    the region's entry contents (`hA`), and whose invariant the class invariant yields before the first point and
    which yields it back after the last (`hin`, `hout`), every weakly fair execution terminates with every window's
    array at what the write-backs leave and every bypassing buffer as the region found it. The cores' staging cells are
    funded from the one copy of the rounds algebra; the generator register passes through the invariant; the two
    bypassing buffers are read back at the end. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qShare w) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (Pipeline.FramePost cfgs dats 0 (V m)) := by
  classical
  exact Pipeline.θ_run_region_pf (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m dats hq hA c)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2.2⟩)

/-- The frame from the run: the result is the output window's array after every write-back; the adjacency, the
    features, the weights and the left attention vector are input windows' arrays, unchanged from the region's entry,
    where they are as launched; the right attention vector and the bias are no window's array (the region reads
    their transposed and reshaped copies), and bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v0) = (dats 0 c).arrAt 7 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c => ⟨(h c).1 7,
      ((h c).1 2).trans (((dats 0 c).arrAt_in 2 rfl _).trans ((hA c 2).trans (V_main_arg0 m c))),
      ((h c).1 0).trans (((dats 0 c).arrAt_in 0 rfl _).trans ((hA c 0).trans (V_main_arg1 m c))),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).2 main_arg4 (Pipeline.mem_restRefs_of main_arg4 rfl (by decide))).trans (V_main_arg4 m c),
      ((h c).2 main_arg5 (Pipeline.mem_restRefs_of main_arg5 rfl (by decide))).trans (V_main_arg5 m c)⟩) h

end Cert.Kernel.Hand

end
-- ==== Proof.K.Frame.lean ====
/- The body obligation of the attention kernel's pipeline at every grid point, and the run of @main it gives.

   At grid point 0 the invariant hands the body its five scratch buffers at anything; the projection step stores
   all five, and the invariant takes them back at the contents named `scr0 … scr4`; the output window is idle
   and handed back as found. At a later point the invariant hands the scratch buffers at `scr0 … scr4`; the
   row-block step reads them and stores the output window's block, and hands them back unchanged. -/
import proofs.«130185_g11553462026822_cont_9to1c4b_334_25_alg».proof.Proof.K.Data
import proofs.«130185_g11553462026822_cont_9to1c4b_334_25_alg».proof.Proof.K.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = PhiS m c (t.val + 1) := rfl

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [Phi_succ, PhiS_pos m c (t.val + 1) (Nat.succ_ne_zero _), Phi_castSucc]
  rw [leaves0_0, leaves0_1, leaves0_2, leaves0_3, leaves0_4, leaves0_5, leaves0_6]
  by_cases hz : t.val = 0
  · -- the projection step
    rw [Dat.leavesExact_idle (dats m 0 c) 7 t (idleAt0_7_A t hz) (noFlush0_7_A t hz)]
    have ht : t = t₀ := Fin.ext hz
    subst ht
    rw [show PhiS m c (t₀ : Fin cfg0.N).val = Pipeline.ΦA spec0 c from rfl, PhiA0_eq]
    unfold scr0 scr1 scr2 scr3 scr4 sout0_A_0 sout0_A_1 sout0_A_2 sout0_A_3 sout0_A_4
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)).2.2.2.2.2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e0, HS0⟩, ⟨%e1, HS1⟩, ⟨%e2, HS2⟩, ⟨%e3, HS3⟩, ⟨%e4, HS4⟩⟩
    isplitl [HS0 HS1 HS2 HS3 HS4 Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · -- a row block
    rw [show (dats m 0 c).leavesExact 7 t = owns (c : Thread nD τ) (ms0_7 t) fullShare ((dats m 0 c).after 7 t) from by
      unfold Dat.leavesExact; rw [liveAt0_7_B t hz], after0_7, outsAt0_pos m c t hz]
    unfold out0_B_7
    rw [PhiS_pos m c _ hz]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h0 => hz ((hcond0_0 t).mp h0)) ((hcond0_1 t).mpr hz) (iblk m c 0 t) (iblk m c 1 t) (iblk m c 6 t) (scr0 m c) (scr1 m c) (scr2 m c) (scr3 m c) (scr4 m c)).2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, ⟨%e7, H7⟩, HS0, HS1, HS2, HS3, HS4⟩
    isplitl [HS0 HS1 HS2 HS3 HS4 Hg]
    · isplitr [Hg]
      · isplitl [HS0]; · iexact HS0
        isplitl [HS1]; · iexact HS1
        isplitl [HS2]; · iexact HS2
        isplitl [HS3]; · iexact HS3
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 65 := N_0; omega), PhiA0_eq]
  iintro ⟨⟨HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  · iexact Hg

/-- Every weakly fair execution of @main terminates, every window's array at what the proof data computes and every
    other argument as launched. -/
theorem run_main : θ_run defs (onTc (τ := τ) (main (F := F))) (s₀ m ρ) (Pipeline.FramePost cfgs (dats m) 0 (V m)) :=
  run_of m ρ (dats m) (fun c => (body_obligation m c).loose) (fun c w => by dsimp only [dats]; fin_cases w <;> rfl)
    (fun _ _ => rfl) (A_eq m) (hin m) (hout m)

/-- The program's run: the result array named, the six arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  frame_of m ρ (dats m) (A_eq m) (run_main m ρ)

end Cert.Kernel.Hand

end
-- ==== Proof.KI.Kit.lean ====
/- What the kernel region of the attention layer finds and is run on: the buffers' contents when the region is
   entered (the launch contents after the transpose of the right attention vector and the reshape of the bias),
   @main up to the region, each window's block, the two control cases of the body (the projection step at grid
   point 0, one row block of the adjacency at every later point) decided over the 65 grid points, where the
   output window is idle, and the memrefs and views the body's triples are stated over. At any float instance. -/
import proofs.«130185_g11553462026822_cont_9to1c4b_334_25_alg».proof.Proof.Gen.KernelIdeal.Launch
import proofs.«130185_g11553462026822_cont_9to1c4b_334_25_alg».proof.Proof.Gen.KernelIdeal.Skeleton
import proofs.«130185_g11553462026822_cont_9to1c4b_334_25_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the launch contents after the two host operations
    (the transpose of the right attention vector and the reshape of the bias). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh fun c => main_chain c

/-- The host operations write only their own results: the six arguments are as launched. -/
theorem V_main_arg0 (c : Dev nD) : V m c main_arg0 = m ((c : Thread nD τ).loc main_arg0) := by
  dsimp only [V, V0, hostOps0]; after_results
theorem V_main_arg1 (c : Dev nD) : V m c main_arg1 = m ((c : Thread nD τ).loc main_arg1) := by
  dsimp only [V, V0, hostOps0]; after_results
theorem V_main_arg2 (c : Dev nD) : V m c main_arg2 = m ((c : Thread nD τ).loc main_arg2) := by
  dsimp only [V, V0, hostOps0]; after_results
theorem V_main_arg3 (c : Dev nD) : V m c main_arg3 = m ((c : Thread nD τ).loc main_arg3) := by
  dsimp only [V, V0, hostOps0]; after_results
theorem V_main_arg4 (c : Dev nD) : V m c main_arg4 = m ((c : Thread nD τ).loc main_arg4) := by
  dsimp only [V, V0, hostOps0]; after_results
theorem V_main_arg5 (c : Dev nD) : V m c main_arg5 = m ((c : Thread nD τ).loc main_arg5) := by
  dsimp only [V, V0, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two control cases -/

/-- The first conditional's condition (the projection step): the grid coordinate is zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional's condition (a row block of the adjacency): the grid coordinate is positive. -/
abbrev cond0_1 (i : grid0.Coords) : Prop := k0_cond2 i = 1#1
theorem hcond0_1 : ∀ t : Fin cfg0.N, cond0_1 (grid0.coords t) ↔ t.val ≠ 0 :=
  (by decide +kernel : ∀ t : Fin grid0.N, cond0_1 (grid0.coords t) ↔ t.val ≠ 0)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- At the first point the body stores nothing into the output window, -/
theorem idleAt0_7_A : ∀ t : Fin cfg0.N, t.val = 0 → cfg0.idle 7 (grid0.coords t) = true := by decide +kernel
/-- and the pipeline does not write its block back there (the next point has the same block index). -/
theorem noFlush0_7_A : ∀ t : Fin cfg0.N, t.val = 0 → (cfg0.win 7).flush t = false := by decide +kernel
/-- At every later point the body stores the whole block. -/
theorem liveAt0_7_B : ∀ t : Fin cfg0.N, t.val ≠ 0 → cfg0.idle 7 (grid0.coords t) = false := by decide +kernel

/-! ## The memrefs and views the body's triples are stated over -/

abbrev ms0_0 (t : Fin cfg0.N) : Memref sig .tc .vmem S128x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)

/-- The five scratch operands: the projected features beside a ones column, and the four exponential vectors. -/
abbrev scM0_0 : Memref sig .tc .vmem S8192x256 .bf16 := Memref.whole cc0_scratch0
abbrev scM0_1 : Memref sig .tc .vmem S8192x1 .bf16 := Memref.whole cc0_scratch1
abbrev scM0_2 : Memref sig .tc .vmem S8192x1 .bf16 := Memref.whole cc0_scratch2
abbrev scM0_3 : Memref sig .tc .vmem S1x8192 .bf16 := Memref.whole cc0_scratch3
abbrev scM0_4 : Memref sig .tc .vmem S1x8192 .bf16 := Memref.whole cc0_scratch4
abbrev VS0_0 : View sig .tc .vmem S8192x256 .bf16 := scM0_0.view
abbrev VS0_1 : View sig .tc .vmem S8192x1 .bf16 := scM0_1.view
abbrev VS0_2 : View sig .tc .vmem S8192x1 .bf16 := scM0_2.view
abbrev VS0_3 : View sig .tc .vmem S1x8192 .bf16 := scM0_3.view
abbrev VS0_4 : View sig .tc .vmem S1x8192 .bf16 := scM0_4.view
/-- One staging buffer of the output window, through which its contents are stated. -/
abbrev VO0_7 : View sig .tc .vmem S128x128 .f32 := (Memref.whole cc0_stg7_0 : Memref sig .tc .vmem S128x128 .f32).view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KI.RunA.lean ====
/- The attention layer's kernel body at the first grid point (the projection step): the first conditional is
   taken, the second is not. The body reads the features h, the weight W and the two attention vectors, and
   stores the five scratch buffers: the projected features h·W (rounded to bf16) in the left column half of the
   first, a ones column followed by zeros in its right half, and the four exponential vectors
   exp((h·W)·Wl), exp(0.2·(h·W)·Wl), exp(Wr^T·(h·W)^T), exp(0.2·Wr^T·(h·W)^T). Every other buffer, the output
   block included, is handed back as it was found. The pieces each scratch buffer ends with (last first) are
   the witness. At any float instance. -/
import proofs.«130185_g11553462026822_cont_9to1c4b_334_25_alg».proof.Proof.KI.Kit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- What the projection step's stores leave in the five scratch buffers, as pieces (last first), with the proof that on
    whole memrefs — the seven inputs' at their contents, the output block's at `xi7`, the scratch buffers' at anything —
    the body runs to a continuation that holds the inputs' and the output block's as they were and each scratch buffer
    with its pieces written. The pieces depend only on h (`x2`), W (`x3`), Wl (`x4`) and Wr^T (`x5`). -/
noncomputable def kernelRun0_A (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) :
    Σ' (LS0 : List (View.Piece (Elt F) S8192x256 .bf16)) (LS1 : List (View.Piece (Elt F) S8192x1 .bf16)) (LS2 : List (View.Piece (Elt F) S8192x1 .bf16)) (LS3 : List (View.Piece (Elt F) S1x8192 .bf16)),
      { LS4 : List (View.Piece (Elt F) S1x8192 .bf16) //
        ∀ (x0 x1 : Vec F S128x4096 .i32) (x6 : Vec F S1x128 .f32) (xi7 : Vec F S128x128 .f32) (E : Set ℕ) (K : PUnit → sProp 𝕄),
          iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
              ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
              ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
                  ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
            ⊢ wp frame (wpE (defs₀ (F := F)) Variants.none c none) E (cc0__gat_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x0 x1 x6 xi7 E K => ?run⟩
  case run =>
    simp only [cc0__gat_kernel_eq_skeleton]; unfold cc0__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; iexact HS0
    isplitl [HS1]
    · iexists _; iexact HS1
    isplitl [HS2]
    · iexists _; iexact HS2
    isplitl [HS3]
    · iexists _; iexact HS3
    iexists _; iexact HS4

/-- The zero offsets of a rank-two rectangle, as the constant function. -/
private theorem zero_off2 : (![0, 0] : Fin 2 → Nat) = fun _ => 0 := funext fun a => by fin_cases a <;> rfl

/-! ## What the witness is

Each input is loaded whole, through the rectangle at zero offsets of its own sizes, so a load reads the contents:
the pieces are the skeleton's payloads at h, W, Wl and Wr^T themselves. -/

set_option maxRecDepth 65536 in
/-- The projected features' buffer ends with two pieces: the ones-then-zeros block in its right column half
    (stored last) over the rounded projection h·W in its left column half. -/
theorem kernelRun0_A_LS0 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).1 = [⟨Rect.unit (s := S8192x256) ![0, 128] S8192x128.size inb_S8192x256_S8192x128_0_128, k0_pay7⟩,
      ⟨Rect.unit (s := S8192x256) ![0, 0] S8192x128.size inb_S8192x256_S8192x128_0_0, k0_pay6 x2 x3⟩] := by
  unfold kernelRun0_A; dsimp only
  simp only [View.readAt_eq_ld, harg3.read_unread, harg4.read_unread, View.ld_unit_zero (S := S8192x128) zero_off2, View.ld_unit_zero (S := S128x128) zero_off2]

set_option maxRecDepth 65536 in
/-- The first column vector is one whole piece: exp((h·W)·Wl), rounded. -/
theorem kernelRun0_A_LS1 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.1 = [⟨Rect.unit (s := S8192x1) ![0, 0] S8192x1.size inb_S8192x1_S8192x1_0_0, k0_pay9 x2 x3 x4⟩] := by
  unfold kernelRun0_A; dsimp only
  simp only [View.readAt_eq_ld, harg3.read_unread, harg4.read_unread, harg5.read_unread, View.ld_unit_zero (S := S8192x128) zero_off2, View.ld_unit_zero (S := S128x128) zero_off2, View.ld_unit_zero (S := S128x1) zero_off2]

set_option maxRecDepth 65536 in
/-- The second column vector is one whole piece: exp(0.2·(h·W)·Wl), rounded. -/
theorem kernelRun0_A_LS2 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.1 = [⟨Rect.unit (s := S8192x1) ![0, 0] S8192x1.size inb_S8192x1_S8192x1_0_0, k0_pay10 x2 x3 x4⟩] := by
  unfold kernelRun0_A; dsimp only
  simp only [View.readAt_eq_ld, harg3.read_unread, harg4.read_unread, harg5.read_unread, View.ld_unit_zero (S := S8192x128) zero_off2, View.ld_unit_zero (S := S128x128) zero_off2, View.ld_unit_zero (S := S128x1) zero_off2]

set_option maxRecDepth 65536 in
/-- The first row vector is one whole piece: exp(Wr^T·(h·W)^T), rounded (the product accumulated over zero). -/
theorem kernelRun0_A_LS3 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.1 = [⟨Rect.unit (s := S1x8192) ![0, 0] S1x8192.size inb_S1x8192_S1x8192_0_0,
      k0_pay2 (k0_pay5 x2 x3) (k0_pay11 x5) (constant S1x8192 .f32 0x00000000#32)⟩] := by
  unfold kernelRun0_A; dsimp only; sl_unfold_run_names
  simp only [View.readAt_eq_ld, harg3.read_unread, harg4.read_unread, harg6.read_unread, View.ld_unit_zero (S := S8192x128) zero_off2, View.ld_unit_zero (S := S128x128) zero_off2, View.ld_unit_zero (S := S1x128) zero_off2]

set_option maxRecDepth 65536 in
/-- The second row vector is one whole piece: exp(0.2·Wr^T·(h·W)^T), rounded. -/
theorem kernelRun0_A_LS4 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i) (x2 : Vec F S8192x128 .f32) (x3 : Vec F S128x128 .f32) (x4 : Vec F S128x1 .f32) (x5 : Vec F S1x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.2.1 = [⟨Rect.unit (s := S1x8192) ![0, 0] S1x8192.size inb_S1x8192_S1x8192_0_0,
      k0_pay3 (k0_pay5 x2 x3) (k0_pay11 x5) (constant S1x8192 .f32 0x00000000#32)⟩] := by
  unfold kernelRun0_A; dsimp only; sl_unfold_run_names
  simp only [View.readAt_eq_ld, harg3.read_unread, harg4.read_unread, harg6.read_unread, View.ld_unit_zero (S := S8192x128) zero_off2, View.ld_unit_zero (S := S128x128) zero_off2, View.ld_unit_zero (S := S1x128) zero_off2]

end Cert.KernelIdeal.Hand

end
-- ==== Proof.KI.RunB.lean ====
/- The body of the attention layer's kernel at a grid point past the first: the projection step is skipped, one row
   block of the adjacency is aggregated. The buffers are handed in whole — the two adjacency blocks, the bias and the
   five scratch buffers at named contents, the output block at any contents —, the body only reads the inputs and the
   scratch, and the output block ends with ONE piece written over all of it: the two half-block products against the
   projected features (beside their ones column), normalised by the row sums and shifted by the bias. -/
import proofs.«130185_g11553462026822_cont_9to1c4b_334_25_alg».proof.Proof.KI.Kit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- What the body's one store leaves in the output block's buffer, as pieces, at a grid point past the first (the
    first conditional not taken, the second taken), WITH the triple: on whole buffers — the inputs' and the scratch's
    at their contents, the output's at anything — the body runs to the continuation holding the inputs and the
    scratch as they were and the output's buffer with the piece written. -/
noncomputable def kernelRun0_B (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) :
    { L7 : List (View.Piece (Elt F) S128x128 .f32) //
      ∀ (x2 : Vec F S8192x128 .f32) (x3 : Vec F S128x128 .f32) (x4 : Vec F S128x1 .f32) (x5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4) -∗ K ⟨⟩))
          ⊢ wp frame (wpE (defs₀ (F := F)) Variants.none c none) E (cc0__gat_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun x2 x3 x4 x5 E K => ?run⟩
  case run =>
    simp only [cc0__gat_kernel_eq_skeleton]; unfold cc0__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    isplitl [HS3]
    · iexists _; isplitr; · ipureintro; exact harg12.read_unread _
      iexact HS3
    iexists _; isplitr; · ipureintro; exact harg13.read_unread _
    iexact HS4

/-- The piece the run finds: the whole output block, holding the normalised aggregate of the two half blocks — each
    half's masked scores (from the two exponential columns read at the block's rows, the two exponential rows, and
    that half of the adjacency block) against its half of the projected features beside the ones column —, plus the
    bias. Each value is the load the body made, read off the buffer's contents. -/
theorem kernelRun0_B_L7 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1
      = [⟨Rect.unit (s := S128x128) ![0, 0] S128x128.size inb_S128x128_S128x128_0_0,
          k0_pay4
            (k0_pay12 (View.readAt (Elt F) arg10.view (Rect.unit (s := S8192x1) (k0_off1 i) S128x1.size (k0_off1_inb i hc1)).toLoadRect (harg10.unread xs1))
              (View.readAt (Elt F) arg11.view (Rect.unit (s := S8192x1) (k0_off1 i) S128x1.size (k0_off1_inb i hc1)).toLoadRect (harg11.unread xs2))
              (View.readAt (Elt F) arg12.view (Rect.unit (s := S1x8192) ![0, 0] S1x8192.size inb_S1x8192_S1x8192_0_0).toLoadRect (harg12.unread xs3))
              (View.readAt (Elt F) arg13.view (Rect.unit (s := S1x8192) ![0, 0] S1x8192.size inb_S1x8192_S1x8192_0_0).toLoadRect (harg13.unread xs4))
              (View.readAt (Elt F) arg1.view (Rect.unit (s := S128x4096) ![0, 0] S128x4096.size inb_S128x4096_S128x4096_0_0).toLoadRect (harg1.unread x0))
              (View.readAt (Elt F) arg9.view (Rect.unit (s := S8192x256) ![0, 0] S4096x256.size inb_S8192x256_S4096x256_0_0).toLoadRect (harg9.unread xs0)))
            (k0_pay13 (View.readAt (Elt F) arg10.view (Rect.unit (s := S8192x1) (k0_off1 i) S128x1.size (k0_off1_inb i hc1)).toLoadRect (harg10.unread xs1))
              (View.readAt (Elt F) arg11.view (Rect.unit (s := S8192x1) (k0_off1 i) S128x1.size (k0_off1_inb i hc1)).toLoadRect (harg11.unread xs2))
              (View.readAt (Elt F) arg12.view (Rect.unit (s := S1x8192) ![0, 0] S1x8192.size inb_S1x8192_S1x8192_0_0).toLoadRect (harg12.unread xs3))
              (View.readAt (Elt F) arg13.view (Rect.unit (s := S1x8192) ![0, 0] S1x8192.size inb_S1x8192_S1x8192_0_0).toLoadRect (harg13.unread xs4))
              (View.readAt (Elt F) arg2.view (Rect.unit (s := S128x4096) ![0, 0] S128x4096.size inb_S128x4096_S128x4096_0_0).toLoadRect (harg2.unread x1)))
            (View.readAt (Elt F) arg9.view (Rect.unit (s := S8192x256) ![4096, 0] S4096x256.size inb_S8192x256_S4096x256_4096_0).toLoadRect (harg9.unread xs0))
            (View.readAt (Elt F) arg7.view (Rect.unit (s := S1x128) ![0, 0] S1x128.size inb_S1x128_S1x128_0_0).toLoadRect (harg7.unread x6))⟩] := by
  unfold kernelRun0_B; dsimp only; sl_unfold_run_names; rfl

/-- The same piece over the contents themselves: a load of a whole buffer is its contents; the two exponential
    columns are read at the block's 128 rows, the projected features (beside the ones column) at rows 0 … 4095 for the
    first half of the adjacency block and at rows 4096 … 8191 for the second. -/
theorem kernelRun0_B_L7_ld (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1
      = [⟨Rect.unit (s := S128x128) ![0, 0] S128x128.size inb_S128x128_S128x128_0_0,
          k0_pay4
            (k0_pay12 (View.ld xs1 (Rect.unit (s := S8192x1) (k0_off1 i) S128x1.size (k0_off1_inb i hc1))) (View.ld xs2 (Rect.unit (s := S8192x1) (k0_off1 i) S128x1.size (k0_off1_inb i hc1))) xs3 xs4 x0
              (View.ld xs0 (Rect.unit (s := S8192x256) ![0, 0] S4096x256.size inb_S8192x256_S4096x256_0_0)))
            (k0_pay13 (View.ld xs1 (Rect.unit (s := S8192x1) (k0_off1 i) S128x1.size (k0_off1_inb i hc1))) (View.ld xs2 (Rect.unit (s := S8192x1) (k0_off1 i) S128x1.size (k0_off1_inb i hc1))) xs3 xs4 x1)
            (View.ld xs0 (Rect.unit (s := S8192x256) ![4096, 0] S4096x256.size inb_S8192x256_S4096x256_4096_0))
            x6⟩] := by
  have hz : (![0, 0] : Fin 2 → Nat) = fun _ => 0 := by funext a; fin_cases a <;> rfl
  rw [kernelRun0_B_L7]
  simp only [View.readAt_eq_ld, harg1.read_unread, harg2.read_unread, harg7.read_unread, harg9.read_unread, harg10.read_unread,
    harg11.read_unread, harg12.read_unread, harg13.read_unread, View.ld_unit_zero (S := S1x8192) hz,
    View.ld_unit_zero (S := S128x4096) hz, View.ld_unit_zero (S := S1x128) hz]

end Cert.KernelIdeal.Hand

end
-- ==== Proof.KI.Data.lean ====
/- What the kernel region's body leaves, point by point, and the proof data of the pipeline.

   Grid point 0 (the projection step) stores the five scratch buffers — the projected features beside a ones
   column, exp el, exp (c·el), exp er, exp (c·er) — from the blocks of h, W, wl and wrᵀ, which are whole
   arrays; it stores nothing into the output window. Every later point t stores the output window's block
   (rows 128·(t−1) … 128·t − 1) from the two adjacency blocks at t, the bias and the five scratch buffers,
   which it only reads: the scratch contents after point 0 are the contents at every later point. -/
import proofs.«130185_g11553462026822_cont_9to1c4b_334_25_alg».proof.Proof.KI.RunA
import proofs.«130185_g11553462026822_cont_9to1c4b_334_25_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The projection step's stores into scratch 0 cover it. -/
theorem scover0_A_0 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S8192x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).1 S8192x128.size (by sl_kernel_rfl) y

/-- What the projection step leaves in scratch 0: its stores read back. -/
def sout0_A_0 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S8192x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).1)

/-- The projection step's stores into scratch 1 cover it. -/
theorem scover0_A_1 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S8192x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.1 S8192x1.size (by sl_kernel_rfl) y

/-- What the projection step leaves in scratch 1: its stores read back. -/
def sout0_A_1 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S8192x1 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.1)

/-- The projection step's stores into scratch 2 cover it. -/
theorem scover0_A_2 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S8192x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.1 S8192x1.size (by sl_kernel_rfl) y

/-- What the projection step leaves in scratch 2: its stores read back. -/
def sout0_A_2 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S8192x1 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.1)

/-- The projection step's stores into scratch 3 cover it. -/
theorem scover0_A_3 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S1x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.1 S1x8192.size (by sl_kernel_rfl) y

/-- What the projection step leaves in scratch 3: its stores read back. -/
def sout0_A_3 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S1x8192 .bf16 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.1)

/-- The projection step's stores into scratch 4 cover it. -/
theorem scover0_A_4 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) (y : S1x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.2.1 S1x8192.size (by sl_kernel_rfl) y

/-- What the projection step leaves in scratch 4: its stores read back. -/
def sout0_A_4 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : cond0_0 i) (hc1 : ¬cond0_1 i)
    (x2 : Vec F S8192x128 .f32) (x3 : Vec F S128x128 .f32) (x4 : Vec F S128x1 .f32) (x5 : Vec F S1x128 .f32) : Vec F S1x8192 .bf16 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x2 x3 x4 x5).2.2.2.2.1)

/-- A row-block step's one store covers the output window's block. -/
theorem cover0_B_7 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1 S128x128.size (by sl_kernel_rfl) y

/-- What a row-block step leaves in the output window's buffer: its store read back. -/
def out0_B_7 (c : Dev nD) (i : grid0.Coords) (arg1 : Memref sig .tc .vmem S128x4096 .i32) (harg1 : arg1.IsWhole) (arg2 : Memref sig .tc .vmem S128x4096 .i32) (harg2 : arg2.IsWhole) (arg3 : Memref sig .tc .vmem S8192x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S8192x256 .bf16) (harg9 : arg9.IsWhole) (arg10 : Memref sig .tc .vmem S8192x1 .bf16) (harg10 : arg10.IsWhole) (arg11 : Memref sig .tc .vmem S8192x1 .bf16) (harg11 : arg11.IsWhole) (arg12 : Memref sig .tc .vmem S1x8192 .bf16) (harg12 : arg12.IsWhole) (arg13 : Memref sig .tc .vmem S1x8192 .bf16) (harg13 : arg13.IsWhole) (hc0 : ¬cond0_0 i) (hc1 : cond0_1 i)
    (x0 x1 : Vec F S128x4096 .i32) (x6 : Vec F S1x128 .f32) (xs0 : Vec F S8192x256 .bf16) (xs1 xs2 : Vec F S8192x1 .bf16) (xs3 xs4 : Vec F S1x8192 .bf16) : Vec F S128x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x6 xs0 xs1 xs2 xs3 xs4).1)

/-! ## The scratch contents after the projection step -/

/-- Grid point 0. -/
def t₀ : Fin cfg0.N := ⟨0, by rw [show cfg0.N = 65 from N_0]; omega⟩
theorem hc0_t₀ : cond0_0 (grid0.coords t₀) := (hcond0_0 t₀).mpr rfl
theorem hc1_t₀ : ¬cond0_1 (grid0.coords t₀) := fun h => (hcond0_1 t₀).mp h rfl

/-- Scratch 0 as the projection step leaves it on core `c`: a function of the arrays h, W, wl, wrᵀ as the region finds them. -/
def scr0 (c : Dev nD) : Vec F S8192x256 .bf16 :=
  sout0_A_0 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-- Scratch 1 as the projection step leaves it on core `c`: a function of the arrays h, W, wl, wrᵀ as the region finds them. -/
def scr1 (c : Dev nD) : Vec F S8192x1 .bf16 :=
  sout0_A_1 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-- Scratch 2 as the projection step leaves it on core `c`: a function of the arrays h, W, wl, wrᵀ as the region finds them. -/
def scr2 (c : Dev nD) : Vec F S8192x1 .bf16 :=
  sout0_A_2 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-- Scratch 3 as the projection step leaves it on core `c`: a function of the arrays h, W, wl, wrᵀ as the region finds them. -/
def scr3 (c : Dev nD) : Vec F S1x8192 .bf16 :=
  sout0_A_3 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-- Scratch 4 as the projection step leaves it on core `c`: a function of the arrays h, W, wl, wrᵀ as the region finds them. -/
def scr4 (c : Dev nD) : Vec F S1x8192 .bf16 :=
  sout0_A_4 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)

/-! ## What the output window's buffer holds after each point -/

/-- After point 0 nothing is named (the window is idle there and not written back); after a later point the row-block
    step's store over that point's adjacency blocks, the bias and the scratch contents. -/
def outsAt0 (c : Dev nD) (t : Fin cfg0.N) : Vec F S128x128 .f32 :=
  if h : t.val = 0 then VO0_7.read (Elt F) VO0_7.junk
  else out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h0 => h ((hcond0_0 t).mp h0)) ((hcond0_1 t).mpr h)
    (iblk m c 0 t) (iblk m c 1 t) (iblk m c 6 t) (scr0 m c) (scr1 m c) (scr2 m c) (scr3 m c) (scr4 m c)

theorem outsAt0_pos (c : Dev nD) (t : Fin cfg0.N) (h : t.val ≠ 0) :
    outsAt0 m c t = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h0 => h ((hcond0_0 t).mp h0)) ((hcond0_1 t).mpr h)
      (iblk m c 0 t) (iblk m c 1 t) (iblk m c 6 t) (scr0 m c) (scr1 m c) (scr2 m c) (scr3 m c) (scr4 m c) := dif_neg h

/-! ## The region invariant -/

/-- Before point 0 the scratch buffers hold anything; before every later point they hold what the projection step left. -/
def PhiS (c : Dev nD) : ℕ → sProp 𝕄
  | 0 => Pipeline.ΦA spec0 c
  | _ + 1 => iprop(iprop(owns (c : Thread nD τ) scM0_0 fullShare (scr0 m c) ∗ owns (c : Thread nD τ) scM0_1 fullShare (scr1 m c) ∗ owns (c : Thread nD τ) scM0_2 fullShare (scr2 m c) ∗ owns (c : Thread nD τ) scM0_3 fullShare (scr3 m c) ∗ owns (c : Thread nD τ) scM0_4 fullShare (scr4 m c)) ∗ (∃ r, prngReg c r))

theorem PhiS_zero (c : Dev nD) : PhiS m c 0 = Pipeline.ΦA spec0 c := rfl
theorem PhiS_pos (c : Dev nD) (n : ℕ) (hn : n ≠ 0) :
    PhiS m c n = iprop(iprop(owns (c : Thread nD τ) scM0_0 fullShare (scr0 m c) ∗ owns (c : Thread nD τ) scM0_1 fullShare (scr1 m c) ∗ owns (c : Thread nD τ) scM0_2 fullShare (scr2 m c) ∗ owns (c : Thread nD τ) scM0_3 fullShare (scr3 m c) ∗ owns (c : Thread nD τ) scM0_4 fullShare (scr4 m c)) ∗ (∃ r, prngReg c r)) := by
  cases n with
  | zero => exact absurd rfl hn
  | succ n => rfl

/-! ## The pipeline's proof data -/

/-- The share each window holds of its array: the two adjacency windows the two halves of one array, the others theirs whole. -/
def shareOf : Fin cfg0.W → PosShare TreeShare := fun | 0 => fullShare.left | 1 => fullShare.right | 2 => fullShare | 3 => fullShare | 4 => fullShare | 5 => fullShare | 6 => fullShare | 7 => fullShare | ⟨_ + 8, h⟩ => absurd h (Nat.not_lt.2 (Nat.le_add_left _ _))

/-- The proof data on core `c`: the arrays as the region finds them; after the body each input window's buffer at its
    block and the output window's at `outsAt0`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt0 m c t
  Φ t := PhiS m c t.val
  q := shareOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt0 m c t := by dsimp only [dats]

/-- Input window 0's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- Input window 4's current buffer holds its block at every point, fetched there or not. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- Input window 5's current buffer holds its block at every point, fetched there or not. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- Input window 6's current buffer holds its block at every point, fetched there or not. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

end Cert.KernelIdeal.Hand

end
-- ==== Proof.KI.Launch.lean ====
/- The launch of the attention layer's kernel region, whose two adjacency windows are blocks of one array: from the
   body obligation of any proof data that deals that array's share between the two windows, to the run of @main
   from the launch memory; and the frame's reading of that run at the arguments and the result. At any float
   instance. -/
import proofs.«130185_g11553462026822_cont_9to1c4b_334_25_alg».proof.Proof.KI.Kit
import Idealize.ShloMosaic.Lib.Pipeline.Launch
import Idealize.ShloMosaic.Lib.Pipeline.Kit
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share each window holds of its array: the two adjacency windows the two halves of one array, the others theirs whole. -/
def qShare : Fin cfg0.W → PosShare TreeShare := fun | 0 => fullShare.left | 1 => fullShare.right | 2 => fullShare | 3 => fullShare | 4 => fullShare | 5 => fullShare | 6 => fullShare | 7 => fullShare | ⟨_ + 8, h⟩ => absurd h (Nat.not_lt.2 (Nat.le_add_left _ _))

/-- Window `w`'s conjunct of the proof data's arrays at entry: its array a whole buffer, at the entry contents. -/
theorem arr_entry (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin cfg0.W) (q : PosShare TreeShare)
    (hs : (dats 0 c).share w = q) :
    ((cfg0.win w).arr.view.loc (c.tc : Thread nD τ) ↦[(cfg0.win w).arr.view.set]{(dats 0 c).share w} (dats 0 c).arrAt w 0 : sProp 𝕄)
      = (((c.tc : Thread nD τ).loc (Pipeline.arrRef spec0 w)) ↦{q} V m c (Pipeline.arrRef spec0 w)) := by
  rw [(arr_whole0 w).set_eq_univ, hs, show (dats 0 c).arrAt w 0 = (dats 0 c).A w from rfl, hA]

/-- An input window holds its array at the share the proof data names, -/
theorem share_in (dats : (p : Fin 1) → (c : Dev nD) → Dat τ (Elt F) Unit ℕ (UR sig nD τ) ℕ (cfgs p) c)
    (hq : ∀ c w, (dats 0 c).q w = qShare w) (c : Dev nD) (w : Fin cfg0.W) (hw : (cfg0.win w).isOut = false) :
    (dats 0 c).share w = qShare w := by
  unfold Dat.share; rw [hw, hq]; rfl

/-- and the output window its array whole. -/
theorem share_out (dats : (p : Fin 1) → (c : Dev nD) → Dat τ (Elt F) Unit ℕ (UR sig nD τ) ℕ (cfgs p) c) (c : Dev nD) :
    (dats 0 c).share 7 = fullShare := by
  unfold Dat.share; rfl

/-- The seven buffers behind the eight windows' arrays, each whole at the entry contents, make the proof data's
    arrays at entry: the adjacency's buffer is halved along the share, the left half to window 0 and the right half
    to window 1; every other buffer is one window's. -/
theorem arrays_of_bufs (dats : (p : Fin 1) → (c : Dev nD) → Dat τ (Elt F) Unit ℕ (UR sig nD τ) ℕ (cfgs p) c)
    (hq : ∀ c w, (dats 0 c).q w = qShare w)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have hL : (Pipeline.arrBufs spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_arg3) ↦{fullShare} V m c main_arg3)
          ∗ (((c.tc : Thread nD τ).loc main_call0_v0) ↦{fullShare} V m c main_call0_v0) ∗ (((c.tc : Thread nD τ).loc main_call0_v1) ↦{fullShare} V m c main_call0_v1)
          ∗ (((c.tc : Thread nD τ).loc main_v0) ↦{fullShare} V m c main_v0)) := by
    unfold Pipeline.arrBufs
    exact bigSep_eq_bigSepL_of_eq [main_arg1, main_arg0, main_arg2, main_arg3, main_call0_v0, main_call0_v1, main_v0] (by decide) (by decide) _
  unfold Dat.arrays
  rw [hL, bigSep_W0,
    arr_entry m dats hA c 0 _ (share_in dats hq c 0 rfl), arr_entry m dats hA c 1 _ (share_in dats hq c 1 rfl),
    arr_entry m dats hA c 2 _ (share_in dats hq c 2 rfl), arr_entry m dats hA c 3 _ (share_in dats hq c 3 rfl),
    arr_entry m dats hA c 4 _ (share_in dats hq c 4 rfl), arr_entry m dats hA c 5 _ (share_in dats hq c 5 rfl),
    arr_entry m dats hA c 6 _ (share_in dats hq c 6 rfl), arr_entry m dats hA c 7 _ (share_out dats c)]
  iintro ⟨H1, H0, H2, H3, H5, H6, H7⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H2]; · iexact H2
  isplitl [H3]; · iexact H3
  isplitl [H5]; · iexact H5
  isplitl [H6]; · iexact H6
  iexact H7

set_option backward.isDefEq.respectTransparency.types false in
/-- The run of @main from the launch memory, from the body obligation: for any proof data that hold the adjacency's
    array by halves at windows 0 and 1 and every other input's array whole (`hq`), owe nothing (`howed`), start from
    the region's entry contents (`hA`), and whose invariant the class invariant yields before the first point and
    which yields it back after the last (`hin`, `hout`), every weakly fair execution terminates with every window's
    array at what the write-backs leave and every bypassing buffer as the region found it. The cores' staging cells are
    funded from the one copy of the rounds algebra; the generator register passes through the invariant; the two
    bypassing buffers are read back at the end. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qShare w) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (Pipeline.FramePost cfgs dats 0 (V m)) := by
  classical
  exact Pipeline.θ_run_region_pf (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m dats hq hA c)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2.2⟩)

/-- The frame from the run: the result is the output window's array after every write-back; the adjacency, the
    features, the weights and the left attention vector are input windows' arrays, unchanged from the region's entry,
    where they are as launched; the right attention vector and the bias are no window's array (the region reads
    their transposed and reshaped copies), and bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v0) = (dats 0 c).arrAt 7 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c => ⟨(h c).1 7,
      ((h c).1 2).trans (((dats 0 c).arrAt_in 2 rfl _).trans ((hA c 2).trans (V_main_arg0 m c))),
      ((h c).1 0).trans (((dats 0 c).arrAt_in 0 rfl _).trans ((hA c 0).trans (V_main_arg1 m c))),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).2 main_arg4 (Pipeline.mem_restRefs_of main_arg4 rfl (by decide))).trans (V_main_arg4 m c),
      ((h c).2 main_arg5 (Pipeline.mem_restRefs_of main_arg5 rfl (by decide))).trans (V_main_arg5 m c)⟩) h

end Cert.KernelIdeal.Hand

end
-- ==== Proof.KI.Frame.lean ====
/- The body obligation of the attention kernel's pipeline at every grid point, and the run of @main it gives.

   At grid point 0 the invariant hands the body its five scratch buffers at anything; the projection step stores
   all five, and the invariant takes them back at the contents named `scr0 … scr4`; the output window is idle
   and handed back as found. At a later point the invariant hands the scratch buffers at `scr0 … scr4`; the
   row-block step reads them and stores the output window's block, and hands them back unchanged. -/
import proofs.«130185_g11553462026822_cont_9to1c4b_334_25_alg».proof.Proof.KI.Data
import proofs.«130185_g11553462026822_cont_9to1c4b_334_25_alg».proof.Proof.KI.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = PhiS m c (t.val + 1) := rfl

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [Phi_succ, PhiS_pos m c (t.val + 1) (Nat.succ_ne_zero _), Phi_castSucc]
  rw [leaves0_0, leaves0_1, leaves0_2, leaves0_3, leaves0_4, leaves0_5, leaves0_6]
  by_cases hz : t.val = 0
  · -- the projection step
    rw [Dat.leavesExact_idle (dats m 0 c) 7 t (idleAt0_7_A t hz) (noFlush0_7_A t hz)]
    have ht : t = t₀ := Fin.ext hz
    subst ht
    rw [show PhiS m c (t₀ : Fin cfg0.N).val = Pipeline.ΦA spec0 c from rfl, PhiA0_eq]
    unfold scr0 scr1 scr2 scr3 scr4 sout0_A_0 sout0_A_1 sout0_A_2 sout0_A_3 sout0_A_4
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)).2.2.2.2.2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%e0, HS0⟩, ⟨%e1, HS1⟩, ⟨%e2, HS2⟩, ⟨%e3, HS3⟩, ⟨%e4, HS4⟩⟩
    isplitl [HS0 HS1 HS2 HS3 HS4 Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _)
        · unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · -- a row block
    rw [show (dats m 0 c).leavesExact 7 t = owns (c : Thread nD τ) (ms0_7 t) fullShare ((dats m 0 c).after 7 t) from by
      unfold Dat.leavesExact; rw [liveAt0_7_B t hz], after0_7, outsAt0_pos m c t hz]
    unfold out0_B_7
    rw [PhiS_pos m c _ hz]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h0 => hz ((hcond0_0 t).mp h0)) ((hcond0_1 t).mpr hz) (iblk m c 0 t) (iblk m c 1 t) (iblk m c 6 t) (scr0 m c) (scr1 m c) (scr2 m c) (scr3 m c) (scr4 m c)).2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, ⟨%e7, H7⟩, HS0, HS1, HS2, HS3, HS4⟩
    isplitl [HS0 HS1 HS2 HS3 HS4 Hg]
    · isplitr [Hg]
      · isplitl [HS0]; · iexact HS0
        isplitl [HS1]; · iexact HS1
        isplitl [HS2]; · iexact HS2
        isplitl [HS3]; · iexact HS3
        iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 65 := N_0; omega), PhiA0_eq]
  iintro ⟨⟨HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  · iexact Hg

/-- Every weakly fair execution of @main terminates, every window's array at what the proof data computes and every
    other argument as launched. -/
theorem run_main : θ_run defs (onTc (τ := τ) (main (F := F))) (s₀ m ρ) (Pipeline.FramePost cfgs (dats m) 0 (V m)) :=
  run_of m ρ (dats m) (fun c => (body_obligation m c).loose) (fun c w => by dsimp only [dats]; fin_cases w <;> rfl)
    (fun _ _ => rfl) (A_eq m) (hin m) (hout m)

/-- The program's run: the result array named, the six arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  frame_of m ρ (dats m) (A_eq m) (run_main m ρ)

end Cert.KernelIdeal.Hand

end
-- ==== Proof.KI.Args.lean ====
/- The six argument arrays of the attention layer on one core, as functions of their coordinates: the node features
   h, the adjacency, the projection W, the two attention vectors (columns) and the bias. -/
import proofs.«130185_g11553462026822_cont_9to1c4b_334_25_alg».proof.Proof.KI.Kit
import Idealize.ShloMosaic.Lib.ValueIdx
import Idealize.ShloMosaic.PureOps.Ideal

noncomputable section

namespace Cert.KernelIdeal.Hand

open Idealize.ShloMosaic Idealize.ShloMosaic.TcCoe Idealize.SL.Sem ValueIdx

variable (m : (ℓ : Loc nD τ sig) → Buf (Elt Ideal) ℓ)

abbrev hA (c : Dev nD) : Fin 8192 → Fin 128 → EReal := fun j d => m ((c.tc : Thread nD τ).loc main_arg0) (ix2 j d)
abbrev adjA (c : Dev nD) : Fin 8192 → Fin 8192 → BitVec 32 := fun p q => m ((c.tc : Thread nD τ).loc main_arg1) (ix2 p q)
abbrev WA (c : Dev nD) : Fin 128 → Fin 128 → EReal := fun d q => m ((c.tc : Thread nD τ).loc main_arg2) (ix2 d q)
abbrev wlA (c : Dev nD) : Fin 128 → EReal := fun q => m ((c.tc : Thread nD τ).loc main_arg3) (ix2 q (0 : Fin 1))
abbrev wrA (c : Dev nD) : Fin 128 → EReal := fun q => m ((c.tc : Thread nD τ).loc main_arg4) (ix2 q (0 : Fin 1))
abbrev bA (c : Dev nD) : Fin 128 → EReal := fun q => m ((c.tc : Thread nD τ).loc main_arg5) (ix1 q)

end Cert.KernelIdeal.Hand

end
-- ==== Proof.Spec.lean ====
/- The graph-attention layer as functions of indices over the extended reals, in the two arrangements the two
   programs compute, and the law that joins them.

   With X = h·W the projected features, el = X·wl and er = X·wr the two attention logits, c the slope 0.2 and
   ε the floor 1e-12 (both as their binary32 values), and an edge i→j present where adj i j > 0:

   * the row-normalised arrangement: the weight of edge (i, j) is exp (leaky (el i + er j)) — 0 off the graph —,
     each weight is divided by max (Σ_j |weight i j|) ε, and the quotients are contracted with X;
   * the fused arrangement: the weight is max (exp (el i) · exp (er j)) (exp (c·el i) · exp (c·er j)), the
     weights are contracted with X beside a column of ones in two halves of 4096 neighbours, and the feature
     columns are divided by max (ones column) ε afterwards.

   They agree when every input entry is a real number: exp turns the sum of logits into a product, leaky x is
   x or c·x according to the sign of x with 0 < c < 1 so that exp ∘ leaky is the larger of the two
   exponentials, the weights are nonnegative so the absolute values drop, and a positive real divisor moves
   across a finite sum. -/
import Idealize.ShloMosaic.PureOps.Ideal
import Idealize.ShloMosaic.PureOps.Ideal.Laws
import Mathlib.Algebra.BigOperators.Fin
import Mathlib.Analysis.SpecialFunctions.Exp
import Mathlib.Data.EReal.Operations

noncomputable section

namespace Cert.Spec

open Idealize.ShloMosaic

/-- The slope of the leaky rectifier: binary32's 0.2. -/
def slope : EReal := Ideal.ofBits .f32 0x3E4CCCCD#32
/-- The floor of the row sum: binary32's 1e-12. -/
def floor : EReal := Ideal.ofBits .f32 0x2B8CBCCC#32

/-- Neighbour j of the first half, and of the second half, of the 8192 nodes. -/
def lo (j : Fin 4096) : Fin 8192 := ⟨j.val, by omega⟩
def hi (j : Fin 4096) : Fin 8192 := ⟨j.val + 4096, by omega⟩

variable (h : Fin 8192 → Fin 128 → EReal) (adj : Fin 8192 → Fin 8192 → BitVec 32)
  (W : Fin 128 → Fin 128 → EReal) (wl wr b : Fin 128 → EReal)

/-- The projected features X = h·W. -/
def X (j : Fin 8192) (k : Fin 128) : EReal := ∑ d : Fin 128, h j d * W d k
/-- The source logit el = X·wl and the target logit er = X·wr. -/
def EL (i : Fin 8192) : EReal := ∑ k : Fin 128, X h W i k * wl k
def ER (j : Fin 8192) : EReal := ∑ k : Fin 128, X h W j k * wr k

/-- The leaky rectifier with slope c. -/
def leaky (s : EReal) : EReal := if 0 ≤ s then s else slope * s

/-- Edge (i, j)'s weight in the row-normalised arrangement. -/
def attR (i j : Fin 8192) : EReal :=
  if 0 < (adj i j).toInt then Ideal.exp (leaky (EL h W wl i + ER h W wr j)) else 0

/-- The row-normalised arrangement (the reference's). -/
def Rform (i : Fin 8192) (k : Fin 128) : EReal :=
  (∑ j : Fin 8192,
      Ideal.div (attR h adj W wl wr i j)
        (max (0 + ∑ j' : Fin 8192, max (attR h adj W wl wr i j') (-(attR h adj W wl wr i j'))) floor)
        * X h W j k)
    + b k

/-- Edge (i, j)'s weight in the fused arrangement. -/
def attK (i j : Fin 8192) : EReal :=
  if 0 < (adj i j).toInt then
    max (Ideal.exp (EL h W wl i) * Ideal.exp (ER h W wr j))
        (Ideal.exp (slope * EL h W wl i) * Ideal.exp (slope * ER h W wr j))
  else 0

/-- The features beside a ones column (column 128) and zeros (columns 129 to 255). -/
def XA (j : Fin 8192) (k' : Fin 256) : EReal :=
  if hk : k'.val < 128 then X h W j ⟨k'.val, hk⟩ else if k'.val = 128 then 1 else 0

/-- The fused contraction over the two halves of the neighbours. -/
def Kacc (i : Fin 8192) (k' : Fin 256) : EReal :=
  (∑ j : Fin 4096, attK h adj W wl wr i (lo j) * XA h W (lo j) k')
    + (∑ j : Fin 4096, attK h adj W wl wr i (hi j) * XA h W (hi j) k')

/-- The fused arrangement (the kernel's). -/
def Kform (i : Fin 8192) (k : Fin 128) : EReal :=
  Ideal.div (Kacc h adj W wl wr i ⟨k.val, by omega⟩) (max (Kacc h adj W wl wr i ⟨128, by omega⟩) floor) + b k

/-! ### The two literals are positive reals -/

/-- The slope as a real number: 13421773 · 2⁻²⁶. -/
def slopeR : ℝ := 13421773 / 67108864
/-- The floor as a real number: 9223372 · 2⁻⁶³. -/
def floorR : ℝ := 9223372 / 2 ^ 63

theorem slope_eq : slope = (slopeR : EReal) := by
  unfold slope slopeR
  simp [Ideal.ofBits, Ideal.ieee, -EReal.coe_mul]; norm_num

theorem slopeR_pos : 0 < slopeR := by unfold slopeR; norm_num
theorem slopeR_lt_one : slopeR < 1 := by unfold slopeR; norm_num

theorem floor_eq : floor = (floorR : EReal) := by
  unfold floor floorR
  simp [Ideal.ofBits, Ideal.ieee, -EReal.coe_mul]; norm_num

theorem floorR_pos : 0 < floorR := by unfold floorR; norm_num

/-! ### The coercion ℝ → EReal through finite sums and maxima -/

/-- The coercion commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion is monotone, so it commutes with max. -/
theorem coe_max (x y : ℝ) : ((max x y : ℝ) : EReal) = max (x : EReal) (y : EReal) :=
  EReal.coe_strictMono.monotone.map_max

/-! ### The sum over the 8192 nodes is the sum over its two halves -/

theorem sum_halves {M : Type*} [AddCommMonoid M] (f : Fin 8192 → M) :
    ∑ j : Fin 8192, f j = (∑ j : Fin 4096, f (lo j)) + ∑ j : Fin 4096, f (hi j) := by
  have h1 : ∀ j : Fin 4096, Fin.castAdd 4096 j = lo j := fun j => Fin.ext rfl
  have h2 : ∀ j : Fin 4096, Fin.natAdd 4096 j = hi j := fun j => Fin.ext (Nat.add_comm 4096 j.val)
  refine (Fin.sum_univ_add (a := 4096) (b := 4096) f).trans ?_
  simp only [h1, h2]

/-! ### The layer over the reals -/

section RealSide

variable (hr : Fin 8192 → Fin 128 → ℝ) (Wr : Fin 128 → Fin 128 → ℝ) (wlr wrr : Fin 128 → ℝ)

/-- The projected features, the two logits, the rectifier and the edge weight, over ℝ. -/
def Xr (j : Fin 8192) (k : Fin 128) : ℝ := ∑ d : Fin 128, hr j d * Wr d k
def ELr (i : Fin 8192) : ℝ := ∑ k : Fin 128, Xr hr Wr i k * wlr k
def ERr (j : Fin 8192) : ℝ := ∑ k : Fin 128, Xr hr Wr j k * wrr k
def leakyR (s : ℝ) : ℝ := if 0 ≤ s then s else slopeR * s
def attr (i j : Fin 8192) : ℝ :=
  if 0 < (adj i j).toInt then Real.exp (leakyR (ELr hr Wr wlr i + ERr hr Wr wrr j)) else 0

theorem attr_nonneg (i j : Fin 8192) : 0 ≤ attr adj hr Wr wlr wrr i j := by
  unfold attr
  split_ifs
  · exact (Real.exp_pos _).le
  · exact le_rfl

/-- exp turns the sum of the logits into a product, and since 0 < c < 1 the rectified sum is the larger of
    s and c·s, so exp ∘ leaky is the larger of the two products of exponentials. -/
theorem exp_leakyR (a b : ℝ) :
    max (Real.exp a * Real.exp b) (Real.exp (slopeR * a) * Real.exp (slopeR * b))
      = Real.exp (leakyR (a + b)) := by
  rw [← Real.exp_add, ← Real.exp_add, ← mul_add]
  have hc0 := slopeR_pos
  have hc1 := slopeR_lt_one
  unfold leakyR
  split_ifs with hs
  · refine max_eq_left (Real.exp_le_exp.mpr ?_)
    nlinarith [mul_nonneg (sub_nonneg.mpr hc1.le) hs]
  · have hs' : a + b < 0 := not_le.mp hs
    refine max_eq_right (Real.exp_le_exp.mpr ?_)
    nlinarith [mul_pos (sub_pos.mpr hc1) (neg_pos.mpr hs')]

end RealSide

/-! ### Every quantity of the two arrangements is the coercion of its real counterpart -/

section Coe

variable {h adj W wl wr b}
variable {hr : Fin 8192 → Fin 128 → ℝ} {Wr : Fin 128 → Fin 128 → ℝ} {wlr wrr : Fin 128 → ℝ}

theorem X_coe (hh : ∀ j d, h j d = (hr j d : EReal)) (hW : ∀ d k, W d k = (Wr d k : EReal))
    (j : Fin 8192) (k : Fin 128) : X h W j k = (Xr hr Wr j k : EReal) := by
  unfold X Xr
  rw [coe_sum]
  refine Finset.sum_congr rfl fun d _ => ?_
  rw [hh, hW, EReal.coe_mul]

theorem EL_coe (hh : ∀ j d, h j d = (hr j d : EReal)) (hW : ∀ d k, W d k = (Wr d k : EReal))
    (hwl : ∀ k, wl k = (wlr k : EReal)) (i : Fin 8192) : EL h W wl i = (ELr hr Wr wlr i : EReal) := by
  unfold EL ELr
  rw [coe_sum]
  refine Finset.sum_congr rfl fun k _ => ?_
  rw [X_coe hh hW, hwl, EReal.coe_mul]

theorem ER_coe (hh : ∀ j d, h j d = (hr j d : EReal)) (hW : ∀ d k, W d k = (Wr d k : EReal))
    (hwr : ∀ k, wr k = (wrr k : EReal)) (j : Fin 8192) : ER h W wr j = (ERr hr Wr wrr j : EReal) := by
  unfold ER ERr
  rw [coe_sum]
  refine Finset.sum_congr rfl fun k _ => ?_
  rw [X_coe hh hW, hwr, EReal.coe_mul]

theorem leaky_coe (s : ℝ) : leaky (s : EReal) = (leakyR s : EReal) := by
  unfold leaky leakyR
  rw [slope_eq]
  by_cases hs : 0 ≤ s
  · rw [if_pos (EReal.coe_nonneg.mpr hs), if_pos hs]
  · rw [if_neg (fun h' => hs (EReal.coe_nonneg.mp h')), if_neg hs, EReal.coe_mul]

theorem attR_coe (hh : ∀ j d, h j d = (hr j d : EReal)) (hW : ∀ d k, W d k = (Wr d k : EReal))
    (hwl : ∀ k, wl k = (wlr k : EReal)) (hwr : ∀ k, wr k = (wrr k : EReal)) (i j : Fin 8192) :
    attR h adj W wl wr i j = (attr adj hr Wr wlr wrr i j : EReal) := by
  unfold attR attr
  split_ifs
  · rw [EL_coe hh hW hwl, ER_coe hh hW hwr, ← EReal.coe_add, leaky_coe, Ideal.exp_coe]
  · rfl

theorem attK_coe (hh : ∀ j d, h j d = (hr j d : EReal)) (hW : ∀ d k, W d k = (Wr d k : EReal))
    (hwl : ∀ k, wl k = (wlr k : EReal)) (hwr : ∀ k, wr k = (wrr k : EReal)) (i j : Fin 8192) :
    attK h adj W wl wr i j = (attr adj hr Wr wlr wrr i j : EReal) := by
  unfold attK attr
  split_ifs
  · rw [EL_coe hh hW hwl, ER_coe hh hW hwr, slope_eq]
    simp only [← EReal.coe_mul, Ideal.exp_coe, ← coe_max]
    rw [exp_leakyR]
  · rfl

/-- A feature column of the augmented matrix is the feature itself; column 128 is the ones column. -/
theorem XA_feature (j : Fin 8192) (k : Fin 128) : XA h W j ⟨k.val, by omega⟩ = X h W j k := by
  simp [XA]

theorem XA_ones (j : Fin 8192) : XA h W j ⟨128, by omega⟩ = 1 := by
  simp [XA]

/-- The two half contractions together are the contraction over all 8192 neighbours. -/
theorem Kacc_eq (i : Fin 8192) (k' : Fin 256) :
    Kacc h adj W wl wr i k' = ∑ j : Fin 8192, attK h adj W wl wr i j * XA h W j k' :=
  (sum_halves fun j => attK h adj W wl wr i j * XA h W j k').symm

theorem Rform_coe (hh : ∀ j d, h j d = (hr j d : EReal)) (hW : ∀ d k, W d k = (Wr d k : EReal))
    (hwl : ∀ k, wl k = (wlr k : EReal)) (hwr : ∀ k, wr k = (wrr k : EReal)) (i : Fin 8192) (k : Fin 128) :
    Rform h adj W wl wr b i k
      = ((∑ j : Fin 8192, attr adj hr Wr wlr wrr i j
            * (1 / max (∑ j' : Fin 8192, attr adj hr Wr wlr wrr i j') floorR) * Xr hr Wr j k : ℝ) : EReal)
        + b k := by
  unfold Rform
  have hden : max (0 + ∑ j' : Fin 8192, max (attR h adj W wl wr i j') (-(attR h adj W wl wr i j'))) floor
      = ((max (∑ j' : Fin 8192, attr adj hr Wr wlr wrr i j') floorR : ℝ) : EReal) := by
    have habs : ∀ j' : Fin 8192, max (attR h adj W wl wr i j') (-(attR h adj W wl wr i j'))
        = (attr adj hr Wr wlr wrr i j' : EReal) := by
      intro j'
      rw [attR_coe hh hW hwl hwr, ← EReal.coe_neg, ← coe_max, max_eq_left]
      linarith [attr_nonneg adj hr Wr wlr wrr i j']
    rw [zero_add, floor_eq, coe_max, coe_sum, Finset.sum_congr rfl fun j' _ => habs j']
  rw [hden, coe_sum]
  refine congrArg (· + b k) ?_
  refine Finset.sum_congr rfl fun j _ => ?_
  rw [attR_coe hh hW hwl hwr, X_coe hh hW, Ideal.div_coe (lt_max_of_lt_right floorR_pos).ne',
    ← EReal.coe_mul, ← EReal.coe_mul]

theorem Kform_coe (hh : ∀ j d, h j d = (hr j d : EReal)) (hW : ∀ d k, W d k = (Wr d k : EReal))
    (hwl : ∀ k, wl k = (wlr k : EReal)) (hwr : ∀ k, wr k = (wrr k : EReal)) (i : Fin 8192) (k : Fin 128) :
    Kform h adj W wl wr b i k
      = (((∑ j : Fin 8192, attr adj hr Wr wlr wrr i j * Xr hr Wr j k)
            * (1 / max (∑ j' : Fin 8192, attr adj hr Wr wlr wrr i j') floorR) : ℝ) : EReal)
        + b k := by
  unfold Kform
  have hnum : Kacc h adj W wl wr i ⟨k.val, by omega⟩
      = ((∑ j : Fin 8192, attr adj hr Wr wlr wrr i j * Xr hr Wr j k : ℝ) : EReal) := by
    rw [Kacc_eq, coe_sum]
    refine Finset.sum_congr rfl fun j _ => ?_
    rw [attK_coe hh hW hwl hwr, XA_feature, X_coe hh hW, EReal.coe_mul]
  have hone : Kacc h adj W wl wr i ⟨128, by omega⟩
      = ((∑ j : Fin 8192, attr adj hr Wr wlr wrr i j : ℝ) : EReal) := by
    rw [Kacc_eq, coe_sum]
    refine Finset.sum_congr rfl fun j _ => ?_
    rw [attK_coe hh hW hwl hwr, XA_ones, mul_one]
  rw [hnum, hone, floor_eq, ← coe_max, Ideal.div_coe (lt_max_of_lt_right floorR_pos).ne', ← EReal.coe_mul]

end Coe

/-- THE LAW: on real inputs the two arrangements are one function. -/
theorem Kform_eq_Rform
    (hh : ∀ j d, ∃ r : ℝ, h j d = (r : EReal)) (hW : ∀ d k, ∃ r : ℝ, W d k = (r : EReal))
    (hwl : ∀ k, ∃ r : ℝ, wl k = (r : EReal)) (hwr : ∀ k, ∃ r : ℝ, wr k = (r : EReal))
    (hb : ∀ k, ∃ r : ℝ, b k = (r : EReal)) (i : Fin 8192) (k : Fin 128) :
    Kform h adj W wl wr b i k = Rform h adj W wl wr b i k := by
  choose hr hhr using hh
  choose Wr hWr using hW
  choose wlr hwlr using hwl
  choose wrr hwrr using hwr
  rw [Kform_coe hhr hWr hwlr hwrr, Rform_coe hhr hWr hwlr hwrr]
  -- a positive real divisor moves across the finite sum
  have key : (∑ j : Fin 8192, attr adj hr Wr wlr wrr i j * Xr hr Wr j k)
        * (1 / max (∑ j' : Fin 8192, attr adj hr Wr wlr wrr i j') floorR)
      = ∑ j : Fin 8192, attr adj hr Wr wlr wrr i j
          * (1 / max (∑ j' : Fin 8192, attr adj hr Wr wlr wrr i j') floorR) * Xr hr Wr j k := by
    rw [Finset.sum_mul]
    exact Finset.sum_congr rfl fun j _ => by ring
  rw [key]

end Cert.Spec

end
-- ==== Proof.KI.Pay.lean ====
/- The kernel's stored values read at an index, on the extended reals.

   Every value the kernel stores is a pure term over the values loaded before it. Here each such term is read at
   one index (j, k) of its shape and written as the function of indices it computes:

   * the projection X = h·W, X(j, k) = Σ_d h(j, d)·W(d, k), and its 16-bit copy (the identity on the extended reals);
   * the ones column beside the features, 1 in column 0 of its 128 columns and 0 in the others;
   * the source logit el(j) = Σ_k X(j, k)·wl(k) with exp el and exp (c·el), c the slope;
   * the target logit as a row, er(j) = Σ_k wr(k)·X(j, k) (the product contracts the second coordinate of both
     operands), with exp er and exp (c·er);
   * the masked weight of edge (p, j') of either half of the neighbours: where the adjacency word is positive as a
     signed integer the larger of ea(p)·eb(j') and ec(p)·ed(j'), elsewhere 0;
   * the accumulated table acc(p, k') = Σ over the first half + Σ over the second half of weight·table, and the output
     block acc(p, q) / max (acc(p, 128), floor) + bias(q).

   Each matrix product into a zero accumulator is the sum over its one contracted coordinate: the operand indices
   are named coordinate by coordinate and the contraction's index set is carried to Fin K. -/
import proofs.«130185_g11553462026822_cont_9to1c4b_334_25_alg».proof.Proof.Gen.KernelIdeal.Skeleton
import proofs.«130185_g11553462026822_cont_9to1c4b_334_25_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Hand

open Idealize.ShloMosaic Cert.KernelIdeal Cert.KernelIdeal.Gen ValueIdx
open Cert.KernelIdeal.Facts₀ Cert.KernelIdeal.Facts

variable [Cert.KernelIdeal.Facts]

namespace Pay

/-! ## The projection X = h·W: an 8192×128 matrix times a 128×128 one -/

/-- The left operand's row is the result's row … -/
theorem lhs_proj_0 (j : S8192x128.Idx) (k : dot_S8192x128_S128x128_S8192x128_1_0_0_1_n_n.contr.Idx) :
    ((dot_S8192x128_S128x128_S8192x128_1_0_0_1_n_n.lhsIdx j k 0 : Fin _) : ℕ) = (j 0).val := by
  simp [DotDims.lhsIdx, dot_S8192x128_S128x128_S8192x128_1_0_0_1_n_n]
  first | rfl | exact (Fin.val_eq_zero _).symm

/-- … its column the contracted coordinate. -/
theorem lhs_proj_1 (j : S8192x128.Idx) (k : dot_S8192x128_S128x128_S8192x128_1_0_0_1_n_n.contr.Idx) :
    ((dot_S8192x128_S128x128_S8192x128_1_0_0_1_n_n.lhsIdx j k 1 : Fin _) : ℕ) = (k ⟨0, by decide⟩).val :=
  dot_S8192x128_S128x128_S8192x128_1_0_0_1_n_n.lhsIdx_val_of_single (cl := 1) rfl j k

/-- The right operand's first coordinate … -/
theorem rhs_proj_0 (j : S8192x128.Idx) (k : dot_S8192x128_S128x128_S8192x128_1_0_0_1_n_n.contr.Idx) :
    ((dot_S8192x128_S128x128_S8192x128_1_0_0_1_n_n.rhsIdx j k 0 : Fin _) : ℕ) = (k ⟨0, by decide⟩).val :=
  dot_S8192x128_S128x128_S8192x128_1_0_0_1_n_n.rhsIdx_val_of_single (cr := 0) rfl j k

/-- … and its second. -/
theorem rhs_proj_1 (j : S8192x128.Idx) (k : dot_S8192x128_S128x128_S8192x128_1_0_0_1_n_n.contr.Idx) :
    ((dot_S8192x128_S128x128_S8192x128_1_0_0_1_n_n.rhsIdx j k 1 : Fin _) : ℕ) = (j 1).val := by
  simp [DotDims.rhsIdx, dot_S8192x128_S128x128_S8192x128_1_0_0_1_n_n]
  first | rfl | exact (Fin.val_eq_zero _).symm

/-- The product into a zero accumulator read at (a, b): the sum over the 128 contracted positions. -/
theorem matmul_proj_apply {φ₁ φ₂ : FTy} (x : FVec Ideal S8192x128 φ₁) (y : FVec Ideal S128x128 φ₂) (a : Fin 8192) (b : Fin 128) :
    FloatOps.matmul dot_S8192x128_S128x128_S8192x128_1_0_0_1_n_n none x y (constant (F := Ideal) S8192x128 .f32 0x00000000#32) (ix2 a b)
      = ∑ c : Fin 128, x (ix2 a c) * y (ix2 c b) := by
  refine (Ideal.matmul_constant_zero_apply dot_S8192x128_S128x128_S8192x128_1_0_0_1_n_n none x y (ix2 a b)).trans ?_
  rw [← Equiv.sum_comp (contrEquiv1 dot_S8192x128_S128x128_S8192x128_1_0_0_1_n_n 128 rfl rfl).symm]
  refine Finset.sum_congr rfl fun c _ => ?_
  have c2 := contrEquiv1_symm_val dot_S8192x128_S128x128_S8192x128_1_0_0_1_n_n 128 rfl rfl c
  have l2 : dot_S8192x128_S128x128_S8192x128_1_0_0_1_n_n.lhsIdx (ix2 a b)
      ((contrEquiv1 dot_S8192x128_S128x128_S8192x128_1_0_0_1_n_n 128 rfl rfl).symm c) = ix2 a c := by
    funext ax; apply Fin.ext
    match ax with
    | ⟨0, _⟩ => exact lhs_proj_0 _ _
    | ⟨1, _⟩ => exact (lhs_proj_1 _ _).trans c2
  have r2 : dot_S8192x128_S128x128_S8192x128_1_0_0_1_n_n.rhsIdx (ix2 a b)
      ((contrEquiv1 dot_S8192x128_S128x128_S8192x128_1_0_0_1_n_n 128 rfl rfl).symm c) = ix2 c b := by
    funext ax; apply Fin.ext
    match ax with
    | ⟨0, _⟩ => exact (rhs_proj_0 _ _).trans c2
    | ⟨1, _⟩ => exact rhs_proj_1 _ _
  rw [l2, r2]

/-! ## The source logit el = X·wl: an 8192×128 matrix times a 128×1 column -/

/-- The left operand's row is the result's row … -/
theorem lhs_left_0 (j : S8192x1.Idx) (k : dot_S8192x128_S128x1_S8192x1_1_0_0_1_n_n.contr.Idx) :
    ((dot_S8192x128_S128x1_S8192x1_1_0_0_1_n_n.lhsIdx j k 0 : Fin _) : ℕ) = (j 0).val := by
  simp [DotDims.lhsIdx, dot_S8192x128_S128x1_S8192x1_1_0_0_1_n_n]
  first | rfl | exact (Fin.val_eq_zero _).symm

/-- … its column the contracted coordinate. -/
theorem lhs_left_1 (j : S8192x1.Idx) (k : dot_S8192x128_S128x1_S8192x1_1_0_0_1_n_n.contr.Idx) :
    ((dot_S8192x128_S128x1_S8192x1_1_0_0_1_n_n.lhsIdx j k 1 : Fin _) : ℕ) = (k ⟨0, by decide⟩).val :=
  dot_S8192x128_S128x1_S8192x1_1_0_0_1_n_n.lhsIdx_val_of_single (cl := 1) rfl j k

/-- The right operand's first coordinate … -/
theorem rhs_left_0 (j : S8192x1.Idx) (k : dot_S8192x128_S128x1_S8192x1_1_0_0_1_n_n.contr.Idx) :
    ((dot_S8192x128_S128x1_S8192x1_1_0_0_1_n_n.rhsIdx j k 0 : Fin _) : ℕ) = (k ⟨0, by decide⟩).val :=
  dot_S8192x128_S128x1_S8192x1_1_0_0_1_n_n.rhsIdx_val_of_single (cr := 0) rfl j k

/-- … and its second. -/
theorem rhs_left_1 (j : S8192x1.Idx) (k : dot_S8192x128_S128x1_S8192x1_1_0_0_1_n_n.contr.Idx) :
    ((dot_S8192x128_S128x1_S8192x1_1_0_0_1_n_n.rhsIdx j k 1 : Fin _) : ℕ) = (j 1).val := by
  simp [DotDims.rhsIdx, dot_S8192x128_S128x1_S8192x1_1_0_0_1_n_n]
  first | rfl | exact (Fin.val_eq_zero _).symm

/-- The product into a zero accumulator read at (a, b): the sum over the 128 contracted positions. -/
theorem matmul_left_apply {φ₁ φ₂ : FTy} (x : FVec Ideal S8192x128 φ₁) (y : FVec Ideal S128x1 φ₂) (a : Fin 8192) (b : Fin 1) :
    FloatOps.matmul dot_S8192x128_S128x1_S8192x1_1_0_0_1_n_n none x y (constant (F := Ideal) S8192x1 .f32 0x00000000#32) (ix2 a b)
      = ∑ c : Fin 128, x (ix2 a c) * y (ix2 c b) := by
  refine (Ideal.matmul_constant_zero_apply dot_S8192x128_S128x1_S8192x1_1_0_0_1_n_n none x y (ix2 a b)).trans ?_
  rw [← Equiv.sum_comp (contrEquiv1 dot_S8192x128_S128x1_S8192x1_1_0_0_1_n_n 128 rfl rfl).symm]
  refine Finset.sum_congr rfl fun c _ => ?_
  have c2 := contrEquiv1_symm_val dot_S8192x128_S128x1_S8192x1_1_0_0_1_n_n 128 rfl rfl c
  have l2 : dot_S8192x128_S128x1_S8192x1_1_0_0_1_n_n.lhsIdx (ix2 a b)
      ((contrEquiv1 dot_S8192x128_S128x1_S8192x1_1_0_0_1_n_n 128 rfl rfl).symm c) = ix2 a c := by
    funext ax; apply Fin.ext
    match ax with
    | ⟨0, _⟩ => exact lhs_left_0 _ _
    | ⟨1, _⟩ => exact (lhs_left_1 _ _).trans c2
  have r2 : dot_S8192x128_S128x1_S8192x1_1_0_0_1_n_n.rhsIdx (ix2 a b)
      ((contrEquiv1 dot_S8192x128_S128x1_S8192x1_1_0_0_1_n_n 128 rfl rfl).symm c) = ix2 c b := by
    funext ax; apply Fin.ext
    match ax with
    | ⟨0, _⟩ => exact (rhs_left_0 _ _).trans c2
    | ⟨1, _⟩ => exact rhs_left_1 _ _
  rw [l2, r2]

/-! ## The target logit as a row, wrᵀ·Xᵀ: a 1×128 row times an 8192×128 matrix, contracting the second coordinate of both -/

/-- The left operand's row is the result's row … -/
theorem lhs_right_0 (j : S1x8192.Idx) (k : dot_S1x128_S8192x128_S1x8192_1_1_0_0_n_n.contr.Idx) :
    ((dot_S1x128_S8192x128_S1x8192_1_1_0_0_n_n.lhsIdx j k 0 : Fin _) : ℕ) = (j 0).val := by
  simp [DotDims.lhsIdx, dot_S1x128_S8192x128_S1x8192_1_1_0_0_n_n]
  first | rfl | exact (Fin.val_eq_zero _).symm

/-- … its column the contracted coordinate. -/
theorem lhs_right_1 (j : S1x8192.Idx) (k : dot_S1x128_S8192x128_S1x8192_1_1_0_0_n_n.contr.Idx) :
    ((dot_S1x128_S8192x128_S1x8192_1_1_0_0_n_n.lhsIdx j k 1 : Fin _) : ℕ) = (k ⟨0, by decide⟩).val :=
  dot_S1x128_S8192x128_S1x8192_1_1_0_0_n_n.lhsIdx_val_of_single (cl := 1) rfl j k

/-- The right operand's first coordinate … -/
theorem rhs_right_0 (j : S1x8192.Idx) (k : dot_S1x128_S8192x128_S1x8192_1_1_0_0_n_n.contr.Idx) :
    ((dot_S1x128_S8192x128_S1x8192_1_1_0_0_n_n.rhsIdx j k 0 : Fin _) : ℕ) = (j 1).val := by
  simp [DotDims.rhsIdx, dot_S1x128_S8192x128_S1x8192_1_1_0_0_n_n]
  first | rfl | exact (Fin.val_eq_zero _).symm

/-- … and its second. -/
theorem rhs_right_1 (j : S1x8192.Idx) (k : dot_S1x128_S8192x128_S1x8192_1_1_0_0_n_n.contr.Idx) :
    ((dot_S1x128_S8192x128_S1x8192_1_1_0_0_n_n.rhsIdx j k 1 : Fin _) : ℕ) = (k ⟨0, by decide⟩).val :=
  dot_S1x128_S8192x128_S1x8192_1_1_0_0_n_n.rhsIdx_val_of_single (cr := 1) rfl j k

/-- The product into a zero accumulator read at (a, b): the sum over the 128 contracted positions. -/
theorem matmul_right_apply {φ₁ φ₂ : FTy} (x : FVec Ideal S1x128 φ₁) (y : FVec Ideal S8192x128 φ₂) (a : Fin 1) (b : Fin 8192) :
    FloatOps.matmul dot_S1x128_S8192x128_S1x8192_1_1_0_0_n_n none x y (constant (F := Ideal) S1x8192 .f32 0x00000000#32) (ix2 a b)
      = ∑ c : Fin 128, x (ix2 a c) * y (ix2 b c) := by
  refine (Ideal.matmul_constant_zero_apply dot_S1x128_S8192x128_S1x8192_1_1_0_0_n_n none x y (ix2 a b)).trans ?_
  rw [← Equiv.sum_comp (contrEquiv1 dot_S1x128_S8192x128_S1x8192_1_1_0_0_n_n 128 rfl rfl).symm]
  refine Finset.sum_congr rfl fun c _ => ?_
  have c2 := contrEquiv1_symm_val dot_S1x128_S8192x128_S1x8192_1_1_0_0_n_n 128 rfl rfl c
  have l2 : dot_S1x128_S8192x128_S1x8192_1_1_0_0_n_n.lhsIdx (ix2 a b)
      ((contrEquiv1 dot_S1x128_S8192x128_S1x8192_1_1_0_0_n_n 128 rfl rfl).symm c) = ix2 a c := by
    funext ax; apply Fin.ext
    match ax with
    | ⟨0, _⟩ => exact lhs_right_0 _ _
    | ⟨1, _⟩ => exact (lhs_right_1 _ _).trans c2
  have r2 : dot_S1x128_S8192x128_S1x8192_1_1_0_0_n_n.rhsIdx (ix2 a b)
      ((contrEquiv1 dot_S1x128_S8192x128_S1x8192_1_1_0_0_n_n 128 rfl rfl).symm c) = ix2 b c := by
    funext ax; apply Fin.ext
    match ax with
    | ⟨0, _⟩ => exact rhs_right_0 _ _
    | ⟨1, _⟩ => exact (rhs_right_1 _ _).trans c2
  rw [l2, r2]

/-! ## The aggregation of one half of the neighbours: a 128×4096 matrix of weights times a 4096×256 table -/

/-- The left operand's row is the result's row … -/
theorem lhs_agg_0 (j : S128x256.Idx) (k : dot_S128x4096_S4096x256_S128x256_1_0_0_1_n_n.contr.Idx) :
    ((dot_S128x4096_S4096x256_S128x256_1_0_0_1_n_n.lhsIdx j k 0 : Fin _) : ℕ) = (j 0).val := by
  simp [DotDims.lhsIdx, dot_S128x4096_S4096x256_S128x256_1_0_0_1_n_n]
  first | rfl | exact (Fin.val_eq_zero _).symm

/-- … its column the contracted coordinate. -/
theorem lhs_agg_1 (j : S128x256.Idx) (k : dot_S128x4096_S4096x256_S128x256_1_0_0_1_n_n.contr.Idx) :
    ((dot_S128x4096_S4096x256_S128x256_1_0_0_1_n_n.lhsIdx j k 1 : Fin _) : ℕ) = (k ⟨0, by decide⟩).val :=
  dot_S128x4096_S4096x256_S128x256_1_0_0_1_n_n.lhsIdx_val_of_single (cl := 1) rfl j k

/-- The right operand's first coordinate … -/
theorem rhs_agg_0 (j : S128x256.Idx) (k : dot_S128x4096_S4096x256_S128x256_1_0_0_1_n_n.contr.Idx) :
    ((dot_S128x4096_S4096x256_S128x256_1_0_0_1_n_n.rhsIdx j k 0 : Fin _) : ℕ) = (k ⟨0, by decide⟩).val :=
  dot_S128x4096_S4096x256_S128x256_1_0_0_1_n_n.rhsIdx_val_of_single (cr := 0) rfl j k

/-- … and its second. -/
theorem rhs_agg_1 (j : S128x256.Idx) (k : dot_S128x4096_S4096x256_S128x256_1_0_0_1_n_n.contr.Idx) :
    ((dot_S128x4096_S4096x256_S128x256_1_0_0_1_n_n.rhsIdx j k 1 : Fin _) : ℕ) = (j 1).val := by
  simp [DotDims.rhsIdx, dot_S128x4096_S4096x256_S128x256_1_0_0_1_n_n]
  first | rfl | exact (Fin.val_eq_zero _).symm

/-- The product into a zero accumulator read at (a, b): the sum over the 4096 contracted positions. -/
theorem matmul_agg_apply {φ₁ φ₂ : FTy} (x : FVec Ideal S128x4096 φ₁) (y : FVec Ideal S4096x256 φ₂) (a : Fin 128) (b : Fin 256) :
    FloatOps.matmul dot_S128x4096_S4096x256_S128x256_1_0_0_1_n_n none x y (constant (F := Ideal) S128x256 .f32 0x00000000#32) (ix2 a b)
      = ∑ c : Fin 4096, x (ix2 a c) * y (ix2 c b) := by
  refine (Ideal.matmul_constant_zero_apply dot_S128x4096_S4096x256_S128x256_1_0_0_1_n_n none x y (ix2 a b)).trans ?_
  rw [← Equiv.sum_comp (contrEquiv1 dot_S128x4096_S4096x256_S128x256_1_0_0_1_n_n 4096 rfl rfl).symm]
  refine Finset.sum_congr rfl fun c _ => ?_
  have c2 := contrEquiv1_symm_val dot_S128x4096_S4096x256_S128x256_1_0_0_1_n_n 4096 rfl rfl c
  have l2 : dot_S128x4096_S4096x256_S128x256_1_0_0_1_n_n.lhsIdx (ix2 a b)
      ((contrEquiv1 dot_S128x4096_S4096x256_S128x256_1_0_0_1_n_n 4096 rfl rfl).symm c) = ix2 a c := by
    funext ax; apply Fin.ext
    match ax with
    | ⟨0, _⟩ => exact lhs_agg_0 _ _
    | ⟨1, _⟩ => exact (lhs_agg_1 _ _).trans c2
  have r2 : dot_S128x4096_S4096x256_S128x256_1_0_0_1_n_n.rhsIdx (ix2 a b)
      ((contrEquiv1 dot_S128x4096_S4096x256_S128x256_1_0_0_1_n_n 4096 rfl rfl).symm c) = ix2 c b := by
    funext ax; apply Fin.ext
    match ax with
    | ⟨0, _⟩ => exact (rhs_agg_0 _ _).trans c2
    | ⟨1, _⟩ => exact rhs_agg_1 _ _
  rw [l2, r2]

end Pay

open Pay

/-! ## The stored values of the projection step, read at an index -/

/-- The projection read at (j, k): the sum over the 128 input features. -/
theorem pay5_apply (v6 : Vec Ideal S8192x128 .f32) (v7 : Vec Ideal S128x128 .f32) (j : Fin 8192) (k : Fin 128) :
    k0_pay5 (F := Ideal) v6 v7 (ix2 j k) = ∑ d : Fin 128, v6 (ix2 j d) * v7 (ix2 d k) := by
  unfold k0_pay5
  exact matmul_proj_apply v6 v7 j k

/-- The projection narrowed to 16 bits is, on the extended reals, the projection. -/
theorem pay6_apply (v6 : Vec Ideal S8192x128 .f32) (v7 : Vec Ideal S128x128 .f32) (j : Fin 8192) (k : Fin 128) :
    k0_pay6 (F := Ideal) v6 v7 (ix2 j k) = ∑ d : Fin 128, v6 (ix2 j d) * v7 (ix2 d k) := by
  unfold k0_pay6
  rw [shapeCast_self]
  exact pay5_apply v6 v7 j k

namespace Pay

/-- The 32-bit word of a natural below 2³² is the zero word exactly when the natural is zero. -/
theorem cmpi_eq_ofNat_zero (n : ℕ) (hn : n < 2 ^ 32) :
    IntOp.cmpi .eq (BitVec.ofNat 32 n) 0#32 = if n = 0 then 1#1 else 0#1 := by
  by_cases h : n = 0
  · subst h; rfl
  · have hne : BitVec.ofNat 32 n ≠ 0#32 := by
      intro h0
      have := congrArg BitVec.toNat h0
      simp [BitVec.toNat_ofNat] at this
      omega
    unfold IntOp.cmpi
    rw [if_neg h]
    show BitVec.ofBool (BitVec.ofNat 32 n == 0#32) = 0#1
    rw [beq_eq_false_iff_ne.mpr hne]; rfl

end Pay

/-- The ones column beside the features: 1 in column 0 of its 128, 0 elsewhere. -/
theorem pay7_apply (j : Fin 8192) (k : Fin 128) : k0_pay7 (F := Ideal) (ix2 j k) = if k.val = 0 then 1 else 0 := by
  unfold k0_pay7
  rw [shapeCast_self]
  show Scalar.select (IntOp.cmpi .eq (iota .tc S8192x128 32 [1] _ (ix2 j k)) 0#32)
    (Ideal.ofBits .f32 0x3F800000#32) (Ideal.ofBits .f32 0x00000000#32) = _
  rw [iota_single_apply]
  show Scalar.select (IntOp.cmpi .eq (BitVec.ofNat 32 k.val) 0#32) _ _ = _
  rw [cmpi_eq_ofNat_zero _ (by have := k.isLt; omega)]
  by_cases hk : k.val = 0
  · rw [if_pos hk, if_pos hk, select_one, Ideal.ofBits_one_f32]
  · rw [if_neg hk, if_neg hk, select_zero, Ideal.ofBits_zero_f32]

/-- The source logit read at row j: the projection's row contracted with the left attention vector. -/
theorem pay8_apply (v6 : Vec Ideal S8192x128 .f32) (v7 : Vec Ideal S128x128 .f32) (v23 : Vec Ideal S128x1 .f32) (j : Fin 8192) :
    k0_pay8 (F := Ideal) v6 v7 v23 (ix2 j (0 : Fin 1))
      = ∑ k : Fin 128, (∑ d : Fin 128, v6 (ix2 j d) * v7 (ix2 d k)) * v23 (ix2 k (0 : Fin 1)) := by
  unfold k0_pay8
  refine (matmul_left_apply (k0_pay5 (F := Ideal) v6 v7) v23 j 0).trans ?_
  refine Finset.sum_congr rfl fun k _ => ?_
  rw [pay5_apply]

/-- The exponential of the source logit. -/
theorem pay9_apply (v6 : Vec Ideal S8192x128 .f32) (v7 : Vec Ideal S128x128 .f32) (v23 : Vec Ideal S128x1 .f32) (j : Fin 8192) :
    k0_pay9 (F := Ideal) v6 v7 v23 (ix2 j (0 : Fin 1))
      = Ideal.exp (∑ k : Fin 128, (∑ d : Fin 128, v6 (ix2 j d) * v7 (ix2 d k)) * v23 (ix2 k (0 : Fin 1))) := by
  unfold k0_pay9
  rw [shapeCast_self]
  show Ideal.exp (k0_pay8 (F := Ideal) v6 v7 v23 (ix2 j (0 : Fin 1))) = _
  rw [pay8_apply]

/-- The exponential of the slope times the source logit. -/
theorem pay10_apply (v6 : Vec Ideal S8192x128 .f32) (v7 : Vec Ideal S128x128 .f32) (v23 : Vec Ideal S128x1 .f32) (j : Fin 8192) :
    k0_pay10 (F := Ideal) v6 v7 v23 (ix2 j (0 : Fin 1))
      = Ideal.exp (Cert.Spec.slope * ∑ k : Fin 128, (∑ d : Fin 128, v6 (ix2 j d) * v7 (ix2 d k)) * v23 (ix2 k (0 : Fin 1))) := by
  unfold k0_pay10
  rw [shapeCast_self]
  show Ideal.exp (Ideal.ofBits .f32 0x3E4CCCCD#32 * k0_pay8 (F := Ideal) v6 v7 v23 (ix2 j (0 : Fin 1))) = _
  rw [pay8_apply]
  rfl

/-! ## The stored values of the target logits, read at an index -/

/-- The right attention vector's row recast to its own shape is itself. -/
theorem pay11_eq (v37 : Vec Ideal S1x128 .f32) : k0_pay11 (F := Ideal) v37 = v37 := by
  unfold k0_pay11
  exact shapeCast_self _ _

/-- The target logit read at column j: the right attention vector contracted with row j of the projection. -/
theorem pay1_apply (v6 : Vec Ideal S8192x128 .f32) (v7 : Vec Ideal S128x128 .f32) (v37 : Vec Ideal S1x128 .f32) (j : Fin 8192) :
    k0_pay1 (F := Ideal) (k0_pay5 v6 v7) (k0_pay11 v37) (constant S1x8192 .f32 0x00000000#32) (ix2 (0 : Fin 1) j)
      = ∑ k : Fin 128, v37 (ix2 (0 : Fin 1) k) * (∑ d : Fin 128, v6 (ix2 j d) * v7 (ix2 d k)) := by
  unfold k0_pay1
  refine (matmul_right_apply (k0_pay11 (F := Ideal) v37) (k0_pay5 (F := Ideal) v6 v7) 0 j).trans ?_
  refine Finset.sum_congr rfl fun k _ => ?_
  rw [pay11_eq, pay5_apply]

/-- The exponential of the target logit. -/
theorem pay2_apply (v6 : Vec Ideal S8192x128 .f32) (v7 : Vec Ideal S128x128 .f32) (v37 : Vec Ideal S1x128 .f32) (j : Fin 8192) :
    k0_pay2 (F := Ideal) (k0_pay5 v6 v7) (k0_pay11 v37) (constant S1x8192 .f32 0x00000000#32) (ix2 (0 : Fin 1) j)
      = Ideal.exp (∑ k : Fin 128, v37 (ix2 (0 : Fin 1) k) * (∑ d : Fin 128, v6 (ix2 j d) * v7 (ix2 d k))) := by
  unfold k0_pay2
  rw [shapeCast_self]
  show Ideal.exp (k0_pay1 (F := Ideal) (k0_pay5 v6 v7) (k0_pay11 v37) (constant S1x8192 .f32 0x00000000#32) (ix2 (0 : Fin 1) j)) = _
  rw [pay1_apply]

/-- The exponential of the slope times the target logit. -/
theorem pay3_apply (v6 : Vec Ideal S8192x128 .f32) (v7 : Vec Ideal S128x128 .f32) (v37 : Vec Ideal S1x128 .f32) (j : Fin 8192) :
    k0_pay3 (F := Ideal) (k0_pay5 v6 v7) (k0_pay11 v37) (constant S1x8192 .f32 0x00000000#32) (ix2 (0 : Fin 1) j)
      = Ideal.exp (Cert.Spec.slope * ∑ k : Fin 128, v37 (ix2 (0 : Fin 1) k) * (∑ d : Fin 128, v6 (ix2 j d) * v7 (ix2 d k))) := by
  unfold k0_pay3
  rw [shapeCast_self]
  show Ideal.exp (Ideal.ofBits .f32 0x3E4CCCCD#32
    * k0_pay1 (F := Ideal) (k0_pay5 v6 v7) (k0_pay11 v37) (constant S1x8192 .f32 0x00000000#32) (ix2 (0 : Fin 1) j)) = _
  rw [pay1_apply]
  rfl

/-! ## The masked attention weights of one half of the neighbours -/

namespace Pay

/-- An [a, 1] column broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "the word is positive as a signed integer" is the `if` on its integer value. -/
theorem select_sgt_zero {α : Type} (a : BitVec 32) (x y : α) :
    Scalar.select (IntOp.cmpi .sgt a 0#32) x y = if 0 < a.toInt then x else y := by
  unfold Scalar.select IntOp.cmpi
  show (if BitVec.ofBool ((0#32).slt a) = 1 then x else y) = _
  by_cases h : 0 < a.toInt
  · have hs : (0#32).slt a = true := by simp [BitVec.slt, h]
    rw [hs, if_pos h]; rfl
  · have hs : (0#32).slt a = false := by simp [BitVec.slt, h]
    rw [hs, if_neg h]; rfl

/-- The weight of the edge from row p to neighbour k = o + j of the half that starts at o: on the graph the larger of
    the two products of exponentials, off it zero. -/
theorem weight_apply (o : ℕ) (h : S1x8192.Slices ![0, o] S1x4096)
    (v9 v12 : Vec Ideal S128x1 .bf16) (v13 v14 : Vec Ideal S1x8192 .bf16) (vadj : Vec Ideal S128x4096 .i32)
    (p : Fin 128) (j : Fin 4096) (k : Fin 8192) (hk : k.val = o + j.val) :
    select (cmpi .sgt vadj (broadcast S128x4096 0#32))
        (maximumf
          (mulf (broadcastTo S128x4096 v9 Facts₀.broadcasts_S128x1_S128x4096)
            (broadcastTo S128x4096 (extractStridedSlice S1x4096 ![0, o] v13 h) Facts₀.broadcasts_S1x4096_S128x4096))
          (mulf (broadcastTo S128x4096 v12 Facts₀.broadcasts_S128x1_S128x4096)
            (broadcastTo S128x4096 (extractStridedSlice S1x4096 ![0, o] v14 h) Facts₀.broadcasts_S1x4096_S128x4096)))
        (broadcast S128x4096 (Scalar.ofBits (F := Ideal) .bf16 0x0000#16)) (ix2 p j)
      = if 0 < (vadj (ix2 p j)).toInt then
          max (v9 (ix2 p (0 : Fin 1)) * v13 (ix2 (0 : Fin 1) k)) (v12 (ix2 p (0 : Fin 1)) * v14 (ix2 (0 : Fin 1) k))
        else 0 := by
  show Scalar.select (IntOp.cmpi .sgt (vadj (ix2 p j)) 0#32)
      (max (broadcastTo S128x4096 v9 _ (ix2 p j)
              * broadcastTo S128x4096 (extractStridedSlice S1x4096 ![0, o] v13 h) _ (ix2 p j))
           (broadcastTo S128x4096 v12 _ (ix2 p j)
              * broadcastTo S128x4096 (extractStridedSlice S1x4096 ![0, o] v14 h) _ (ix2 p j)))
      (Ideal.ofBits .bf16 0x0000#16) = _
  rw [select_sgt_zero, Ideal.ofBits_zero_bf16, broadcastTo_a1_ab_apply v9, broadcastTo_a1_ab_apply v12,
    broadcastTo_1b_ab_apply, broadcastTo_1b_ab_apply,
    slice2_axis1_apply o v13 h 0 j k hk, slice2_axis1_apply o v14 h 0 j k hk]

end Pay

/-- The right half's masked weights read at (p, j): neighbour 4096 + j. -/
theorem pay13_apply (v9 v12 : Vec Ideal S128x1 .bf16) (v13 v14 : Vec Ideal S1x8192 .bf16) (v40 : Vec Ideal S128x4096 .i32)
    (p : Fin 128) (j : Fin 4096) :
    k0_pay13 (F := Ideal) v9 v12 v13 v14 v40 (ix2 p j)
      = if 0 < (v40 (ix2 p j)).toInt then
          max (v9 (ix2 p (0 : Fin 1)) * v13 (ix2 (0 : Fin 1) (Cert.Spec.hi j)))
            (v12 (ix2 p (0 : Fin 1)) * v14 (ix2 (0 : Fin 1) (Cert.Spec.hi j)))
        else 0 := by
  unfold k0_pay13
  exact weight_apply 4096 _ v9 v12 v13 v14 v40 p j (Cert.Spec.hi j) (Nat.add_comm _ _)

/-- The left half's aggregation read at (p, k'): neighbours 0 to 4095, weighted, contracted with the table's rows. -/
theorem pay12_apply (v9 v12 : Vec Ideal S128x1 .bf16) (v13 v14 : Vec Ideal S1x8192 .bf16) (v24 : Vec Ideal S128x4096 .i32)
    (v29 : Vec Ideal S4096x256 .bf16) (p : Fin 128) (k' : Fin 256) :
    k0_pay12 (F := Ideal) v9 v12 v13 v14 v24 v29 (ix2 p k')
      = ∑ j : Fin 4096, (if 0 < (v24 (ix2 p j)).toInt then
            max (v9 (ix2 p (0 : Fin 1)) * v13 (ix2 (0 : Fin 1) (Cert.Spec.lo j)))
              (v12 (ix2 p (0 : Fin 1)) * v14 (ix2 (0 : Fin 1) (Cert.Spec.lo j)))
          else 0) * v29 (ix2 j k') := by
  unfold k0_pay12
  refine (matmul_agg_apply (φ₁ := .bf16) (φ₂ := .bf16) _ v29 p k').trans ?_
  refine Finset.sum_congr rfl fun j _ => ?_
  refine congrArg (· * v29 (ix2 j k')) ?_
  exact weight_apply 0 _ v9 v12 v13 v14 v24 p j (Cert.Spec.lo j) (Nat.zero_add _).symm

/-! ## The normalised output block -/

/-- the masked weights contracted with the two halves of a [·,256] table -/
def accOf (v9 v12 : Vec Ideal S128x1 .bf16) (v13 v14 : Vec Ideal S1x8192 .bf16) (v24 v40 : Vec Ideal S128x4096 .i32) (v29 v45 : Vec Ideal S4096x256 .bf16) (p : Fin 128) (k' : Fin 256) : EReal :=
  (∑ j : Fin 4096, (if 0 < (v24 (ix2 p j)).toInt then max (v9 (ix2 p (0 : Fin 1)) * v13 (ix2 (0 : Fin 1) (Cert.Spec.lo j))) (v12 (ix2 p (0 : Fin 1)) * v14 (ix2 (0 : Fin 1) (Cert.Spec.lo j))) else 0) * v29 (ix2 j k'))
    + (∑ j : Fin 4096, (if 0 < (v40 (ix2 p j)).toInt then max (v9 (ix2 p (0 : Fin 1)) * v13 (ix2 (0 : Fin 1) (Cert.Spec.hi j))) (v12 (ix2 p (0 : Fin 1)) * v14 (ix2 (0 : Fin 1) (Cert.Spec.hi j))) else 0) * v45 (ix2 j k'))

namespace Pay

/-- The left half's aggregation plus the right half's, read at (p, k'). -/
theorem acc_apply (v9 v12 : Vec Ideal S128x1 .bf16) (v13 v14 : Vec Ideal S1x8192 .bf16) (v24 v40 : Vec Ideal S128x4096 .i32)
    (v29 v45 : Vec Ideal S4096x256 .bf16) (p : Fin 128) (k' : Fin 256) :
    addf (k0_pay12 (F := Ideal) v9 v12 v13 v14 v24 v29)
        (FloatOps.matmul dot_S128x4096_S4096x256_S128x256_1_0_0_1_n_n none (φ₁ := .bf16) (φ₂ := .bf16) (k0_pay13 (F := Ideal) v9 v12 v13 v14 v40) v45
          (constant (F := Ideal) S128x256 .f32 0x00000000#32)) (ix2 p k')
      = accOf v9 v12 v13 v14 v24 v40 v29 v45 p k' := by
  show k0_pay12 (F := Ideal) v9 v12 v13 v14 v24 v29 (ix2 p k')
    + FloatOps.matmul dot_S128x4096_S4096x256_S128x256_1_0_0_1_n_n none (φ₁ := .bf16) (φ₂ := .bf16) (k0_pay13 (F := Ideal) v9 v12 v13 v14 v40) v45
        (constant (F := Ideal) S128x256 .f32 0x00000000#32) (ix2 p k') = _
  rw [pay12_apply, matmul_agg_apply (φ₁ := .bf16) (φ₂ := .bf16)]
  unfold accOf
  refine congrArg (_ + ·) (Finset.sum_congr rfl fun j _ => ?_)
  rw [pay13_apply]

/-- The division of the feature columns by the floored ones column, plus the bias, over any accumulated table. -/
theorem epilogue_apply (V : FVec Ideal S128x256 .f32) (v54 : Vec Ideal S1x128 .f32) (p q : Fin 128) :
    addf
        (divf (extractStridedSlice S128x128 ![0, 0] V Facts₀.slices_S128x256_o0_0_S128x128)
          (broadcastTo S128x128
            (maximumf (extractStridedSlice S128x1 ![0, 128] V Facts₀.slices_S128x256_o0_128_S128x1)
              (broadcast S128x1 (Scalar.ofBits (F := Ideal) .f32 0x2B8CBCCC#32)))
            Facts₀.broadcasts_S128x1_S128x128))
        (broadcastTo S128x128 (shapeCast S1x128 v54 Facts₀.shapeCasts_S1x128_S1x128) Facts₀.broadcasts_S1x128_S128x128) (ix2 p q)
      = Ideal.div (V (ix2 p ⟨q.val, by omega⟩)) (max (V (ix2 p ⟨128, by omega⟩)) Cert.Spec.floor)
          + v54 (ix2 (0 : Fin 1) q) := by
  show Ideal.div (extractStridedSlice S128x128 ![0, 0] V _ (ix2 p q))
        (broadcastTo S128x128
          (maximumf (extractStridedSlice S128x1 ![0, 128] V _) (broadcast S128x1 (Ideal.ofBits .f32 0x2B8CBCCC#32)))
          _ (ix2 p q))
      + broadcastTo S128x128 (shapeCast S1x128 v54 _) _ (ix2 p q) = _
  rw [broadcastTo_a1_ab_apply, broadcastTo_1b_ab_apply, shapeCast_self,
    slice2_axis1_apply 0 V _ p q ⟨q.val, by omega⟩ (Nat.zero_add _).symm]
  show Ideal.div _ (max (extractStridedSlice S128x1 ![0, 128] V _ (ix2 p (0 : Fin 1))) _) + _ = _
  rw [slice2_axis1_apply 128 V _ p (0 : Fin 1) ⟨128, by omega⟩ rfl]
  rfl

end Pay

/-- The output block read at (p, q): feature column q of the accumulated table over its floored ones column, plus
    the bias. -/
theorem pay4_apply (v9 v12 : Vec Ideal S128x1 .bf16) (v13 v14 : Vec Ideal S1x8192 .bf16) (v24 v40 : Vec Ideal S128x4096 .i32)
    (v29 v45 : Vec Ideal S4096x256 .bf16) (v54 : Vec Ideal S1x128 .f32) (p q : Fin 128) :
    k0_pay4 (F := Ideal) (k0_pay12 v9 v12 v13 v14 v24 v29) (k0_pay13 v9 v12 v13 v14 v40) v45 v54 (ix2 p q)
      = Ideal.div (accOf v9 v12 v13 v14 v24 v40 v29 v45 p ⟨q.val, by omega⟩)
          (max (accOf v9 v12 v13 v14 v24 v40 v29 v45 p ⟨128, by omega⟩) Cert.Spec.floor) + v54 (ix2 (0 : Fin 1) q) := by
  unfold k0_pay4
  refine (epilogue_apply _ v54 p q).trans ?_
  exact congrArg₂ (fun x y => Ideal.div x (max y Cert.Spec.floor) + v54 (ix2 (0 : Fin 1) q))
    (acc_apply v9 v12 v13 v14 v24 v40 v29 v45 p ⟨q.val, by omega⟩)
    (acc_apply v9 v12 v13 v14 v24 v40 v29 v45 p ⟨128, by omega⟩)

end Cert.KernelIdeal.Hand

end
-- ==== Proof.KI.ValScr.lean ====
/- What the five scratch buffers hold after the projection step (grid point 0), index by index.

   At point 0 the windows of h, W, wl and wrᵀ are whole arrays, so the blocks the step reads are the arrays
   themselves — the block of wrᵀ through the transpose the host wrote before the region: (0, k) ↦ wr(k). Each of the
   four exponential vectors is stored in one piece that fills its buffer, so the buffer reads back as that piece:
   exp el, exp (c·el) down a column, exp er, exp (c·er) along a row, with el(j) = Σ_k X(j, k)·wl(k),
   er(j) = Σ_k X(j, k)·wr(k) and X = h·W. The first buffer is stored in two pieces of 128 columns each: columns
   0 to 127 hold X, column 128 holds 1 and columns 129 to 255 hold 0 — the features beside a ones column. -/
import proofs.«130185_g11553462026822_cont_9to1c4b_334_25_alg».proof.Proof.KI.Data
import proofs.«130185_g11553462026822_cont_9to1c4b_334_25_alg».proof.Proof.KI.Args
import proofs.«130185_g11553462026822_cont_9to1c4b_334_25_alg».proof.Proof.KI.Pay
import proofs.«130185_g11553462026822_cont_9to1c4b_334_25_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open ValueIdx

variable (m : (ℓ : Loc nD τ sig) → Buf (Elt Ideal) ℓ)

/-! ## The blocks the projection step reads are whole arrays -/

/-- The windows of h, W, wl and wrᵀ sit at block index 0 on both axes at every grid point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The block of h is h. -/
theorem blk2_apply (c : Dev nD) (t : Fin cfg0.N) (j : Fin 8192) (d : Fin 128) :
    iblk (F := Ideal) m c 2 t (ix2 j d) = m ((c : Thread nD τ).loc main_arg0) (ix2 j d) := by
  obtain ⟨e0, e1, -⟩ := idx_whole t
  show V m c main_arg0 (((cfg0.win 2).blk t).view.emb (ix2 j d)) = _
  rw [V_main_arg0]
  refine congrArg _ ?_
  funext a; apply Fin.ext
  match a with
  | ⟨0, _⟩ => show win0_2.index t (0 : Fin 2) * 8192 + 1 * j.val = j.val; omega
  | ⟨1, _⟩ => show win0_2.index t (1 : Fin 2) * 128 + 1 * d.val = d.val; omega

/-- The block of W is W. -/
theorem blk3_apply (c : Dev nD) (t : Fin cfg0.N) (d : Fin 128) (k : Fin 128) :
    iblk (F := Ideal) m c 3 t (ix2 d k) = m ((c : Thread nD τ).loc main_arg2) (ix2 d k) := by
  obtain ⟨-, -, e0, e1, -⟩ := idx_whole t
  show V m c main_arg2 (((cfg0.win 3).blk t).view.emb (ix2 d k)) = _
  rw [V_main_arg2]
  refine congrArg _ ?_
  funext a; apply Fin.ext
  match a with
  | ⟨0, _⟩ => show win0_3.index t (0 : Fin 2) * 128 + 1 * d.val = d.val; omega
  | ⟨1, _⟩ => show win0_3.index t (1 : Fin 2) * 128 + 1 * k.val = k.val; omega

/-- The block of wl is wl. -/
theorem blk4_apply (c : Dev nD) (t : Fin cfg0.N) (k : Fin 128) :
    iblk (F := Ideal) m c 4 t (ix2 k (0 : Fin 1)) = m ((c : Thread nD τ).loc main_arg3) (ix2 k (0 : Fin 1)) := by
  obtain ⟨-, -, -, -, e0, e1, -⟩ := idx_whole t
  show V m c main_arg3 (((cfg0.win 4).blk t).view.emb (ix2 k (0 : Fin 1))) = _
  rw [V_main_arg3]
  refine congrArg _ ?_
  funext a; apply Fin.ext
  match a with
  | ⟨0, _⟩ => show win0_4.index t (0 : Fin 2) * 128 + 1 * k.val = k.val; omega
  | ⟨1, _⟩ => show win0_4.index t (1 : Fin 2) * 1 + 1 * (0 : Fin 1).val = (0 : Fin 1).val; omega

/-- The array window 5 reads is the transpose of wr, written by the host before the region. -/
theorem V_wrT (c : Dev nD) :
    (V m c main_call0_v0 : S1x128.Idx → EReal)
      = transpose S1x128 [1, 0] (m ((c : Thread nD τ).loc main_arg4)) transposes_S128x1_S1x128_1_0 := by
  dsimp only [V, V0, hostOps0]; after_results; rfl

/-- The block of wrᵀ at (0, k) is wr at (k, 0). -/
theorem blk5_apply (c : Dev nD) (t : Fin cfg0.N) (k : Fin 128) :
    iblk (F := Ideal) m c 5 t (ix2 (0 : Fin 1) k) = m ((c : Thread nD τ).loc main_arg4) (ix2 k (0 : Fin 1)) := by
  obtain ⟨-, -, -, -, -, -, e0, e1⟩ := idx_whole t
  show V m c main_call0_v0 (((cfg0.win 5).blk t).view.emb (ix2 (0 : Fin 1) k)) = _
  have he : ((cfg0.win 5).blk t).view.emb (ix2 (0 : Fin 1) k) = ix2 (0 : Fin 1) k := by
    funext a; apply Fin.ext
    match a with
    | ⟨0, _⟩ => show win0_5.index t (0 : Fin 2) * 1 + 1 * (0 : Fin 1).val = (0 : Fin 1).val; omega
    | ⟨1, _⟩ => show win0_5.index t (1 : Fin 2) * 128 + 1 * k.val = k.val; omega
  rw [he, V_wrT]
  exact transpose_ix2_apply _ _ (0 : Fin 1) k

/-! ## The four exponential vectors: one piece each, filling its buffer -/

theorem zero2 : (![0, 0] : Fin 2 → Nat) = fun _ => 0 := funext fun a => by fin_cases a <;> rfl

set_option maxHeartbeats 400000 in
/-- Scratch 1 reads back as its one store. -/
theorem scr1_eq (c : Dev nD) :
    scr1 (F := Ideal) m c = k0_pay9 (iblk m c 2 t₀) (iblk m c 3 t₀) (iblk m c 4 t₀) := by
  unfold scr1 sout0_A_1
  rw [View.read_writes_junk_eq_canon, kernelRun0_A_LS1 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀), View.canon_unit_zero (S := S8192x1) zero2]

set_option maxHeartbeats 400000 in
/-- Scratch 2 reads back as its one store. -/
theorem scr2_eq (c : Dev nD) :
    scr2 (F := Ideal) m c = k0_pay10 (iblk m c 2 t₀) (iblk m c 3 t₀) (iblk m c 4 t₀) := by
  unfold scr2 sout0_A_2
  rw [View.read_writes_junk_eq_canon, kernelRun0_A_LS2 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀), View.canon_unit_zero (S := S8192x1) zero2]

set_option maxHeartbeats 400000 in
/-- Scratch 3 reads back as its one store. -/
theorem scr3_eq (c : Dev nD) :
    scr3 (F := Ideal) m c
      = k0_pay2 (k0_pay5 (iblk m c 2 t₀) (iblk m c 3 t₀)) (k0_pay11 (iblk m c 5 t₀)) (constant S1x8192 .f32 0x00000000#32) := by
  unfold scr3 sout0_A_3
  rw [View.read_writes_junk_eq_canon, kernelRun0_A_LS3 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀), View.canon_unit_zero (S := S1x8192) zero2]

set_option maxHeartbeats 400000 in
/-- Scratch 4 reads back as its one store. -/
theorem scr4_eq (c : Dev nD) :
    scr4 (F := Ideal) m c
      = k0_pay3 (k0_pay5 (iblk m c 2 t₀) (iblk m c 3 t₀)) (k0_pay11 (iblk m c 5 t₀)) (constant S1x8192 .f32 0x00000000#32) := by
  unfold scr4 sout0_A_4
  rw [View.read_writes_junk_eq_canon, kernelRun0_A_LS4 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀), View.canon_unit_zero (S := S1x8192) zero2]

/-- The source logit computed from vectors whose entries are those of h, W and wl is the source logit el. -/
theorem el_of_entries (x2 : Vec Ideal S8192x128 .f32) (x3 : Vec Ideal S128x128 .f32) (x4 : Vec Ideal S128x1 .f32)
    (h : Fin 8192 → Fin 128 → EReal) (W : Fin 128 → Fin 128 → EReal) (wl : Fin 128 → EReal)
    (h2 : ∀ j d, x2 (ix2 j d) = h j d) (h3 : ∀ d k, x3 (ix2 d k) = W d k) (h4 : ∀ k, x4 (ix2 k (0 : Fin 1)) = wl k)
    (j : Fin 8192) :
    (∑ k : Fin 128, (∑ d : Fin 128, x2 (ix2 j d) * x3 (ix2 d k)) * x4 (ix2 k (0 : Fin 1))) = Cert.Spec.EL h W wl j := by
  unfold Cert.Spec.EL Cert.Spec.X
  refine Finset.sum_congr rfl fun k _ => ?_
  rw [h4 k]
  refine congrArg (· * wl k) (Finset.sum_congr rfl fun d _ => ?_)
  rw [h2 j d, h3 d k]

/-- The target logit computed with the attention vector on the left of each product, from vectors whose entries are
    those of h, W and wr (as a row), is the target logit er. -/
theorem er_of_entries (x2 : Vec Ideal S8192x128 .f32) (x3 : Vec Ideal S128x128 .f32) (x5 : Vec Ideal S1x128 .f32)
    (h : Fin 8192 → Fin 128 → EReal) (W : Fin 128 → Fin 128 → EReal) (wr : Fin 128 → EReal)
    (h2 : ∀ j d, x2 (ix2 j d) = h j d) (h3 : ∀ d k, x3 (ix2 d k) = W d k) (h5 : ∀ k, x5 (ix2 (0 : Fin 1) k) = wr k)
    (j : Fin 8192) :
    (∑ k : Fin 128, x5 (ix2 (0 : Fin 1) k) * (∑ d : Fin 128, x2 (ix2 j d) * x3 (ix2 d k))) = Cert.Spec.ER h W wr j := by
  unfold Cert.Spec.ER Cert.Spec.X
  refine Finset.sum_congr rfl fun k _ => ?_
  rw [h5 k, mul_comm]
  refine congrArg (· * wr k) (Finset.sum_congr rfl fun d _ => ?_)
  rw [h2 j d, h3 d k]

set_option maxHeartbeats 400000 in
/-- Scratch 1 at row j: exp of the source logit. -/
theorem scr1_apply (c : Dev nD) (j : Fin 8192) :
    scr1 (F := Ideal) m c (ix2 j (0 : Fin 1)) = Ideal.exp (Cert.Spec.EL (hA m c) (WA m c) (wlA m c) j) := by
  rw [scr1_eq]
  refine (pay9_apply (iblk m c 2 t₀) (iblk m c 3 t₀) (iblk m c 4 t₀) j).trans ?_
  exact congrArg Ideal.exp (el_of_entries (iblk (F := Ideal) m c 2 t₀) (iblk (F := Ideal) m c 3 t₀) (iblk (F := Ideal) m c 4 t₀) (hA m c) (WA m c) (wlA m c)
      (blk2_apply m c t₀) (blk3_apply m c t₀) (blk4_apply m c t₀) j)

set_option maxHeartbeats 400000 in
/-- Scratch 2 at row j: exp of the slope times the source logit. -/
theorem scr2_apply (c : Dev nD) (j : Fin 8192) :
    scr2 (F := Ideal) m c (ix2 j (0 : Fin 1)) = Ideal.exp (Cert.Spec.slope * Cert.Spec.EL (hA m c) (WA m c) (wlA m c) j) := by
  rw [scr2_eq]
  refine (pay10_apply (iblk m c 2 t₀) (iblk m c 3 t₀) (iblk m c 4 t₀) j).trans ?_
  exact congrArg (fun s => Ideal.exp (Cert.Spec.slope * s)) (el_of_entries (iblk (F := Ideal) m c 2 t₀) (iblk (F := Ideal) m c 3 t₀) (iblk (F := Ideal) m c 4 t₀) (hA m c) (WA m c) (wlA m c)
      (blk2_apply m c t₀) (blk3_apply m c t₀) (blk4_apply m c t₀) j)

set_option maxHeartbeats 400000 in
/-- Scratch 3 at column j: exp of the target logit. -/
theorem scr3_apply (c : Dev nD) (j : Fin 8192) :
    scr3 (F := Ideal) m c (ix2 (0 : Fin 1) j) = Ideal.exp (Cert.Spec.ER (hA m c) (WA m c) (wrA m c) j) := by
  rw [scr3_eq]
  refine (pay2_apply (iblk m c 2 t₀) (iblk m c 3 t₀) (iblk m c 5 t₀) j).trans ?_
  exact congrArg Ideal.exp (er_of_entries (iblk (F := Ideal) m c 2 t₀) (iblk (F := Ideal) m c 3 t₀) (iblk (F := Ideal) m c 5 t₀) (hA m c) (WA m c) (wrA m c)
      (blk2_apply m c t₀) (blk3_apply m c t₀) (blk5_apply m c t₀) j)

set_option maxHeartbeats 400000 in
/-- Scratch 4 at column j: exp of the slope times the target logit. -/
theorem scr4_apply (c : Dev nD) (j : Fin 8192) :
    scr4 (F := Ideal) m c (ix2 (0 : Fin 1) j) = Ideal.exp (Cert.Spec.slope * Cert.Spec.ER (hA m c) (WA m c) (wrA m c) j) := by
  rw [scr4_eq]
  refine (pay3_apply (iblk m c 2 t₀) (iblk m c 3 t₀) (iblk m c 5 t₀) j).trans ?_
  exact congrArg (fun s => Ideal.exp (Cert.Spec.slope * s)) (er_of_entries (iblk (F := Ideal) m c 2 t₀) (iblk (F := Ideal) m c 3 t₀) (iblk (F := Ideal) m c 5 t₀) (hA m c) (WA m c) (wrA m c)
      (blk2_apply m c t₀) (blk3_apply m c t₀) (blk5_apply m c t₀) j)

/-! ## A buffer filled by two stores -/

section Canon

variable {Val : EltTy → Type} [∀ e, Nonempty (Val e)] {e : EltTy}

/-- After two stores an index of the later one reads the later one's value, -/
theorem canon_pair_last {s : Shape} (r1 r0 : Rect s) (P1 : r1.shape.Idx → Val e) (P0 : r0.shape.Idx → Val e)
    (x : r1.shape.Idx) :
    View.canon [(⟨r1, P1⟩ : View.Piece Val s e), ⟨r0, P0⟩] (r1.emb x) = P1 x :=
  View.canon_cons_emb r1 P1 _ x

/-- and an index of the earlier one that the later one does not touch reads the earlier one's. -/
theorem canon_pair_first {s : Shape} (r1 r0 : Rect s) (P1 : r1.shape.Idx → Val e) (P0 : r0.shape.Idx → Val e)
    (x : r0.shape.Idx) (h : r0.emb x ∉ r1.set) :
    View.canon [(⟨r1, P1⟩ : View.Piece Val s e), ⟨r0, P0⟩] (r0.emb x) = P0 x := by
  rw [View.canon_cons_of_not_mem _ _ h]
  exact View.canon_cons_emb r0 P0 [] x

/-- The left half of the 256 columns: columns 0 to 127. -/
abbrev colsL (inb0 : ∀ a, (![0, 0] : Fin 2 → Nat) a + S8192x128.size a ≤ S8192x256.size a) : Rect S8192x256 :=
  Rect.unit (s := S8192x256) ![0, 0] S8192x128.size inb0
/-- The right half: columns 128 to 255. -/
abbrev colsR (inb1 : ∀ a, (![0, 128] : Fin 2 → Nat) a + S8192x128.size a ≤ S8192x256.size a) : Rect S8192x256 :=
  Rect.unit (s := S8192x256) ![0, 128] S8192x128.size inb1

set_option maxHeartbeats 400000 in
/-- Column k of the left half is column k of the buffer. -/
theorem colsL_emb (inb0 : ∀ a, (![0, 0] : Fin 2 → Nat) a + S8192x128.size a ≤ S8192x256.size a)
    (j : Fin 8192) (k : Fin 128) (k' : Fin 256) (hk : k'.val = k.val) :
    (colsL inb0).emb (ix2 j k) = ix2 j k' := by
  funext a; apply Fin.ext
  match a with
  | ⟨0, _⟩ => show 0 + 1 * j.val = j.val; omega
  | ⟨1, _⟩ => show 0 + 1 * k.val = k'.val; omega

set_option maxHeartbeats 400000 in
/-- Column k of the right half is column 128 + k of the buffer. -/
theorem colsR_emb (inb1 : ∀ a, (![0, 128] : Fin 2 → Nat) a + S8192x128.size a ≤ S8192x256.size a)
    (j : Fin 8192) (k : Fin 128) (k' : Fin 256) (hk : k'.val = 128 + k.val) :
    (colsR inb1).emb (ix2 j k) = ix2 j k' := by
  funext a; apply Fin.ext
  match a with
  | ⟨0, _⟩ => show 0 + 1 * j.val = j.val; omega
  | ⟨1, _⟩ => show 128 + 1 * k.val = k'.val; omega

set_option maxHeartbeats 400000 in
/-- A column below 128 is outside the right half. -/
theorem not_mem_colsR (inb1 : ∀ a, (![0, 128] : Fin 2 → Nat) a + S8192x128.size a ≤ S8192x256.size a)
    (j : Fin 8192) (k' : Fin 256) (hk : k'.val < 128) : (ix2 j k' : S8192x256.Idx) ∉ (colsR inb1).set := by
  intro hmem
  obtain ⟨q, -, hq⟩ := (LoadRect.mem_set _).mp hmem (1 : Fin 2)
  have hq' : k'.val = 128 + 1 * q := hq
  omega

set_option maxHeartbeats 400000 in
/-- The 256 columns filled by two stores of 128 columns, the right half last: a column below 128 reads the left
    store, a column from 128 on reads the right store at that column less 128. -/
theorem canon_two_halves
    (inb1 : ∀ a, (![0, 128] : Fin 2 → Nat) a + S8192x128.size a ≤ S8192x256.size a)
    (inb0 : ∀ a, (![0, 0] : Fin 2 → Nat) a + S8192x128.size a ≤ S8192x256.size a)
    (P7 P6 : S8192x128.Idx → Val e) (j : Fin 8192) (k' : Fin 256) :
    View.canon [(⟨colsR inb1, P7⟩ : View.Piece Val S8192x256 e), ⟨colsL inb0, P6⟩] (ix2 j k')
      = if hk : k'.val < 128 then P6 (ix2 j ⟨k'.val, hk⟩)
        else P7 (ix2 j ⟨k'.val - 128, by have := k'.isLt; omega⟩) := by
  by_cases hk : k'.val < 128
  · rw [dif_pos hk, ← colsL_emb inb0 j ⟨k'.val, hk⟩ k' rfl]
    refine canon_pair_first (colsR inb1) (colsL inb0) P7 P6 (ix2 j ⟨k'.val, hk⟩) ?_
    rw [colsL_emb inb0 j ⟨k'.val, hk⟩ k' rfl]
    exact not_mem_colsR inb1 j k' hk
  · rw [dif_neg hk, ← colsR_emb inb1 j ⟨k'.val - 128, by have := k'.isLt; omega⟩ k' (by show k'.val = 128 + (k'.val - 128); omega)]
    exact canon_pair_last (colsR inb1) (colsL inb0) P7 P6 _

end Canon

/-! ## The projected features beside a ones column -/

set_option maxHeartbeats 400000 in
/-- Scratch 0 reads back as its two stores: the ones-then-zeros block in the right half over the projection in the left. -/
theorem scr0_canon (c : Dev nD) :
    scr0 (F := Ideal) m c
      = View.canon [⟨colsR inb_S8192x256_S8192x128_0_128, k0_pay7 (F := Ideal)⟩,
          ⟨colsL inb_S8192x256_S8192x128_0_0, k0_pay6 (F := Ideal) (iblk m c 2 t₀) (iblk m c 3 t₀)⟩] := by
  unfold scr0 sout0_A_0
  rw [View.read_writes_junk_eq_canon, kernelRun0_A_LS0 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) scM0_3 (Memref.isWhole_whole _) scM0_4 (Memref.isWhole_whole _) hc0_t₀ hc1_t₀ (iblk m c 2 t₀) (iblk m c 3 t₀) (iblk m c 4 t₀) (iblk m c 5 t₀)]

set_option maxHeartbeats 400000 in
/-- Scratch 0 at (j, k'): the left store below column 128, the right store from column 128 on. -/
theorem scr0_halves (c : Dev nD) (j : Fin 8192) (k' : Fin 256) :
    scr0 (F := Ideal) m c (ix2 j k')
      = if hk : k'.val < 128 then k0_pay6 (F := Ideal) (iblk m c 2 t₀) (iblk m c 3 t₀) (ix2 j ⟨k'.val, hk⟩)
        else k0_pay7 (F := Ideal) (ix2 j ⟨k'.val - 128, by have := k'.isLt; omega⟩) :=
  (congrFun (scr0_canon m c) (ix2 j k')).trans
    (canon_two_halves (Val := Elt Ideal) (e := .bf16) inb_S8192x256_S8192x128_0_128 inb_S8192x256_S8192x128_0_0
      (k0_pay7 (F := Ideal)) (k0_pay6 (F := Ideal) (iblk m c 2 t₀) (iblk m c 3 t₀)) j k')

/-- The projection computed from vectors whose entries are those of h and W is X = h·W. -/
theorem x_of_entries (x2 : Vec Ideal S8192x128 .f32) (x3 : Vec Ideal S128x128 .f32)
    (h : Fin 8192 → Fin 128 → EReal) (W : Fin 128 → Fin 128 → EReal)
    (h2 : ∀ j d, x2 (ix2 j d) = h j d) (h3 : ∀ d k, x3 (ix2 d k) = W d k) (j : Fin 8192) (k : Fin 128) :
    (∑ d : Fin 128, x2 (ix2 j d) * x3 (ix2 d k)) = Cert.Spec.X h W j k := by
  unfold Cert.Spec.X
  refine Finset.sum_congr rfl fun d _ => ?_
  rw [h2 j d, h3 d k]

set_option maxHeartbeats 400000 in
/-- Scratch 0 at (j, k'): the projected features X = h·W in columns 0 to 127, one in column 128, zero after. -/
theorem scr0_apply (c : Dev nD) (j : Fin 8192) (k' : Fin 256) :
    scr0 (F := Ideal) m c (ix2 j k') = Cert.Spec.XA (hA m c) (WA m c) j k' := by
  refine (scr0_halves m c j k').trans ?_
  unfold Cert.Spec.XA
  by_cases hk : k'.val < 128
  · rw [dif_pos hk, dif_pos hk]
    refine (pay6_apply (iblk m c 2 t₀) (iblk m c 3 t₀) j ⟨k'.val, hk⟩).trans ?_
    exact x_of_entries (iblk (F := Ideal) m c 2 t₀) (iblk (F := Ideal) m c 3 t₀) (hA m c) (WA m c)
      (blk2_apply m c t₀) (blk3_apply m c t₀) j ⟨k'.val, hk⟩
  · rw [dif_neg hk, dif_neg hk]
    refine (pay7_apply j ⟨k'.val - 128, by have := k'.isLt; omega⟩).trans ?_
    by_cases h128 : k'.val = 128
    · rw [if_pos (show k'.val - 128 = 0 by omega), if_pos h128]
    · rw [if_neg (show ¬ k'.val - 128 = 0 by omega), if_neg h128]

end Cert.KernelIdeal.Hand

end
-- ==== Proof.KI.ValOut.lean ====
/- The output array of the attention layer after the kernel region's run, index by index.

   A grid point t ≥ 1 stores one block of 128 rows of the output: row p of the block is row i = 128·(t−1) + p of the
   array. The value it stores at (p, q) is acc(p, q) / max (acc(p, 128), floor) + bias(q), where acc contracts the
   masked weights of row i — over the two halves of the 8192 neighbours — with the projected features beside the
   ones column. The weights read the two exponential columns at row i (the load starts at row 128·(t−1)), the two
   exponential rows, and the two adjacency blocks of the point, which are rows 128·(t−1) … of the adjacency at
   neighbours 0 … 4095 and 4096 … 8191; the bias block is the bias as a row (a reshape of the sixth argument made
   before the region). With the scratch contents the projection step left — the features beside the ones column,
   exp el, exp (c·el), exp er, exp (c·er) — this is the fused arrangement Kform of the six arguments at (i, q).

   The points t ≥ 1 are exactly the points whose block is written back, block t−1 of the array; row r of the array
   lies in the block of point r / 128 + 1, so the blocks cover the array and it ends holding Kform everywhere. -/
import proofs.«130185_g11553462026822_cont_9to1c4b_334_25_alg».proof.Proof.KI.ValScr
import proofs.«130185_g11553462026822_cont_9to1c4b_334_25_alg».proof.Proof.KI.Data
import proofs.«130185_g11553462026822_cont_9to1c4b_334_25_alg».proof.Proof.KI.Args
import proofs.«130185_g11553462026822_cont_9to1c4b_334_25_alg».proof.Proof.KI.Pay
import proofs.«130185_g11553462026822_cont_9to1c4b_334_25_alg».proof.Proof.Spec
import Idealize.ShloMosaic.Lib.Pipeline.Value
import Idealize.ShloMosaic.Lib.Pipeline.FrameBody
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open ValueIdx

variable (m : (ℓ : Loc nD τ sig) → Buf (Elt Ideal) ℓ)

namespace ValOut

/-- The printed index maps and the row offset of the two exponential columns, decided over the grid. -/
theorem idx_facts : ∀ t : Fin cfg0.N, t.val ≠ 0 →
    win0_0.index t (0 : Fin 2) = t.val - 1 ∧ win0_0.index t (1 : Fin 2) = 0
  ∧ win0_1.index t (0 : Fin 2) = t.val - 1 ∧ win0_1.index t (1 : Fin 2) = 1
  ∧ win0_6.index t (0 : Fin 2) = 0 ∧ win0_6.index t (1 : Fin 2) = 0
  ∧ win0_7.index t (0 : Fin 2) = t.val - 1 ∧ win0_7.index t (1 : Fin 2) = 0
  ∧ (k0_off1 (grid0.coords t)) 0 = 128 * (t.val - 1) ∧ (k0_off1 (grid0.coords t)) 1 = 0 :=
  (by decide +kernel : ∀ t : Fin grid0.N, _)

/-- The left adjacency block of a point t ≥ 1: rows 128·(t−1) … of the adjacency, neighbours 0 … 4095. -/
theorem iblk0_apply (c : Dev nD) (t : Fin cfg0.N) (ht : t.val ≠ 0) (p : Fin 128) (j : Fin 4096) (i : Fin 8192)
    (hi : i.val = 128 * (t.val - 1) + p.val) :
    (iblk m c 0 t : Vec Ideal S128x4096 .i32) (ix2 p j) = adjA m c i (Cert.Spec.lo j) := by
  obtain ⟨e0, e1, -⟩ := idx_facts t ht
  unfold iblk
  rw [View.read_apply]
  show V m c main_arg1 _ = m (c.tc.loc main_arg1) _
  rw [V_main_arg1]
  congr 1
  funext a; apply Fin.ext
  match a with
  | ⟨0, _⟩ => show win0_0.index t (0 : Fin 2) * 128 + 1 * p.val = i.val; rw [e0, hi]; omega
  | ⟨1, _⟩ => show win0_0.index t (1 : Fin 2) * 4096 + 1 * j.val = j.val; rw [e1]; omega

/-- The right adjacency block of a point t ≥ 1: the same rows, neighbours 4096 … 8191. -/
theorem iblk1_apply (c : Dev nD) (t : Fin cfg0.N) (ht : t.val ≠ 0) (p : Fin 128) (j : Fin 4096) (i : Fin 8192)
    (hi : i.val = 128 * (t.val - 1) + p.val) :
    (iblk m c 1 t : Vec Ideal S128x4096 .i32) (ix2 p j) = adjA m c i (Cert.Spec.hi j) := by
  obtain ⟨-, -, e0, e1, -⟩ := idx_facts t ht
  unfold iblk
  rw [View.read_apply]
  show V m c main_arg1 _ = m (c.tc.loc main_arg1) _
  rw [V_main_arg1]
  congr 1
  funext a; apply Fin.ext
  match a with
  | ⟨0, _⟩ => show win0_1.index t (0 : Fin 2) * 128 + 1 * p.val = i.val; rw [e0, hi]; omega
  | ⟨1, _⟩ => show win0_1.index t (1 : Fin 2) * 4096 + 1 * j.val = j.val + 4096; rw [e1]; omega

/-- The bias window's array is the bias as a row: the host reshape of the sixth argument. -/
theorem V_bias (c : Dev nD) :
    (V m c main_call0_v1 : S1x128.Idx → EReal)
      = shapeCast S1x128 (m ((c : Thread nD τ).loc main_arg5) : S128.Idx → EReal) shapeCasts_S128_S1x128 := by
  dsimp only [V, V0, hostOps0]; after_results; rfl

/-- The bias block (the whole row) read at column q. -/
theorem iblk6_apply (c : Dev nD) (t : Fin cfg0.N) (ht : t.val ≠ 0) (q : Fin 128) :
    (iblk m c 6 t : Vec Ideal S1x128 .f32) (ix2 (0 : Fin 1) q) = bA m c q := by
  obtain ⟨-, -, -, -, e0, e1, -⟩ := idx_facts t ht
  unfold iblk
  rw [View.read_apply]
  show (V m c main_call0_v1 : S1x128.Idx → EReal) _ = m (c.tc.loc main_arg5) _
  rw [V_bias]
  refine shapeCast_apply _ _ _ (ix1 q) ?_
  rw [Shape.rowMajor_val_one, Shape.rowMajor_val_two]
  show q.val = (win0_6.index t (0 : Fin 2) * 1 + 1 * 0) * 128 + (win0_6.index t (1 : Fin 2) * 128 + 1 * q.val)
  rw [e0, e1]; omega

/-! ## A load through a unit-stride rectangle, read at an index -/

/-- 128 rows from row r of a one-column table. -/
theorem ld_rows_col (X : Vec Ideal S8192x1 .bf16) (off : Fin 2 → Nat) (inb : ∀ a, off a + S128x1.size a ≤ S8192x1.size a)
    (r : ℕ) (h0 : off 0 = r) (h1 : off 1 = 0) (p : Fin 128) (i : Fin 8192) (hi : i.val = r + p.val) :
    View.ld X (Rect.unit (s := S8192x1) off S128x1.size inb) (ix2 p (0 : Fin 1)) = X (ix2 i (0 : Fin 1)) := by
  show X _ = X _
  congr 1
  funext a; apply Fin.ext
  match a with
  | ⟨0, _⟩ => show off 0 + 1 * p.val = i.val; omega
  | ⟨1, _⟩ => show off 1 + 1 * 0 = 0; omega

/-- 4096 rows from row o of the [8192, 256] table. -/
theorem ld_rows_tab (X : Vec Ideal S8192x256 .bf16) (o : ℕ) (inb : ∀ a, (![o, 0] : Fin 2 → Nat) a + S4096x256.size a ≤ S8192x256.size a)
    (j : Fin 4096) (k' : Fin 256) (i : Fin 8192) (hi : i.val = o + j.val) :
    View.ld X (Rect.unit (s := S8192x256) ![o, 0] S4096x256.size inb) (ix2 j k') = X (ix2 i k') := by
  show X _ = X _
  congr 1
  funext a; apply Fin.ext
  match a with
  | ⟨0, _⟩ => show o + 1 * j.val = i.val; omega
  | ⟨1, _⟩ => show 0 + 1 * k'.val = k'.val; omega

/-! ## One output block is the fused arrangement at its rows -/

/-- The value a row-block step stores at (p, q) — the table accumulated over the two halves of the neighbours, its
    feature column q over its floored ones column, plus the bias —, when the five tables read as the features beside
    the ones column and the four exponential vectors, the two integer blocks as row i = r + p of the adjacency at the
    two halves, and the row as the bias: the fused arrangement at (i, q). -/
theorem block_apply
    (h : Fin 8192 → Fin 128 → EReal) (adj : Fin 8192 → Fin 8192 → BitVec 32) (W : Fin 128 → Fin 128 → EReal) (wl wr b : Fin 128 → EReal)
    (xs0 : Vec Ideal S8192x256 .bf16) (xs1 xs2 : Vec Ideal S8192x1 .bf16) (xs3 xs4 : Vec Ideal S1x8192 .bf16)
    (x0 x1 : Vec Ideal S128x4096 .i32) (x6 : Vec Ideal S1x128 .f32)
    (off : Fin 2 → Nat) (inb : ∀ a, off a + S128x1.size a ≤ S8192x1.size a)
    (inlo : ∀ a, (![0, 0] : Fin 2 → Nat) a + S4096x256.size a ≤ S8192x256.size a)
    (inhi : ∀ a, (![4096, 0] : Fin 2 → Nat) a + S4096x256.size a ≤ S8192x256.size a)
    (r : ℕ) (h0 : off 0 = r) (h1 : off 1 = 0)
    (hs0 : ∀ j k', xs0 (ix2 j k') = Cert.Spec.XA h W j k')
    (hs1 : ∀ j, xs1 (ix2 j (0 : Fin 1)) = Ideal.exp (Cert.Spec.EL h W wl j))
    (hs2 : ∀ j, xs2 (ix2 j (0 : Fin 1)) = Ideal.exp (Cert.Spec.slope * Cert.Spec.EL h W wl j))
    (hs3 : ∀ j, xs3 (ix2 (0 : Fin 1) j) = Ideal.exp (Cert.Spec.ER h W wr j))
    (hs4 : ∀ j, xs4 (ix2 (0 : Fin 1) j) = Ideal.exp (Cert.Spec.slope * Cert.Spec.ER h W wr j))
    (p q : Fin 128) (i : Fin 8192) (hi : i.val = r + p.val)
    (hx0 : ∀ j, x0 (ix2 p j) = adj i (Cert.Spec.lo j)) (hx1 : ∀ j, x1 (ix2 p j) = adj i (Cert.Spec.hi j))
    (hx6 : x6 (ix2 (0 : Fin 1) q) = b q) :
    k0_pay4 (F := Ideal)
        (k0_pay12 (View.ld xs1 (Rect.unit (s := S8192x1) off S128x1.size inb)) (View.ld xs2 (Rect.unit (s := S8192x1) off S128x1.size inb)) xs3 xs4 x0
          (View.ld xs0 (Rect.unit (s := S8192x256) ![0, 0] S4096x256.size inlo)))
        (k0_pay13 (View.ld xs1 (Rect.unit (s := S8192x1) off S128x1.size inb)) (View.ld xs2 (Rect.unit (s := S8192x1) off S128x1.size inb)) xs3 xs4 x1)
        (View.ld xs0 (Rect.unit (s := S8192x256) ![4096, 0] S4096x256.size inhi)) x6 (ix2 p q)
      = Cert.Spec.Kform h adj W wl wr b i q := by
  refine (pay4_apply _ _ _ _ _ _ _ _ _ p q).trans ?_
  have hacc : ∀ k' : Fin 256,
      accOf (View.ld xs1 (Rect.unit (s := S8192x1) off S128x1.size inb)) (View.ld xs2 (Rect.unit (s := S8192x1) off S128x1.size inb)) xs3 xs4 x0 x1
          (View.ld xs0 (Rect.unit (s := S8192x256) ![0, 0] S4096x256.size inlo)) (View.ld xs0 (Rect.unit (s := S8192x256) ![4096, 0] S4096x256.size inhi)) p k'
        = Cert.Spec.Kacc h adj W wl wr i k' := by
    intro k'
    unfold accOf Cert.Spec.Kacc Cert.Spec.attK
    rw [ld_rows_col xs1 off inb r h0 h1 p i hi, ld_rows_col xs2 off inb r h0 h1 p i hi, hs1, hs2]
    congr 1
    · refine Finset.sum_congr rfl fun j _ => ?_
      rw [hx0, hs3, hs4, ld_rows_tab xs0 0 inlo j k' (Cert.Spec.lo j) (Nat.zero_add _).symm, hs0]
    · refine Finset.sum_congr rfl fun j _ => ?_
      rw [hx1, hs3, hs4, ld_rows_tab xs0 4096 inhi j k' (Cert.Spec.hi j) (Nat.add_comm _ _), hs0]
  unfold Cert.Spec.Kform
  rw [hacc, hacc, hx6]

/-! ## The output block of a point t ≥ 1 -/

theorem hz : (![0, 0] : Fin 2 → Nat) = fun _ => 0 := funext fun a => by fin_cases a <;> rfl

/-- What a point t ≥ 1 leaves in the output window's buffer, read at (p, q): the fused arrangement at row
    128·(t−1) + p and column q. -/
theorem outsAt0_apply (c : Dev nD) (t : Fin cfg0.N) (ht : t.val ≠ 0) (p q : Fin 128) (i : Fin 8192)
    (hi : i.val = 128 * (t.val - 1) + p.val) :
    (outsAt0 m c t : Vec Ideal S128x128 .f32) (ix2 p q)
      = Cert.Spec.Kform (hA m c) (adjA m c) (WA m c) (wlA m c) (wrA m c) (bA m c) i q := by
  obtain ⟨-, -, -, -, -, -, -, -, eo0, eo1⟩ := idx_facts t ht
  rw [outsAt0_pos m c t ht]
  unfold out0_B_7
  rw [View.read_writes_junk_eq_canon, kernelRun0_B_L7_ld, View.canon_unit_zero hz]
  exact block_apply (hA m c) (adjA m c) (WA m c) (wlA m c) (wrA m c) (bA m c)
    (scr0 m c) (scr1 m c) (scr2 m c) (scr3 m c) (scr4 m c) (iblk m c 0 t) (iblk m c 1 t) (iblk m c 6 t)
    (k0_off1 (grid0.coords t)) (k0_off1_inb (grid0.coords t) ((hcond0_1 t).mpr ht)) inb_S8192x256_S4096x256_0_0 inb_S8192x256_S4096x256_4096_0
    (128 * (t.val - 1)) eo0 eo1
    (scr0_apply m c) (scr1_apply m c) (scr2_apply m c) (scr3_apply m c) (scr4_apply m c)
    p q i hi (fun j => iblk0_apply m c t ht p j i hi) (fun j => iblk1_apply m c t ht p j i hi) (iblk6_apply m c t ht q)

/-! ## From the blocks to the array -/

/-- The output array as the fused arrangement of the six arguments, index by index. -/
def Gout (c : Dev nD) : S8192x128.Idx → EReal := fun i =>
  Cert.Spec.Kform (hA m c) (adjA m c) (WA m c) (wlA m c) (wrA m c) (bA m c) (i 0) (i 1)

/-- The points that write the output window's block back are the points t ≥ 1. -/
theorem flush0_7 : ∀ t : Fin cfg0.N, (cfg0.win 7).flush t = true ↔ t.val ≠ 0 :=
  (by decide +kernel : ∀ t : Fin grid0.N, (cfg0.win 7).flush t = true ↔ t.val ≠ 0)

/-- What point t ≥ 1 writes back is its block of the fused arrangement. -/
theorem flushed_eq (c : Dev nD) (t : Fin cfg0.N) (hf : (cfg0.win 7).flush t = true) :
    (dats m 0 c).flushed 7 t = ((cfg0.win 7).blk t).view.read (Elt Ideal) (Gout m c) := by
  have ht : t.val ≠ 0 := (flush0_7 t).mp hf
  obtain ⟨-, -, -, -, -, -, e0, e1, -⟩ := idx_facts t ht
  show (cfg0.win 7).cut (grid0.coords t) ((dats m 0 c).after 7 t) = _
  rw [after0_7]
  funext y
  rw [View.read_apply]
  have hy0 : (y 0).val < 128 := (y 0).isLt
  have hy1 : (y 1).val < 128 := (y 1).isLt
  have hN : t.val < 65 := Nat.lt_of_lt_of_eq t.isLt N_0
  refine Eq.trans ?_ ((outsAt0_apply m c t ht ⟨(y 0).val, hy0⟩ ⟨(y 1).val, hy1⟩ ⟨128 * (t.val - 1) + (y 0).val, by omega⟩ rfl).trans ?_)
  · show (outsAt0 m c t : Vec Ideal S128x128 .f32) _ = (outsAt0 m c t : Vec Ideal S128x128 .f32) _
    congr 1
    funext a
    match a with
    | ⟨0, _⟩ => rfl
    | ⟨1, _⟩ => rfl
  · show Cert.Spec.Kform _ _ _ _ _ _ _ _ = Cert.Spec.Kform _ _ _ _ _ _ _ _
    congr 1
    · apply Fin.ext
      show 128 * (t.val - 1) + (y 0).val = win0_7.index t (0 : Fin 2) * 128 + 1 * (y 0).val
      rw [e0]; omega
    · apply Fin.ext
      show (y 1).val = win0_7.index t (1 : Fin 2) * 128 + 1 * (y 1).val
      rw [e1]; omega

/-- An index of the array is in point t's block iff each coordinate is in the block's range on its axis. -/
theorem mem_blk (t : Fin cfg0.N) (i : S8192x128.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v0).slice (win0_7.rect t)).set ↔ _
  rw [View.set_slice_whole, Rect.mem_set_unit]
  exact Iff.rfl

/-- Row r of the array is in the block point r / 128 + 1 writes back. -/
theorem cover (i : S8192x128.Idx) : ∃ t : Fin cfg0.N, (cfg0.win 7).flush t = true ∧ i ∈ ((cfg0.win 7).blk t).view.set := by
  have hi0 : (i 0).val < 8192 := (i 0).isLt
  have hi1 : (i 1).val < 128 := (i 1).isLt
  have hN : cfg0.N = 65 := N_0
  let t : Fin cfg0.N := ⟨(i 0).val / 128 + 1, by rw [hN]; omega⟩
  have ht : t.val ≠ 0 := Nat.succ_ne_zero _
  obtain ⟨-, -, -, -, -, -, e0, e1, -⟩ := idx_facts t ht
  refine ⟨t, (flush0_7 t).mpr ht, ?_⟩
  rw [mem_blk]
  intro a
  have htv : t.val - 1 = (i 0).val / 128 := rfl
  match a with
  | ⟨0, _⟩ => show win0_7.index t (0 : Fin 2) * 128 ≤ (i 0).val ∧ (i 0).val < win0_7.index t (0 : Fin 2) * 128 + 128; rw [e0, htv]; omega
  | ⟨1, _⟩ => show win0_7.index t (1 : Fin 2) * 128 ≤ (i 1).val ∧ (i 1).val < win0_7.index t (1 : Fin 2) * 128 + 128; rw [e1]; omega

/-- THE OUTPUT ARRAY after the run is the fused arrangement of the six arguments. -/
theorem final (c : Dev nD) : (dats (F := Ideal) m 0 c).arrAt 7 cfg0.N = Gout m c :=
  (dats m 0 c).arrAt_eq_of_cover 7 (Gout m c) (fun t hf => flushed_eq m c t hf) (cover)

end ValOut

/-- The output array after the run, read at (i, k): the fused arrangement of the six arguments there. -/
theorem final_apply (c : Dev nD) (i : Fin 8192) (k : Fin 128) :
    (dats (F := Ideal) m 0 c).arrAt 7 cfg0.N (ix2 i k) = Cert.Spec.Kform (hA m c) (adjA m c) (WA m c) (wlA m c) (wrA m c) (bA m c) i k :=
  congrFun (ValOut.final m c) (ix2 i k)

end Cert.KernelIdeal.Hand

end
-- ==== Proof.Ref.Term.lean ====
import proofs.«130185_g11553462026822_cont_9to1c4b_334_25_alg».proof.ReferenceIdeal
import Idealize.ShloMosaic.PureOps.Ideal

/-! # The reference's result as a pure term

@main's thirty-seven operations composed, at the ideal instance: each operation one `let`, in
@main's order, the callees' operations (`leaky_relu`, the `where` it calls, the second `where`)
inlined where they are called. The result is
`(A / max (Σ_j |A|, ε)) · (x·W) + b` with `A = [min(adj,1) > 0] ? exp (leaky_relu (s + tᵀ)) : 0`,
`s = (x·W)·a_src`, `t = (x·W)·a_dst`. -/

noncomputable section

namespace Cert.ReferenceIdeal.Hand

open Idealize.ShloMosaic Cert.ReferenceIdeal
open Cert.ReferenceIdeal.Facts₀ Cert.ReferenceIdeal.Facts

variable [Cert.ReferenceIdeal.Facts]

/-- @main's result `%27` as the composed term of its six arguments. -/
noncomputable def refOut
    (a0 : (⟨S8192x128, .f32⟩ : BufTy).Contents (Elt Ideal))
    (a1 : (⟨S8192x8192, .i32⟩ : BufTy).Contents (Elt Ideal))
    (a2 : (⟨S128x128, .f32⟩ : BufTy).Contents (Elt Ideal))
    (a3 a4 : (⟨S128x1, .f32⟩ : BufTy).Contents (Elt Ideal))
    (a5 : (⟨S128, .f32⟩ : BufTy).Contents (Elt Ideal)) :
    (⟨S8192x128, .f32⟩ : BufTy).Contents (Elt Ideal) :=
  -- %c = 1, %0 its broadcast, %1 = min(adj, 1)
  let c : (⟨S_, .i32⟩ : BufTy).Contents (Elt Ideal) := constantI S_ 32 1#32
  let v0 : (⟨S8192x8192, .i32⟩ : BufTy).Contents (Elt Ideal) := broadcastInDim S8192x8192 ![] bcast_S_S8192x8192 c
  let v1 : (⟨S8192x8192, .i32⟩ : BufTy).Contents (Elt Ideal) := minsi a1 v0
  -- %2 = x·W, %3 = %2·a_src, %5 = %2·a_dst, each flattened to a vector (%4, %6)
  let v2 : (⟨S8192x128, .f32⟩ : BufTy).Contents (Elt Ideal) := Host.dotGeneral (F := Ideal) (φ₁ := .f32) (φ₂ := .f32) dot_S8192x128_S128x128_S8192x128_1_0_0_1_n_n none a0 a2
  let v3 : (⟨S8192x1, .f32⟩ : BufTy).Contents (Elt Ideal) := Host.dotGeneral (F := Ideal) (φ₁ := .f32) (φ₂ := .f32) dot_S8192x128_S128x1_S8192x1_1_0_0_1_n_n none v2 a3
  let v4 : (⟨S8192, .f32⟩ : BufTy).Contents (Elt Ideal) := fun i => shapeCast S8192 v3 shapeCasts_S8192x1_S8192 i
  let v5 : (⟨S8192x1, .f32⟩ : BufTy).Contents (Elt Ideal) := Host.dotGeneral (F := Ideal) (φ₁ := .f32) (φ₂ := .f32) dot_S8192x128_S128x1_S8192x1_1_0_0_1_n_n none v2 a4
  let v6 : (⟨S8192, .f32⟩ : BufTy).Contents (Elt Ideal) := fun i => shapeCast S8192 v5 shapeCasts_S8192x1_S8192 i
  -- %11 = s as a column plus t as a row, both broadcast to the square
  let v7 : (⟨S8192x1, .f32⟩ : BufTy).Contents (Elt Ideal) := broadcastInDim S8192x1 ![0] bcast_S8192_S8192x1_0 v4
  let v8 : (⟨S1x8192, .f32⟩ : BufTy).Contents (Elt Ideal) := broadcastInDim S1x8192 ![1] bcast_S8192_S1x8192_1 v6
  let v9 : (⟨S8192x8192, .f32⟩ : BufTy).Contents (Elt Ideal) := broadcastInDim S8192x8192 ![0, 1] bcast_S8192x1_S8192x8192_0_1 v7
  let v10 : (⟨S8192x8192, .f32⟩ : BufTy).Contents (Elt Ideal) := broadcastInDim S8192x8192 ![0, 1] bcast_S1x8192_S8192x8192_0_1 v8
  let v11 : (⟨S8192x8192, .f32⟩ : BufTy).Contents (Elt Ideal) := addf (F := Ideal) (φ := .f32) v9 v10
  let cst : (⟨S_, .f32⟩ : BufTy).Contents (Elt Ideal) := constant (F := Ideal) S_ .f32 0x3E4CCCCD#32
  -- leaky_relu(%11, 0.2): e ≥ 0 ? e : 0.2·e, the select being the callee `where`'s one operation
  let call0_cst : (⟨S_, .f32⟩ : BufTy).Contents (Elt Ideal) := constant (F := Ideal) S_ .f32 0x00000000#32
  let call0_v0 : (⟨S8192x8192, .f32⟩ : BufTy).Contents (Elt Ideal) := broadcastInDim S8192x8192 ![] bcast_S_S8192x8192 call0_cst
  let call0_v1 : (⟨S8192x8192, .i1⟩ : BufTy).Contents (Elt Ideal) := cmpf (F := Ideal) (φ := .f32) .oge v11 call0_v0
  let call0_v2 : (⟨S_, .f32⟩ : BufTy).Contents (Elt Ideal) := id cst
  let call0_v3 : (⟨S8192x8192, .f32⟩ : BufTy).Contents (Elt Ideal) := broadcastInDim S8192x8192 ![] bcast_S_S8192x8192 call0_v2
  let call0_v4 : (⟨S8192x8192, .f32⟩ : BufTy).Contents (Elt Ideal) := mulf (F := Ideal) (φ := .f32) call0_v3 v11
  let v12 : (⟨S8192x8192, .f32⟩ : BufTy).Contents (Elt Ideal) := select call0_v1 v11 call0_v4
  -- %13 = exp, %15 = [min(adj,1) > 0]
  let v13 : (⟨S8192x8192, .f32⟩ : BufTy).Contents (Elt Ideal) := Host.exp (F := Ideal) (φ := .f32) v12
  let c_0 : (⟨S_, .i32⟩ : BufTy).Contents (Elt Ideal) := constantI S_ 32 0#32
  let v14 : (⟨S8192x8192, .i32⟩ : BufTy).Contents (Elt Ideal) := broadcastInDim S8192x8192 ![] bcast_S_S8192x8192 c_0
  let v15 : (⟨S8192x8192, .i1⟩ : BufTy).Contents (Elt Ideal) := cmpi .sgt v1 v14
  let cst_1 : (⟨S_, .f32⟩ : BufTy).Contents (Elt Ideal) := constant (F := Ideal) S_ .f32 0x00000000#32
  -- the second `where`: %16 = mask ? exp(…) : 0
  let call1_v0 : (⟨S8192x8192, .f32⟩ : BufTy).Contents (Elt Ideal) := broadcastInDim S8192x8192 ![] bcast_S_S8192x8192 cst_1
  let v16 : (⟨S8192x8192, .f32⟩ : BufTy).Contents (Elt Ideal) := select v15 v13 call1_v0
  -- the row sums of |%16|, floored at 1e-12, divide %16
  let v17 : (⟨S8192x8192, .f32⟩ : BufTy).Contents (Elt Ideal) := Host.absf (F := Ideal) (φ := .f32) v16
  let cst_2 : (⟨S_, .f32⟩ : BufTy).Contents (Elt Ideal) := constant (F := Ideal) S_ .f32 0x00000000#32
  let v18 : (⟨S8192, .f32⟩ : BufTy).Contents (Elt Ideal) := Host.reduceAdd (F := Ideal) (φ := .f32) v17 cst_2 reducesTo_S8192x8192_S8192_d1 h_S_
  let v19 : (⟨S8192x1, .f32⟩ : BufTy).Contents (Elt Ideal) := broadcastInDim S8192x1 ![0] bcast_S8192_S8192x1_0 v18
  let cst_3 : (⟨S_, .f32⟩ : BufTy).Contents (Elt Ideal) := constant (F := Ideal) S_ .f32 0x2B8CBCCC#32
  let v20 : (⟨S8192x1, .f32⟩ : BufTy).Contents (Elt Ideal) := broadcastInDim S8192x1 ![] bcast_S_S8192x1 cst_3
  let v21 : (⟨S8192x1, .f32⟩ : BufTy).Contents (Elt Ideal) := maximumf (F := Ideal) (φ := .f32) v19 v20
  let v22 : (⟨S8192x8192, .f32⟩ : BufTy).Contents (Elt Ideal) := broadcastInDim S8192x8192 ![0, 1] bcast_S8192x1_S8192x8192_0_1 v21
  let v23 : (⟨S8192x8192, .f32⟩ : BufTy).Contents (Elt Ideal) := Host.divf (F := Ideal) (φ := .f32) v16 v22
  -- %24 = the normalised weights times x·W; %27 adds the bias row
  let v24 : (⟨S8192x128, .f32⟩ : BufTy).Contents (Elt Ideal) := Host.dotGeneral (F := Ideal) (φ₁ := .f32) (φ₂ := .f32) dot_S8192x8192_S8192x128_S8192x128_1_0_0_1_n_n none v23 v2
  let v25 : (⟨S1x128, .f32⟩ : BufTy).Contents (Elt Ideal) := broadcastInDim S1x128 ![1] bcast_S128_S1x128_1 a5
  let v26 : (⟨S8192x128, .f32⟩ : BufTy).Contents (Elt Ideal) := broadcastInDim S8192x128 ![0, 1] bcast_S1x128_S8192x128_0_1 v25
  let v27 : (⟨S8192x128, .f32⟩ : BufTy).Contents (Elt Ideal) := addf (F := Ideal) (φ := .f32) v24 v26
  v27

end Cert.ReferenceIdeal.Hand

end
-- ==== Proof.Ref.Run.lean ====
import proofs.«130185_g11553462026822_cont_9to1c4b_334_25_alg».proof.Proof.Ref.Term
import proofs.«130185_g11553462026822_cont_9to1c4b_334_25_alg».proof.Proof.Gen.ReferenceIdeal
import Idealize.ShloMosaic.PureOps.Ideal
import Idealize.ShloMosaic.Lib.StableHlo.Run

/-! # The reference's run

@main of the reference is a straight line of host operations once its three calls are unfolded:
forty-one operations, the callees' written over the calls' buffer records. Every weakly fair
execution terminates; the result buffer holds the composed term `refOut` of the six arguments'
launch contents, and no operation writes an argument. -/

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

section Line

variable {F : FTy → Type} [FloatOps F]

/-- @main's operations in order, the calls unfolded: `leaky_relu`'s six and the select of the
    `where` it calls, over the record `main_call0`; the second `where`'s two over `main_call1`. -/
abbrev ops : List (HloOp τ sig (Elt F)) :=
  [ nullary main_c (constantI S_ 32 1#32),
    unary main_c main_v0 (broadcastInDim S8192x8192 ![] bcast_S_S8192x8192 : (⟨S_, .i32⟩ : BufTy).Contents (Elt F) → (⟨S8192x8192, .i32⟩ : BufTy).Contents (Elt F)),
    binary main_arg1 main_v0 main_v1 (minsi : (⟨S8192x8192, .i32⟩ : BufTy).Contents (Elt F) → (⟨S8192x8192, .i32⟩ : BufTy).Contents (Elt F) → (⟨S8192x8192, .i32⟩ : BufTy).Contents (Elt F)),
    binary main_arg0 main_arg2 main_v2 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_v2 main_arg3 main_v3 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    reshape main_v3 main_v4 rfl shapeCasts_S8192x1_S8192,
    binary main_v2 main_arg4 main_v5 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    reshape main_v5 main_v6 rfl shapeCasts_S8192x1_S8192,
    unary main_v4 main_v7 (broadcastInDim S8192x1 ![0] bcast_S8192_S8192x1_0 : (⟨S8192, .f32⟩ : BufTy).Contents (Elt F) → (⟨S8192x1, .f32⟩ : BufTy).Contents (Elt F)),
    unary main_v6 main_v8 (broadcastInDim S1x8192 ![1] bcast_S8192_S1x8192_1 : (⟨S8192, .f32⟩ : BufTy).Contents (Elt F) → (⟨S1x8192, .f32⟩ : BufTy).Contents (Elt F)),
    unary main_v7 main_v9 (broadcastInDim S8192x8192 ![0, 1] bcast_S8192x1_S8192x8192_0_1 : (⟨S8192x1, .f32⟩ : BufTy).Contents (Elt F) → (⟨S8192x8192, .f32⟩ : BufTy).Contents (Elt F)),
    unary main_v8 main_v10 (broadcastInDim S8192x8192 ![0, 1] bcast_S1x8192_S8192x8192_0_1 : (⟨S1x8192, .f32⟩ : BufTy).Contents (Elt F) → (⟨S8192x8192, .f32⟩ : BufTy).Contents (Elt F)),
    binary main_v9 main_v10 main_v11 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v11 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v11 : TRef sig ⟨S8192x8192, .f32⟩) main_call0.v4 mulf,
    TRef.ternary main_call0.v1 (.of main_v11 : TRef sig ⟨S8192x8192, .f32⟩) main_call0.v4 main_call0.call0.v0 select,
    unary main_v12 main_v13 (Host.exp : (⟨S8192x8192, .f32⟩ : BufTy).Contents (Elt F) → (⟨S8192x8192, .f32⟩ : BufTy).Contents (Elt F)),
    nullary main_c_0 (constantI S_ 32 0#32),
    unary main_c_0 main_v14 (broadcastInDim S8192x8192 ![] bcast_S_S8192x8192 : (⟨S_, .i32⟩ : BufTy).Contents (Elt F) → (⟨S8192x8192, .i32⟩ : BufTy).Contents (Elt F)),
    binary main_v1 main_v14 main_v15 (cmpi .sgt : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0x00000000#32),
    TRef.unary (.of main_cst_1 : TRef sig ⟨S_, .f32⟩) main_call1.v0 (broadcastInDim S8192x8192 ![] bcast_S_S8192x8192),
    TRef.ternary (.of main_v15 : TRef sig ⟨S8192x8192, .i1⟩) (.of main_v13 : TRef sig ⟨S8192x8192, .f32⟩) main_call1.v0 main_call1.v1 select,
    unary main_v16 main_v17 (Host.absf : (⟨S8192x8192, .f32⟩ : BufTy).Contents (Elt F) → (⟨S8192x8192, .f32⟩ : BufTy).Contents (Elt F)),
    nullary main_cst_2 (constant S_ .f32 0x00000000#32),
    binary main_v17 main_cst_2 main_v18 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v18 main_v19 (broadcastInDim S8192x1 ![0] bcast_S8192_S8192x1_0 : (⟨S8192, .f32⟩ : BufTy).Contents (Elt F) → (⟨S8192x1, .f32⟩ : BufTy).Contents (Elt F)),
    nullary main_cst_3 (constant S_ .f32 0x2B8CBCCC#32),
    unary main_cst_3 main_v20 (broadcastInDim S8192x1 ![] bcast_S_S8192x1 : (⟨S_, .f32⟩ : BufTy).Contents (Elt F) → (⟨S8192x1, .f32⟩ : BufTy).Contents (Elt F)),
    binary main_v19 main_v20 main_v21 (maximumf : (⟨S8192x1, .f32⟩ : BufTy).Contents (Elt F) → (⟨S8192x1, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v16 main_v22 main_v23 (Host.divf : (⟨S8192x8192, .f32⟩ : BufTy).Contents (Elt F) → (⟨S8192x8192, .f32⟩ : BufTy).Contents (Elt F) → (⟨S8192x8192, .f32⟩ : BufTy).Contents (Elt F)),
    binary main_v23 main_v2 main_v24 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    unary main_arg5 main_v25 (broadcastInDim S1x128 ![1] bcast_S128_S1x128_1 : (⟨S128, .f32⟩ : BufTy).Contents (Elt F) → (⟨S1x128, .f32⟩ : BufTy).Contents (Elt F)),
    unary main_v25 main_v26 (broadcastInDim S8192x128 ![0, 1] bcast_S1x128_S8192x128_0_1 : (⟨S1x128, .f32⟩ : BufTy).Contents (Elt F) → (⟨S8192x128, .f32⟩ : BufTy).Contents (Elt F)),
    binary main_v24 main_v26 main_v27 (addf : (⟨S8192x128, .f32⟩ : BufTy).Contents (Elt F) → (⟨S8192x128, .f32⟩ : BufTy).Contents (Elt F) → (⟨S8192x128, .f32⟩ : BufTy).Contents (Elt F)) ]

set_option maxRecDepth 4096 in
/-- @main is that straight line: the callees' definitions unfolded at their calls, sequencing
    reassociated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., binary_bufs_sub .., binary_bufs_sub .., reshape_bufs_sub .., binary_bufs_sub .., reshape_bufs_sub .., unary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., ternary_bufs_sub .., unary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub ..⟩

/-- Every weakly fair execution of @main terminates with each buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-- The fold at the result buffer is `refOut` of the arguments' contents: each operation's result
    read at its own buffer, every other buffer as it was; the typed references' transports are the
    identity at these literal buffers. -/
theorem out_eq (V : Valuation τ sig (Elt Ideal)) :
    after (ops (F := Ideal)) V (main_v27 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- No operation writes an argument buffer. -/
theorem arg0_eq (V : Valuation τ sig (Elt Ideal)) :
    after (ops (F := Ideal)) V (main_arg0 : DevRef τ sig) = V (main_arg0 : DevRef τ sig) := by after_results_simp
theorem arg1_eq (V : Valuation τ sig (Elt Ideal)) :
    after (ops (F := Ideal)) V (main_arg1 : DevRef τ sig) = V (main_arg1 : DevRef τ sig) := by after_results_simp
theorem arg2_eq (V : Valuation τ sig (Elt Ideal)) :
    after (ops (F := Ideal)) V (main_arg2 : DevRef τ sig) = V (main_arg2 : DevRef τ sig) := by after_results_simp
theorem arg3_eq (V : Valuation τ sig (Elt Ideal)) :
    after (ops (F := Ideal)) V (main_arg3 : DevRef τ sig) = V (main_arg3 : DevRef τ sig) := by after_results_simp
theorem arg4_eq (V : Valuation τ sig (Elt Ideal)) :
    after (ops (F := Ideal)) V (main_arg4 : DevRef τ sig) = V (main_arg4 : DevRef τ sig) := by after_results_simp
theorem arg5_eq (V : Valuation τ sig (Elt Ideal)) :
    after (ops (F := Ideal)) V (main_arg5 : DevRef τ sig) = V (main_arg5 : DevRef τ sig) := by after_results_simp

/-- On every device, from any memory with zero counters: every weakly fair execution of @main at the
    ideal instance terminates with the result buffer at `refOut` of the arguments' launch contents
    and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v27).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.ReferenceIdeal.Hand

end
-- ==== Proof.Ref.Value.lean ====
/- The reference's result read at an index.

   Each operation of the reference is read at one index of its result: the three contractions as sums
   over the contracted coordinate, the reshape of a column to a vector, the broadcasts of a vector along
   the rows or the columns of a rectangle and of a scalar everywhere, the pointwise operations at the
   element, the row sum as the initial value plus the sum over the columns. Composed in @main's order
   they give the row-normalised arrangement of the attention layer: with X = h·W, el = X·wl, er = X·wr,
   the weight of edge (i, j) is exp (leaky (el i + er j)) where adj i j > 0 and 0 elsewhere, each weight
   is divided by max (Σ_j |weight i j|) ε, and the quotients are contracted with X; the bias is added. -/
import proofs.«130185_g11553462026822_cont_9to1c4b_334_25_alg».proof.Proof.Ref.Term
import proofs.«130185_g11553462026822_cont_9to1c4b_334_25_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.Lib.StableHlo.Predicate
import Mathlib.Algebra.BigOperators.Fin

noncomputable section

namespace Cert.ReferenceIdeal.Hand

open Idealize.ShloMosaic Idealize.ShloMosaic.ValueIdx Cert.ReferenceIdeal
open Cert.ReferenceIdeal.Facts₀ Cert.ReferenceIdeal.Facts

variable [Cert.ReferenceIdeal.Facts]

/-! ## The three contractions

A dot_general with one contracted axis, read at (p, q), is the sum over the contracted coordinate d of
the left operand at (p, d) times the right operand at (d, q). For each of the three records the operand
indices are named axis by axis: a kept axis reads the result's coordinate, the contracted axis reads the
contraction index's one coordinate. -/

section XW
/-- h·W: the left operand's row is the result's row. -/
theorem lhs_XW_0 (j : S8192x128.Idx) (k : dot_S8192x128_S128x128_S8192x128_1_0_0_1_n_n.contr.Idx) :
    (dot_S8192x128_S128x128_S8192x128_1_0_0_1_n_n.lhsIdx j k 0).val = (j 0).val := by
  unfold DotDims.lhsIdx
  rw [dif_neg (show ¬ (0 : Fin S8192x128.rank) ∈ dot_S8192x128_S128x128_S8192x128_1_0_0_1_n_n.lhsBatch from List.not_mem_nil),
    dif_pos (show (0 : Fin S8192x128.rank) ∈ dot_S8192x128_S128x128_S8192x128_1_0_0_1_n_n.lhsNonContracting from List.mem_singleton.mpr rfl)]
  rfl
/-- h·W: the left operand's column is the contracted coordinate. -/
theorem lhs_XW_1 (j : S8192x128.Idx) (k : dot_S8192x128_S128x128_S8192x128_1_0_0_1_n_n.contr.Idx) :
    (dot_S8192x128_S128x128_S8192x128_1_0_0_1_n_n.lhsIdx j k 1).val = (k ⟨0, Nat.one_pos⟩).val :=
  DotDims.lhsIdx_val_of_single _ rfl j k
/-- h·W: the right operand's row is the contracted coordinate. -/
theorem rhs_XW_0 (j : S8192x128.Idx) (k : dot_S8192x128_S128x128_S8192x128_1_0_0_1_n_n.contr.Idx) :
    (dot_S8192x128_S128x128_S8192x128_1_0_0_1_n_n.rhsIdx j k 0).val = (k ⟨0, Nat.one_pos⟩).val :=
  DotDims.rhsIdx_val_of_single _ rfl j k
/-- h·W: the right operand's column is the result's column. -/
theorem rhs_XW_1 (j : S8192x128.Idx) (k : dot_S8192x128_S128x128_S8192x128_1_0_0_1_n_n.contr.Idx) :
    (dot_S8192x128_S128x128_S8192x128_1_0_0_1_n_n.rhsIdx j k 1).val = (j 1).val := by
  unfold DotDims.rhsIdx
  rw [dif_neg (show ¬ (1 : Fin S128x128.rank) ∈ dot_S8192x128_S128x128_S8192x128_1_0_0_1_n_n.rhsBatch from List.not_mem_nil),
    dif_pos (show (1 : Fin S128x128.rank) ∈ dot_S8192x128_S128x128_S8192x128_1_0_0_1_n_n.rhsNonContracting from List.mem_singleton.mpr rfl)]
  rfl

/-- h·W at (j, q) is Σ_d h (j, d) · W (d, q). -/
theorem dotXW_apply (l : (⟨S8192x128, .f32⟩ : BufTy).Contents (Elt Ideal)) (r : (⟨S128x128, .f32⟩ : BufTy).Contents (Elt Ideal))
    (j : Fin 8192) (q : Fin 128) :
    Host.dotGeneral (F := Ideal) (φ₁ := .f32) (φ₂ := .f32) dot_S8192x128_S128x128_S8192x128_1_0_0_1_n_n none l r (ix2 j q)
      = ∑ d : Fin 128, l (ix2 j d) * r (ix2 d q) := by
  refine (Ideal.dotGeneral_apply dot_S8192x128_S128x128_S8192x128_1_0_0_1_n_n none .single l r (ix2 j q)).trans ?_
  rw [← Equiv.sum_comp (contrEquiv1 dot_S8192x128_S128x128_S8192x128_1_0_0_1_n_n 128 rfl rfl).symm]
  refine Finset.sum_congr rfl fun d _ => ?_
  have hd := contrEquiv1_symm_val dot_S8192x128_S128x128_S8192x128_1_0_0_1_n_n 128 rfl rfl d
  congr 2
  · funext a
    refine Fin.ext ?_
    match a with
    | ⟨0, _⟩ => exact lhs_XW_0 _ _
    | ⟨1, _⟩ => exact (lhs_XW_1 _ _).trans hd
  · funext a
    refine Fin.ext ?_
    match a with
    | ⟨0, _⟩ => exact (rhs_XW_0 _ _).trans hd
    | ⟨1, _⟩ => exact rhs_XW_1 _ _
end XW

section Col
/-- X·w: the left operand's row is the result's row. -/
theorem lhs_Col_0 (j : S8192x1.Idx) (k : dot_S8192x128_S128x1_S8192x1_1_0_0_1_n_n.contr.Idx) :
    (dot_S8192x128_S128x1_S8192x1_1_0_0_1_n_n.lhsIdx j k 0).val = (j 0).val := by
  unfold DotDims.lhsIdx
  rw [dif_neg (show ¬ (0 : Fin S8192x128.rank) ∈ dot_S8192x128_S128x1_S8192x1_1_0_0_1_n_n.lhsBatch from List.not_mem_nil),
    dif_pos (show (0 : Fin S8192x128.rank) ∈ dot_S8192x128_S128x1_S8192x1_1_0_0_1_n_n.lhsNonContracting from List.mem_singleton.mpr rfl)]
  rfl
/-- X·w: the left operand's column is the contracted coordinate. -/
theorem lhs_Col_1 (j : S8192x1.Idx) (k : dot_S8192x128_S128x1_S8192x1_1_0_0_1_n_n.contr.Idx) :
    (dot_S8192x128_S128x1_S8192x1_1_0_0_1_n_n.lhsIdx j k 1).val = (k ⟨0, Nat.one_pos⟩).val :=
  DotDims.lhsIdx_val_of_single _ rfl j k
/-- X·w: the right operand's row is the contracted coordinate. -/
theorem rhs_Col_0 (j : S8192x1.Idx) (k : dot_S8192x128_S128x1_S8192x1_1_0_0_1_n_n.contr.Idx) :
    (dot_S8192x128_S128x1_S8192x1_1_0_0_1_n_n.rhsIdx j k 0).val = (k ⟨0, Nat.one_pos⟩).val :=
  DotDims.rhsIdx_val_of_single _ rfl j k
/-- X·w: the right operand's one column is the result's. -/
theorem rhs_Col_1 (j : S8192x1.Idx) (k : dot_S8192x128_S128x1_S8192x1_1_0_0_1_n_n.contr.Idx) :
    (dot_S8192x128_S128x1_S8192x1_1_0_0_1_n_n.rhsIdx j k 1).val = (j 1).val := by
  unfold DotDims.rhsIdx
  rw [dif_neg (show ¬ (1 : Fin S128x1.rank) ∈ dot_S8192x128_S128x1_S8192x1_1_0_0_1_n_n.rhsBatch from List.not_mem_nil),
    dif_pos (show (1 : Fin S128x1.rank) ∈ dot_S8192x128_S128x1_S8192x1_1_0_0_1_n_n.rhsNonContracting from List.mem_singleton.mpr rfl)]
  rfl

/-- X·w, a column, at (j, 0) is Σ_d X (j, d) · w (d, 0). -/
theorem dotCol_apply (l : (⟨S8192x128, .f32⟩ : BufTy).Contents (Elt Ideal)) (r : (⟨S128x1, .f32⟩ : BufTy).Contents (Elt Ideal))
    (j : Fin 8192)  :
    Host.dotGeneral (F := Ideal) (φ₁ := .f32) (φ₂ := .f32) dot_S8192x128_S128x1_S8192x1_1_0_0_1_n_n none l r (ix2 j (0 : Fin 1))
      = ∑ d : Fin 128, l (ix2 j d) * r (ix2 d (0 : Fin 1)) := by
  refine (Ideal.dotGeneral_apply dot_S8192x128_S128x1_S8192x1_1_0_0_1_n_n none .single l r (ix2 j (0 : Fin 1))).trans ?_
  rw [← Equiv.sum_comp (contrEquiv1 dot_S8192x128_S128x1_S8192x1_1_0_0_1_n_n 128 rfl rfl).symm]
  refine Finset.sum_congr rfl fun d _ => ?_
  have hd := contrEquiv1_symm_val dot_S8192x128_S128x1_S8192x1_1_0_0_1_n_n 128 rfl rfl d
  congr 2
  · funext a
    refine Fin.ext ?_
    match a with
    | ⟨0, _⟩ => exact lhs_Col_0 _ _
    | ⟨1, _⟩ => exact (lhs_Col_1 _ _).trans hd
  · funext a
    refine Fin.ext ?_
    match a with
    | ⟨0, _⟩ => exact (rhs_Col_0 _ _).trans hd
    | ⟨1, _⟩ => exact rhs_Col_1 _ _
end Col

section Att
/-- A·X: the left operand's row is the result's row. -/
theorem lhs_Att_0 (j : S8192x128.Idx) (k : dot_S8192x8192_S8192x128_S8192x128_1_0_0_1_n_n.contr.Idx) :
    (dot_S8192x8192_S8192x128_S8192x128_1_0_0_1_n_n.lhsIdx j k 0).val = (j 0).val := by
  unfold DotDims.lhsIdx
  rw [dif_neg (show ¬ (0 : Fin S8192x8192.rank) ∈ dot_S8192x8192_S8192x128_S8192x128_1_0_0_1_n_n.lhsBatch from List.not_mem_nil),
    dif_pos (show (0 : Fin S8192x8192.rank) ∈ dot_S8192x8192_S8192x128_S8192x128_1_0_0_1_n_n.lhsNonContracting from List.mem_singleton.mpr rfl)]
  rfl
/-- A·X: the left operand's column is the contracted neighbour. -/
theorem lhs_Att_1 (j : S8192x128.Idx) (k : dot_S8192x8192_S8192x128_S8192x128_1_0_0_1_n_n.contr.Idx) :
    (dot_S8192x8192_S8192x128_S8192x128_1_0_0_1_n_n.lhsIdx j k 1).val = (k ⟨0, Nat.one_pos⟩).val :=
  DotDims.lhsIdx_val_of_single _ rfl j k
/-- A·X: the right operand's row is the contracted neighbour. -/
theorem rhs_Att_0 (j : S8192x128.Idx) (k : dot_S8192x8192_S8192x128_S8192x128_1_0_0_1_n_n.contr.Idx) :
    (dot_S8192x8192_S8192x128_S8192x128_1_0_0_1_n_n.rhsIdx j k 0).val = (k ⟨0, Nat.one_pos⟩).val :=
  DotDims.rhsIdx_val_of_single _ rfl j k
/-- A·X: the right operand's column is the result's column. -/
theorem rhs_Att_1 (j : S8192x128.Idx) (k : dot_S8192x8192_S8192x128_S8192x128_1_0_0_1_n_n.contr.Idx) :
    (dot_S8192x8192_S8192x128_S8192x128_1_0_0_1_n_n.rhsIdx j k 1).val = (j 1).val := by
  unfold DotDims.rhsIdx
  rw [dif_neg (show ¬ (1 : Fin S8192x128.rank) ∈ dot_S8192x8192_S8192x128_S8192x128_1_0_0_1_n_n.rhsBatch from List.not_mem_nil),
    dif_pos (show (1 : Fin S8192x128.rank) ∈ dot_S8192x8192_S8192x128_S8192x128_1_0_0_1_n_n.rhsNonContracting from List.mem_singleton.mpr rfl)]
  rfl

/-- A·X at (i, q) is Σ_j A (i, j) · X (j, q). -/
theorem dotAtt_apply (l : (⟨S8192x8192, .f32⟩ : BufTy).Contents (Elt Ideal)) (r : (⟨S8192x128, .f32⟩ : BufTy).Contents (Elt Ideal))
    (j : Fin 8192) (q : Fin 128) :
    Host.dotGeneral (F := Ideal) (φ₁ := .f32) (φ₂ := .f32) dot_S8192x8192_S8192x128_S8192x128_1_0_0_1_n_n none l r (ix2 j q)
      = ∑ d : Fin 8192, l (ix2 j d) * r (ix2 d q) := by
  refine (Ideal.dotGeneral_apply dot_S8192x8192_S8192x128_S8192x128_1_0_0_1_n_n none .single l r (ix2 j q)).trans ?_
  rw [← Equiv.sum_comp (contrEquiv1 dot_S8192x8192_S8192x128_S8192x128_1_0_0_1_n_n 8192 rfl rfl).symm]
  refine Finset.sum_congr rfl fun d _ => ?_
  have hd := contrEquiv1_symm_val dot_S8192x8192_S8192x128_S8192x128_1_0_0_1_n_n 8192 rfl rfl d
  congr 2
  · funext a
    refine Fin.ext ?_
    match a with
    | ⟨0, _⟩ => exact lhs_Att_0 _ _
    | ⟨1, _⟩ => exact (lhs_Att_1 _ _).trans hd
  · funext a
    refine Fin.ext ?_
    match a with
    | ⟨0, _⟩ => exact (rhs_Att_0 _ _).trans hd
    | ⟨1, _⟩ => exact rhs_Att_1 _ _
end Att

/-! ## Layout operations at an index

The reshape of a column [8192, 1] to a vector [8192] keeps the row-major position; a vector laid along
the rows (as a column [n, 1]) or along the columns (as a row [1, m]) and then over the rectangle reads
the coordinate it keeps; a scalar broadcast anywhere reads the scalar. The axis maps are written at
their literal types (an axis of a rank-2 shape is a `Fin 2`). -/

/-- The column reshaped to a vector reads, at i, the column at (i, 0). -/
theorem reshapeCol_apply {α : Type} (x : S8192x1.Idx → α) (i : Fin 8192) :
    shapeCast S8192 x shapeCasts_S8192x1_S8192 (ix1 i) = x (ix2 i (0 : Fin 1)) :=
  shapeCast_apply x shapeCasts_S8192x1_S8192 (ix1 i) (ix2 i (0 : Fin 1)) (by
    rw [Shape.rowMajor_val_two, Shape.rowMajor_val_one]
    show i.val * 1 + 0 = i.val
    omega)

/-- A vector as a column [8192, 1] reads, at (p, 0), the vector at p. -/
theorem bcastCol_apply {α : Type} (v : S8192.Idx → α) (p : Fin 8192) :
    broadcastInDim S8192x1 (![0] : Fin 1 → Fin 2) bcast_S8192_S8192x1_0 v (ix2 p (0 : Fin 1)) = v (ix1 p) :=
  broadcastInDim_apply ![0] bcast_S8192_S8192x1_0 v (ix2 p (0 : Fin 1)) (ix1 p) (fun a =>
    match a with | ⟨0, _⟩ => rfl)

/-- A vector as a row [1, 8192] reads, at (0, q), the vector at q. -/
theorem bcastRow_apply {α : Type} (v : S8192.Idx → α) (q : Fin 8192) :
    broadcastInDim S1x8192 (![1] : Fin 1 → Fin 2) bcast_S8192_S1x8192_1 v (ix2 (0 : Fin 1) q) = v (ix1 q) :=
  broadcastInDim_apply ![1] bcast_S8192_S1x8192_1 v (ix2 (0 : Fin 1) q) (ix1 q) (fun a =>
    match a with | ⟨0, _⟩ => rfl)

/-- A column [8192, 1] over the square reads, at (p, q), the column at (p, 0). -/
theorem bcastSqCol_apply {α : Type} (x : S8192x1.Idx → α) (p q : Fin 8192) :
    broadcastInDim S8192x8192 (![0, 1] : Fin 2 → Fin 2) bcast_S8192x1_S8192x8192_0_1 x (ix2 p q) = x (ix2 p (0 : Fin 1)) :=
  broadcastInDim_apply ![0, 1] bcast_S8192x1_S8192x8192_0_1 x (ix2 p q) (ix2 p (0 : Fin 1)) (fun a =>
    match a with | ⟨0, _⟩ => rfl | ⟨1, _⟩ => rfl)

/-- A row [1, 8192] over the square reads, at (p, q), the row at (0, q). -/
theorem bcastSqRow_apply {α : Type} (x : S1x8192.Idx → α) (p q : Fin 8192) :
    broadcastInDim S8192x8192 (![0, 1] : Fin 2 → Fin 2) bcast_S1x8192_S8192x8192_0_1 x (ix2 p q) = x (ix2 (0 : Fin 1) q) :=
  broadcastInDim_apply ![0, 1] bcast_S1x8192_S8192x8192_0_1 x (ix2 p q) (ix2 (0 : Fin 1) q) (fun a =>
    match a with | ⟨0, _⟩ => rfl | ⟨1, _⟩ => rfl)

/-- The bias as a row [1, 128] reads, at (0, q), the bias at q. -/
theorem bcastBiasRow_apply {α : Type} (v : S128.Idx → α) (q : Fin 128) :
    broadcastInDim S1x128 (![1] : Fin 1 → Fin 2) bcast_S128_S1x128_1 v (ix2 (0 : Fin 1) q) = v (ix1 q) :=
  broadcastInDim_apply ![1] bcast_S128_S1x128_1 v (ix2 (0 : Fin 1) q) (ix1 q) (fun a =>
    match a with | ⟨0, _⟩ => rfl)

/-- The bias row over [8192, 128] reads, at (p, q), the row at (0, q). -/
theorem bcastBias_apply {α : Type} (x : S1x128.Idx → α) (p : Fin 8192) (q : Fin 128) :
    broadcastInDim S8192x128 (![0, 1] : Fin 2 → Fin 2) bcast_S1x128_S8192x128_0_1 x (ix2 p q) = x (ix2 (0 : Fin 1) q) :=
  broadcastInDim_apply ![0, 1] bcast_S1x128_S8192x128_0_1 x (ix2 p q) (ix2 (0 : Fin 1) q) (fun a =>
    match a with | ⟨0, _⟩ => rfl | ⟨1, _⟩ => rfl)

/-- A scalar over the square reads the scalar. -/
theorem bcastScalarSq_apply {α : Type} (x : S_.Idx → α) (p q : Fin 8192) :
    broadcastInDim S8192x8192 (![] : Fin 0 → Fin 2) bcast_S_S8192x8192 x (ix2 p q) = x ix0 :=
  broadcastInDim_scalar_apply bcast_S_S8192x8192 x (ix2 p q)

/-- A scalar over the column [8192, 1] reads the scalar. -/
theorem bcastScalarCol_apply {α : Type} (x : S_.Idx → α) (p : Fin 8192) :
    broadcastInDim S8192x1 (![] : Fin 0 → Fin 2) bcast_S_S8192x1 x (ix2 p (0 : Fin 1)) = x ix0 :=
  broadcastInDim_scalar_apply bcast_S_S8192x1 x (ix2 p (0 : Fin 1))

/-! ## Pointwise operations at an index

The host's exponential and absolute value, the integer minimum and comparison, and an integer splat,
each at one element. -/

section Pointwise
variable {s : Shape}

/-- The host's exponential at an index is the exponential of the element. -/
theorem hostExp_apply (x : FVec Ideal s .f32) (i : s.Idx) : Host.exp x i = Ideal.exp (x i) := rfl
/-- The host's absolute value at an index is max x (−x) of the element. -/
theorem hostAbsf_apply (x : FVec Ideal s .f32) (i : s.Idx) : Host.absf x i = max (x i) (-(x i)) := rfl
/-- A signed minimum at an index is the minimum of the words. -/
theorem minsi_apply {w : Nat} (x y : IVec s w) (i : s.Idx) : minsi x y i = IntOp.minsi (x i) (y i) := rfl
/-- An integer comparison at an index compares the words. -/
theorem cmpi_apply {w : Nat} (p : CmpIPredicate) (x y : IVec s w) (i : s.Idx) : cmpi p x y i = IntOp.cmpi p (x i) (y i) := rfl
/-- An integer splat reads its word everywhere. -/
theorem constantI_apply {w : Nat} (b : BitVec w) (i : s.Idx) : constantI s w b i = b := rfl

end Pointwise

/-! ## The row sum

The reduce-add over axis 1 of the square, read at row p, is the initial value plus the sum over the
columns q of the operand at (p, q). -/

theorem rowSum_apply (x : (⟨S8192x8192, .f32⟩ : BufTy).Contents (Elt Ideal)) (init : (⟨S_, .f32⟩ : BufTy).Contents (Elt Ideal))
    (p : Fin 8192) :
    Host.reduceAdd (F := Ideal) (φ := .f32) x init reducesTo_S8192x8192_S8192_d1 h_S_ (ix1 p)
      = init ix0 + ∑ q : Fin 8192, x (ix2 p q) := by
  have hR : S8192x8192.Reduces [1] S8192 := by decide
  refine (hostReduceAdd_apply x init reducesTo_S8192x8192_S8192_d1 h_S_ (ix1 p)).trans ?_
  rw [Ideal.hostReduceAdd_single reducesTo_S8192x8192_S8192_d1 hR]
  congr 1
  · exact congrArg init (eq_ix0 _)
  · refine Finset.sum_congr rfl fun q _ => congrArg x ?_
    funext a
    match a with
    | ⟨0, _⟩ => rfl
    | ⟨1, _⟩ => rfl

/-! ## Two selects

The edge mask: min(adj, 1) > 0 as signed words says adj > 0 as an integer. The rectifier's branch:
the comparison s ≥ 0 of extended reals as a one-bit word selects by 0 ≤ s. -/

/-- min(a, 1) > 0, signed, exactly when a is positive as an integer. -/
theorem cmpi_sgt_minsi_one_zero (a : BitVec 32) :
    IntOp.cmpi .sgt (IntOp.minsi a 1#32) 0#32 = 1#1 ↔ 0 < a.toInt := by
  have h1 : (1#32 : BitVec 32).toInt = 1 := by decide
  have h0 : (0#32 : BitVec 32).toInt = 0 := by decide
  unfold IntOp.cmpi IntOp.minsi
  by_cases hlt : a.slt 1#32 = true
  · rw [if_pos hlt]
    have hlt' := hlt
    simp only [BitVec.slt, h1, decide_eq_true_eq] at hlt'
    simp only [BitVec.slt, h0, StableHlo.Predicate.ofBool_eq_one_iff, decide_eq_true_eq]
  · rw [if_neg hlt]
    have hlt' := hlt
    simp only [BitVec.slt, h1, decide_eq_true_eq, not_lt] at hlt'
    simp only [BitVec.slt, h0, h1, StableHlo.Predicate.ofBool_eq_one_iff, decide_eq_true_eq]
    omega

/-- The select on the edge mask is the `if` on adj > 0. -/
theorem select_mask {α : Type} (a : BitVec 32) (x y : α) :
    Scalar.select (IntOp.cmpi .sgt (IntOp.minsi a 1#32) 0#32) x y = if 0 < a.toInt then x else y :=
  if_congr (cmpi_sgt_minsi_one_zero a) rfl rfl

/-- The select on s ≥ 0 is the `if` on 0 ≤ s. -/
theorem select_oge_zero (s x y : EReal) :
    Scalar.select (Ideal.cmp .oge s 0) x y = if 0 ≤ s then x else y :=
  if_congr (by
    show BitVec.ofBool (decide ((0 : EReal) ≤ s)) = 1#1 ↔ 0 ≤ s
    rw [StableHlo.Predicate.ofBool_eq_one_iff, decide_eq_true_eq]) rfl rfl

/-! ## The reference's result at (i, k)

The index goes through the operations outermost first: the sum with the bias row, the contraction
with X over the neighbours j, the quotient by the floored row sum of absolute values, the select on the
edge mask, the exponential, the rectifier's select on s ≥ 0, the sum of the column of el and the row of
er, the reshapes and the two contractions with wl and wr, and h·W. What is left is the row-normalised
arrangement, term for term. -/

theorem refOut_apply
    (a0 : (⟨S8192x128, .f32⟩ : BufTy).Contents (Elt Ideal))
    (a1 : (⟨S8192x8192, .i32⟩ : BufTy).Contents (Elt Ideal))
    (a2 : (⟨S128x128, .f32⟩ : BufTy).Contents (Elt Ideal))
    (a3 a4 : (⟨S128x1, .f32⟩ : BufTy).Contents (Elt Ideal))
    (a5 : (⟨S128, .f32⟩ : BufTy).Contents (Elt Ideal))
    (i : Fin 8192) (k : Fin 128) :
    refOut a0 a1 a2 a3 a4 a5 (ValueIdx.ix2 i k)
      = Cert.Spec.Rform (fun j d => a0 (ValueIdx.ix2 j d)) (fun p q => a1 (ValueIdx.ix2 p q))
          (fun d q => a2 (ValueIdx.ix2 d q)) (fun q => a3 (ValueIdx.ix2 q (0 : Fin 1)))
          (fun q => a4 (ValueIdx.ix2 q (0 : Fin 1))) (fun q => a5 (ValueIdx.ix1 q)) i k := by
  unfold refOut
  simp only [addf_apply, mulf_apply, maximumf_apply, constant_apply, select_apply, cmpf_apply, hostDivf_apply,
    hostExp_apply, hostAbsf_apply, minsi_apply, cmpi_apply, constantI_apply, bcastScalarSq_apply, bcastScalarCol_apply,
    dotXW_apply, dotCol_apply, dotAtt_apply, reshapeCol_apply, bcastCol_apply, bcastRow_apply, bcastSqCol_apply,
    bcastSqRow_apply, bcastBiasRow_apply, bcastBias_apply, rowSum_apply, select_mask, Ideal.cmpf_def,
    select_oge_zero, Ideal.ofBits_zero_f32, id_eq]
  unfold Cert.Spec.Rform Cert.Spec.attR Cert.Spec.leaky Cert.Spec.EL Cert.Spec.ER Cert.Spec.X Cert.Spec.slope Cert.Spec.floor
  rfl

end Cert.ReferenceIdeal.Hand

end
-- ==== Proof.Finite.lean ====
/- Finiteness of the inputs, read back from the printed precondition.

   The precondition is the conjunction of five tests, one per float argument array: every entry x of the array
   satisfies |x| < +inf, where |x| = max x (-x) and +inf is binary32's pattern 0x7F800000, the extended reals' ⊤.
   Each test is a reduction by "and" over all axes, so its value 1 gives the comparison at every index; the four
   "and"s joining the tests split into their operands. An extended real with max x (-x) < ⊤ is neither ⊥ (whose
   negation is ⊤) nor ⊤, hence a real number. -/
import proofs.«130185_g11553462026822_cont_9to1c4b_334_25_alg».proof.Defs
import proofs.«130185_g11553462026822_cont_9to1c4b_334_25_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- The scalar shape has one index. -/
instance : Subsingleton Cert.Pre_finite_inputs.S_.Idx := ⟨fun a b => funext fun d => d.elim0⟩

/-- An extended real whose absolute value max x (-x) lies strictly below binary32's +inf pattern (the extended
    reals' ⊤) is neither ⊥ nor ⊤: it is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  induction x using EReal.rec with
  | bot => simp [Ideal.cmp] at h
  | top => simp [Ideal.cmp] at h
  | coe r => exact ⟨r, rfl⟩

/-- Under the precondition every entry of the five float argument arrays — h, W, Wl, Wr and b, in the order of the
    program's float arguments — is a real number. -/
theorem real_of_pre (hP : Cert.Pre_finite_inputs.Facts) (m : (ℓ : Loc Cert.KernelIdeal.nD Cert.KernelIdeal.τ Cert.KernelIdeal.sig) → Buf (Elt Ideal) ℓ)
    (hpre : Cert.Pre_KernelIdeal (hPre_finite_inputs := hP) m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  -- the predicate's one value, at the scalar shape's one index
  have h := congrFun (hpre c) ValueIdx.ix0
  dsimp only [Cert.Pre_finite_inputs.fn, Cert.Pre_finite_inputs.fn_part1, Idealize.ShloMosaic.andi] at h
  -- ((((t0 ∧ t2) ∧ t3) ∧ t4) ∧ t5) = 1 gives each test = 1
  obtain ⟨h0123, h5⟩ := IntOp.andi_eq_one.1 h
  obtain ⟨h012, h4⟩ := IntOp.andi_eq_one.1 h0123
  obtain ⟨h01, h3⟩ := IntOp.andi_eq_one.1 h012
  obtain ⟨h0, h2⟩ := IntOp.andi_eq_one.1 h01
  -- a full reduction by "and" that is 1 had 1 at every index: the comparison |x i| < ⊤ there
  refine ⟨fun i => ?_, fun i => ?_, fun i => ?_, fun i => ?_, fun i => ?_⟩
  · exact real_of_abs_lt_top _ (Host.reduce_andi_all _ _ _ _ _ h0 i)
  · exact real_of_abs_lt_top _ (Host.reduce_andi_all _ _ _ _ _ h2 i)
  · exact real_of_abs_lt_top _ (Host.reduce_andi_all _ _ _ _ _ h3 i)
  · exact real_of_abs_lt_top _ (Host.reduce_andi_all _ _ _ _ _ h4 i)
  · exact real_of_abs_lt_top _ (Host.reduce_andi_all _ _ _ _ _ h5 i)

end Cert.Finite
-- ==== Proof.lean ====
/- The certificate of the graph-attention kernel against its jnp reference, over the extended reals.

   Both kernel programs (the word-level one and its idealization, which is the same text read at the ideal
   instance) run one pallas_call over 65 grid points: point 0 projects the features and keeps X beside a ones
   column, exp el, exp (c·el), exp er and exp (c·er) in scratch; point t ≥ 1 forms the masked weights
   max (exp el_i · exp er_j) (exp (c·el_i) · exp (c·er_j)) of 128 rows, contracts them with [X | 1] in two halves
   of the neighbours and divides the feature columns by max (ones column) ε. The reference normalises each row
   of exp (leaky (el_i + er_j)) by max (Σ_j |·|) ε and contracts with X. On real inputs the two are one function
   (Cert.Spec.Kform_eq_Rform); the frames are the runs with the results dropped. -/
import proofs.«130185_g11553462026822_cont_9to1c4b_334_25_alg».proof.Defs
import proofs.«130185_g11553462026822_cont_9to1c4b_334_25_alg».proof.Proof.Gen.Kernel
import proofs.«130185_g11553462026822_cont_9to1c4b_334_25_alg».proof.Proof.Gen.KernelIdeal
import proofs.«130185_g11553462026822_cont_9to1c4b_334_25_alg».proof.Proof.Gen.ReferenceIdeal
import proofs.«130185_g11553462026822_cont_9to1c4b_334_25_alg».proof.Proof.Gen.Pre_finite_inputs
import proofs.«130185_g11553462026822_cont_9to1c4b_334_25_alg».proof.Proof.K.Frame
import proofs.«130185_g11553462026822_cont_9to1c4b_334_25_alg».proof.Proof.KI.Frame
import proofs.«130185_g11553462026822_cont_9to1c4b_334_25_alg».proof.Proof.KI.ValOut
import proofs.«130185_g11553462026822_cont_9to1c4b_334_25_alg».proof.Proof.Ref.Run
import proofs.«130185_g11553462026822_cont_9to1c4b_334_25_alg».proof.Proof.Ref.Value
import proofs.«130185_g11553462026822_cont_9to1c4b_334_25_alg».proof.Proof.Spec
import proofs.«130185_g11553462026822_cont_9to1c4b_334_25_alg».proof.Proof.Finite
import Idealize.ShloMosaic.Adequacy
import Idealize.ShloMosaic.Init

noncomputable section

namespace Cert.Proof

open Idealize.ShloMosaic Idealize.SL.Sem ValueIdx

/-- The reference's result is the kernel's output array: the two arrangements agree on real inputs. -/
theorem bridge (hKI : Cert.KernelIdeal.Facts) (hR : Cert.ReferenceIdeal.Facts) (hP : Cert.Pre_finite_inputs.Facts)
    (m : (ℓ : Loc Cert.KernelIdeal.nD Cert.KernelIdeal.τ Cert.KernelIdeal.sig) → Buf (Elt Ideal) ℓ)
    (hpre : Cert.Pre_KernelIdeal (hPre_finite_inputs := hP) m) (c : Dev Cert.KernelIdeal.nD) :
    Cert.ReferenceIdeal.Hand.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = (Cert.KernelIdeal.Hand.dats (F := Ideal) m 0 c).arrAt 7 Cert.KernelIdeal.cfg0.N := by
  obtain ⟨h0, h2, h3, h4, h5⟩ := Cert.Finite.real_of_pre hP m hpre c
  funext idx
  obtain ⟨i, k, rfl⟩ : ∃ (i : Fin 8192) (k : Fin 128), idx = ix2 i k := ⟨idx 0, idx 1, eq_ix2 idx⟩
  rw [Cert.ReferenceIdeal.Hand.refOut_apply]
  refine Eq.trans ?_ (Cert.KernelIdeal.Hand.final_apply m c i k).symm
  exact (Cert.Spec.Kform_eq_Rform _ _ _ _ _ _ (fun j d => h0 _) (fun d q => h2 _) (fun q => h3 _) (fun q => h4 _) (fun q => h5 _) i k).symm

theorem claim : Cert.Claim := ⟨Cert.Kernel.Gen.facts, Cert.KernelIdeal.Gen.facts, Cert.ReferenceIdeal.Gen.facts, Cert.Pre_finite_inputs.Gen.facts,
  fun m ρ _ => (θ_run _ _ _).mono (fun _ h c => (h c).2) (Cert.Kernel.Hand.run_named (F := Bits) m ρ),
  fun m ρ _ => (θ_run _ _ _).mono (fun _ h c => (h c).2) (Cert.KernelIdeal.Hand.run_named (F := Ideal) m ρ),
  fun m ρ _ => (θ_run _ _ _).mono (fun _ h c => (h c).2) (Cert.ReferenceIdeal.Hand.run m ρ),
  trivial,
  fun m ρ m' ρ' hpre hagree => ⟨fun c => (Cert.KernelIdeal.Hand.dats (F := Ideal) m 0 c).arrAt 7 Cert.KernelIdeal.cfg0.N,
    Cert.KernelIdeal.Hand.run_named (F := Ideal) m ρ,
    (θ_run _ _ _).mono (fun _ h c => ⟨by
        rw [(h c).1, (hagree c).1, (hagree c).2.1, (hagree c).2.2.1, (hagree c).2.2.2.1, (hagree c).2.2.2.2.1, (hagree c).2.2.2.2.2]
        exact bridge Cert.KernelIdeal.Gen.facts Cert.ReferenceIdeal.Gen.facts Cert.Pre_finite_inputs.Gen.facts m hpre c, (h c).2⟩)
      (Cert.ReferenceIdeal.Hand.run m' ρ')⟩⟩

end Cert.Proof

end
